-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v77_0)) (v1 : (c : Dev Cert.KernelIdeal.nD) → Buf (Elt Ideal) ((c.tc : Thread Cert.KernelIdeal.nD Cert.KernelIdeal.τ).loc Cert.KernelIdeal.main_v79)) (v2 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77_0) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_v78) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_v108) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S64x128 : Shape := ⟨2, ![64, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000 : S_.BroadcastsInDim S50000 (![] : Fin 0 → Fin S50000.rank)
  reducesTo_S50000_S_d0 : S50000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S64x128 : S_.BroadcastsInDim S64x128 (![] : Fin 0 → Fin S64x128.rank)
  reducesTo_S64x128_S_d0_1 : S64x128.ReducesTo [0, 1] S_

variable [Facts]

def fn_part5 {F : FTy → Type} [FloatOps F] (main_arg2 : IVec S50000 32) (main_arg3 : IVec S50000 32) (main_v83 : IVec S_ 1) (main_v84 : IVec S50000 32) : IVec S_ 1 :=
  let main_v85 : IVec S50000 1 := cmpi .sge main_arg2 main_v84
  let main_c_33 : IVec S_ 32 := constantI S_ 32 64#32
  let main_v86 : IVec S50000 32 := broadcastInDim S50000 ![] bcast_S_S50000 main_c_33
  let main_v87 : IVec S50000 1 := cmpi .slt main_arg2 main_v86
  let main_v88 : IVec S50000 1 := andi main_v85 main_v87
  let main_c_34 : IVec S_ 1 := constantI S_ 1 1#1
  let main_v89 : IVec S_ 1 := (fun x v => Host.reduce IntOp.andi x v reducesTo_S50000_S_d0 h_S_) main_v88 main_c_34
  let main_v90 : IVec S_ 1 := andi main_v83 main_v89
  let main_c_35 : IVec S_ 32 := constantI S_ 32 0#32
  let main_v91 : IVec S50000 32 := broadcastInDim S50000 ![] bcast_S_S50000 main_c_35
  let main_v92 : IVec S50000 1 := cmpi .sge main_arg3 main_v91
  let main_c_36 : IVec S_ 32 := constantI S_ 32 64#32
  let main_v93 : IVec S50000 32 := broadcastInDim S50000 ![] bcast_S_S50000 main_c_36
  let main_v94 : IVec S50000 1 := cmpi .slt main_arg3 main_v93
  let main_v95 : IVec S50000 1 := andi main_v92 main_v94
  let main_c_37 : IVec S_ 1 := constantI S_ 1 1#1
  let main_v96 : IVec S_ 1 := (fun x v => Host.reduce IntOp.andi x v reducesTo_S50000_S_d0 h_S_) main_v95 main_c_37
  let main_v97 : IVec S_ 1 := andi main_v90 main_v96
  main_v97

def fn_part4 {F : FTy → Type} [FloatOps F] (main_arg2 : IVec S50000 32) (main_arg3 : IVec S50000 32) (main_arg17 : FVec F S128 .f32) (main_arg18 : FVec F S64x128 .f32) (main_arg19 : FVec F S64x128 .f32) (main_v63 : IVec S_ 1) (main_v67 : IVec S_ 1) : IVec S_ 1 :=
  let main_v68 : IVec S_ 1 := andi main_v63 main_v67
  let main_v69 : FVec F S128 .f32 := Host.absf main_arg17
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S64x128 .f32 := Host.absf main_arg18
  let main_cst_28 : FVec F S_ .f32 := constant S_ .f32 0x7F800000#32
  let main_v75 : FVec F S64x128 .f32 := broadcastInDim S64x128 ![] bcast_S_S64x128 main_cst_28
  let main_v76 : IVec S64x128 1 := cmpf .olt main_v74 main_v75
  let main_c_29 : IVec S_ 1 := constantI S_ 1 1#1
  let main_v77 : IVec S_ 1 := (fun x v => Host.reduce IntOp.andi x v reducesTo_S64x128_S_d0_1 h_S_) main_v76 main_c_29
  let main_v78 : IVec S_ 1 := andi main_v73 main_v77
  let main_v79 : FVec F S64x128 .f32 := Host.absf main_arg19
  let main_cst_30 : FVec F S_ .f32 := constant S_ .f32 0x7F800000#32
  let main_v80 : FVec F S64x128 .f32 := broadcastInDim S64x128 ![] bcast_S_S64x128 main_cst_30
  let main_v81 : IVec S64x128 1 := cmpf .olt main_v79 main_v80
  let main_c_31 : IVec S_ 1 := constantI S_ 1 1#1
  let main_v82 : IVec S_ 1 := (fun x v => Host.reduce IntOp.andi x v reducesTo_S64x128_S_d0_1 h_S_) main_v81 main_c_31
  let main_v83 : IVec S_ 1 := andi main_v78 main_v82
  let main_c_32 : IVec S_ 32 := constantI S_ 32 0#32
  let main_v84 : IVec S50000 32 := broadcastInDim S50000 ![] bcast_S_S50000 main_c_32
  fn_part5 (F := F) main_arg2 main_arg3 main_v83 main_v84

def fn_part3 {F : FTy → Type} [FloatOps F] (main_arg2 : IVec S50000 32) (main_arg3 : IVec S50000 32) (main_arg14 : FVec F S1x128 .f32) (main_arg15 : FVec F S1 .f32) (main_arg16 : FVec F S128x128 .f32) (main_arg17 : FVec F S128 .f32) (main_arg18 : FVec F S64x128 .f32) (main_arg19 : FVec F S64x128 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S1x128 .f32 := Host.absf main_arg14
  let main_cst_20 : FVec F S_ .f32 := constant S_ .f32 0x7F800000#32
  let main_v55 : FVec F S1x128 .f32 := broadcastInDim S1x128 ![] bcast_S_S1x128 main_cst_20
  let main_v56 : IVec S1x128 1 := cmpf .olt main_v54 main_v55
  let main_c_21 : IVec S_ 1 := constantI S_ 1 1#1
  let main_v57 : IVec S_ 1 := (fun x v => Host.reduce IntOp.andi x v reducesTo_S1x128_S_d0_1 h_S_) main_v56 main_c_21
  let main_v58 : IVec S_ 1 := andi main_v53 main_v57
  let main_v59 : FVec F S1 .f32 := Host.absf main_arg15
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S128x128 .f32 := Host.absf main_arg16
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg2 main_arg3 main_arg17 main_arg18 main_arg19 main_v63 main_v67

def fn_part2 {F : FTy → Type} [FloatOps F] (main_arg2 : IVec S50000 32) (main_arg3 : IVec S50000 32) (main_arg10 : FVec F S128x128 .f32) (main_arg11 : FVec F S128 .f32) (main_arg12 : FVec F S1x128 .f32) (main_arg13 : FVec F S1 .f32) (main_arg14 : FVec F S1x128 .f32) (main_arg15 : FVec F S1 .f32) (main_arg16 : FVec F S128x128 .f32) (main_arg17 : FVec F S128 .f32) (main_arg18 : FVec F S64x128 .f32) (main_arg19 : FVec F S64x128 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S1x128 .f32 := Host.absf main_arg12
  let main_cst_16 : FVec F S_ .f32 := constant S_ .f32 0x7F800000#32
  let main_v45 : FVec F S1x128 .f32 := broadcastInDim S1x128 ![] bcast_S_S1x128 main_cst_16
  let main_v46 : IVec S1x128 1 := cmpf .olt main_v44 main_v45
  let main_c_17 : IVec S_ 1 := constantI S_ 1 1#1
  let main_v47 : IVec S_ 1 := (fun x v => Host.reduce IntOp.andi x v reducesTo_S1x128_S_d0_1 h_S_) main_v46 main_c_17
  let main_v48 : IVec S_ 1 := andi main_v43 main_v47
  let main_v49 : FVec F S1 .f32 := Host.absf main_arg13
  let main_cst_18 : FVec F S_ .f32 := constant S_ .f32 0x7F800000#32
  let main_v50 : FVec F S1 .f32 := broadcastInDim S1 ![] bcast_S_S1 main_cst_18
  fn_part3 (F := F) main_arg2 main_arg3 main_arg14 main_arg15 main_arg16 main_arg17 main_arg18 main_arg19 main_v48 main_v49 main_v50

def fn_part1 {F : FTy → Type} [FloatOps F] (main_arg2 : IVec S50000 32) (main_arg3 : IVec S50000 32) (main_arg7 : FVec F S50000 .f32) (main_arg8 : FVec F S128x128 .f32) (main_arg9 : FVec F S128 .f32) (main_arg10 : FVec F S128x128 .f32) (main_arg11 : FVec F S128 .f32) (main_arg12 : FVec F S1x128 .f32) (main_arg13 : FVec F S1 .f32) (main_arg14 : FVec F S1x128 .f32) (main_arg15 : FVec F S1 .f32) (main_arg16 : FVec F S128x128 .f32) (main_arg17 : FVec F S128 .f32) (main_arg18 : FVec F S64x128 .f32) (main_arg19 : FVec F S64x128 .f32) (main_v13 : IVec S_ 1) (main_v16 : IVec S50000 1) : IVec S_ 1 :=
  let main_c_5 : IVec S_ 1 := constantI S_ 1 1#1
  let main_v17 : IVec S_ 1 := (fun x v => Host.reduce IntOp.andi x v reducesTo_S50000_S_d0 h_S_) main_v16 main_c_5
  let main_v18 : IVec S_ 1 := andi main_v13 main_v17
  let main_v19 : FVec F S50000 .f32 := Host.absf main_arg7
  let main_cst_6 : FVec F S_ .f32 := constant S_ .f32 0x7F800000#32
  let main_v20 : FVec F S50000 .f32 := broadcastInDim S50000 ![] bcast_S_S50000 main_cst_6
  let main_v21 : IVec S50000 1 := cmpf .olt main_v19 main_v20
  let main_c_7 : IVec S_ 1 := constantI S_ 1 1#1
  let main_v22 : IVec S_ 1 := (fun x v => Host.reduce IntOp.andi x v reducesTo_S50000_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg3 main_arg10 main_arg11 main_arg12 main_arg13 main_arg14 main_arg15 main_arg16 main_arg17 main_arg18 main_arg19 main_v33

def fn {F : FTy → Type} [FloatOps F] (main_arg0 : FVec F S50000x128 .f32) (main_arg1 : IVec S2x800000 32) (main_arg2 : IVec S50000 32) (main_arg3 : IVec S50000 32) (main_arg4 : FVec F S50000 .f32) (main_arg5 : FVec F S50000 .f32) (main_arg6 : FVec F S50000 .f32) (main_arg7 : FVec F S50000 .f32) (main_arg8 : FVec F S128x128 .f32) (main_arg9 : FVec F S128 .f32) (main_arg10 : FVec F S128x128 .f32) (main_arg11 : FVec F S128 .f32) (main_arg12 : FVec F S1x128 .f32) (main_arg13 : FVec F S1 .f32) (main_arg14 : FVec F S1x128 .f32) (main_arg15 : FVec F S1 .f32) (main_arg16 : FVec F S128x128 .f32) (main_arg17 : FVec F S128 .f32) (main_arg18 : FVec F S64x128 .f32) (main_arg19 : FVec F S64x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000 .f32 := Host.absf main_arg4
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : FVec F S50000 .f32 := Host.absf main_arg5
  let main_cst_2 : FVec F S_ .f32 := constant S_ .f32 0x7F800000#32
  let main_v10 : FVec F S50000 .f32 := broadcastInDim S50000 ![] bcast_S_S50000 main_cst_2
  let main_v11 : IVec S50000 1 := cmpf .olt main_v9 main_v10
  let main_c_3 : IVec S_ 1 := constantI S_ 1 1#1
  let main_v12 : IVec S_ 1 := (fun x v => Host.reduce IntOp.andi x v reducesTo_S50000_S_d0 h_S_) main_v11 main_c_3
  let main_v13 : IVec S_ 1 := andi main_v8 main_v12
  let main_v14 : FVec F S50000 .f32 := Host.absf main_arg6
  let main_cst_4 : FVec F S_ .f32 := constant S_ .f32 0x7F800000#32
  let main_v15 : FVec F S50000 .f32 := broadcastInDim S50000 ![] bcast_S_S50000 main_cst_4
  let main_v16 : IVec S50000 1 := cmpf .olt main_v14 main_v15
  fn_part1 (F := F) main_arg2 main_arg3 main_arg7 main_arg8 main_arg9 main_arg10 main_arg11 main_arg12 main_arg13 main_arg14 main_arg15 main_arg16 main_arg17 main_arg18 main_arg19 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S64x128 : Shape := ⟨2, ![64, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S50000x2 : Shape := ⟨2, ![50000, 2]⟩
abbrev S50000x4 : Shape := ⟨2, ![50000, 4]⟩
abbrev S128x1 : Shape := ⟨2, ![128, 1]⟩
abbrev S2000x128 : Shape := ⟨2, ![2000, 128]⟩
abbrev S2000x2 : Shape := ⟨2, ![2000, 2]⟩
abbrev S2000x4 : Shape := ⟨2, ![2000, 4]⟩
abbrev S2000x1 : Shape := ⟨2, ![2000, 1]⟩
abbrev S2000x64 : Shape := ⟨2, ![2000, 64]⟩
abbrev S1x1 : Shape := ⟨2, ![1, 1]⟩

abbrev nBuf : Space → Nat
  | .hbm => 124
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S50000, .i32⟩
  | .hbm, ⟨4, _⟩ => ⟨S50000, .f32⟩
  | .hbm, ⟨5, _⟩ => ⟨S50000, .f32⟩
  | .hbm, ⟨6, _⟩ => ⟨S50000, .f32⟩
  | .hbm, ⟨7, _⟩ => ⟨S50000, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x128, .f32⟩
  | .hbm, ⟨13, _⟩ => ⟨S1, .f32⟩
  | .hbm, ⟨14, _⟩ => ⟨S1x128, .f32⟩
  | .hbm, ⟨15, _⟩ => ⟨S1, .f32⟩
  | .hbm, ⟨16, _⟩ => ⟨S128x128, .f32⟩
  | .hbm, ⟨17, _⟩ => ⟨S128, .f32⟩
  | .hbm, ⟨18, _⟩ => ⟨S64x128, .f32⟩
  | .hbm, ⟨19, _⟩ => ⟨S64x128, .f32⟩
  | .hbm, ⟨20, _⟩ => ⟨S1x800000, .i32⟩
  | .hbm, ⟨21, _⟩ => ⟨S800000, .i32⟩
  | .hbm, ⟨22, _⟩ => ⟨S1x800000, .i32⟩
  | .hbm, ⟨23, _⟩ => ⟨S800000, .i32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .i1⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000, .f32⟩
  | .hbm, ⟨41, _⟩ => ⟨S_, .f32⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S_, .f32⟩
  | .hbm, ⟨46, _⟩ => ⟨S50000, .f32⟩
  | .hbm, ⟨47, _⟩ => ⟨S50000, .i1⟩
  | .hbm, ⟨48, _⟩ => ⟨S_, .f32⟩
  | .hbm, ⟨49, _⟩ => ⟨S50000, .f32⟩
  | .hbm, ⟨50, _⟩ => ⟨S50000, .f32⟩
  | .hbm, ⟨51, _⟩ => ⟨S50000, .f32⟩
  | .hbm, ⟨52, _⟩ => ⟨S_, .f32⟩
  | .hbm, ⟨53, _⟩ => ⟨S_, .f32⟩
  | .hbm, ⟨54, _⟩ => ⟨S50000, .f32⟩
  | .hbm, ⟨55, _⟩ => ⟨S50000, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000, .f32⟩
  | .hbm, ⟨74, _⟩ => ⟨S800000, .f32⟩
  | .hbm, ⟨75, _⟩ => ⟨S800000x1, .f32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S800000x128, .f32⟩
  | .hbm, ⟨85, _⟩ => ⟨S800000x128, .f32⟩
  | .hbm, ⟨86, _⟩ => ⟨S800000x128, .f32⟩
  | .hbm, ⟨87, _⟩ => ⟨S_, .f32⟩
  | .hbm, ⟨88, _⟩ => ⟨S50000x128, .f32⟩
  | .hbm, ⟨89, _⟩ => ⟨S800000x1, .i32⟩
  | .hbm, ⟨90, _⟩ => ⟨S50000x128, .f32⟩
  | .hbm, ⟨91, _⟩ => ⟨S800000x1, .f32⟩
  | .hbm, ⟨92, _⟩ => ⟨S_, .i32⟩
  | .hbm, ⟨93, _⟩ => ⟨S800000, .i32⟩
  | .hbm, ⟨94, _⟩ => ⟨S800000, .i1⟩
  | .hbm, ⟨95, _⟩ => ⟨S_, .i32⟩
  | .hbm, ⟨96, _⟩ => ⟨S800000, .i32⟩
  | .hbm, ⟨97, _⟩ => ⟨S800000, .i32⟩
  | .hbm, ⟨98, _⟩ => ⟨S800000, .i32⟩
  | .hbm, ⟨99, _⟩ => ⟨S800000x1, .i32⟩
  | .hbm, ⟨100, _⟩ => ⟨S800000x128, .f32⟩
  | .hbm, ⟨101, _⟩ => ⟨S800000x128, .f32⟩
  | .hbm, ⟨102, _⟩ => ⟨S800000x128, .f32⟩
  | .hbm, ⟨103, _⟩ => ⟨S_, .f32⟩
  | .hbm, ⟨104, _⟩ => ⟨S50000x128, .f32⟩
  | .hbm, ⟨105, _⟩ => ⟨S800000x1, .i32⟩
  | .hbm, ⟨106, _⟩ => ⟨S50000x128, .f32⟩
  | .hbm, ⟨107, _⟩ => ⟨S50000x1, .i32⟩
  | .hbm, ⟨108, _⟩ => ⟨S50000x1, .i32⟩
  | .hbm, ⟨109, _⟩ => ⟨S50000x2, .i32⟩
  | .hbm, ⟨110, _⟩ => ⟨S50000x1, .f32⟩
  | .hbm, ⟨111, _⟩ => ⟨S50000x1, .f32⟩
  | .hbm, ⟨112, _⟩ => ⟨S50000x1, .f32⟩
  | .hbm, ⟨113, _⟩ => ⟨S50000x1, .f32⟩
  | .hbm, ⟨114, _⟩ => ⟨S50000x4, .f32⟩
  | .hbm, ⟨115, _⟩ => ⟨S128x128, .f32⟩
  | .hbm, ⟨116, _⟩ => ⟨S128x128, .f32⟩
  | .hbm, ⟨117, _⟩ => ⟨S128x128, .f32⟩
  | .hbm, ⟨118, _⟩ => ⟨S128x1, .f32⟩
  | .hbm, ⟨119, _⟩ => ⟨S128x1, .f32⟩
  | .hbm, ⟨120, _⟩ => ⟨S50000x128, .f32⟩
  | .hbm, ⟨121, _⟩ => ⟨S50000x2, .f32⟩
  | .hbm, ⟨122, _⟩ => ⟨S50000x1, .f32⟩
  | .hbm, ⟨123, _⟩ => ⟨S50000x1, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x2, .i32⟩
  | .local _ .vmem, ⟨7, _⟩ => ⟨S2000x2, .i32⟩
  | .local _ .vmem, ⟨8, _⟩ => ⟨S2000x4, .f32⟩
  | .local _ .vmem, ⟨9, _⟩ => ⟨S2000x4, .f32⟩
  | .local _ .vmem, ⟨10, _⟩ => ⟨S64x128, .f32⟩
  | .local _ .vmem, ⟨11, _⟩ => ⟨S64x128, .f32⟩
  | .local _ .vmem, ⟨12, _⟩ => ⟨S128x128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S128x1, .f32⟩
  | .local _ .vmem, ⟨17, _⟩ => ⟨S1, .f32⟩
  | .local _ .vmem, ⟨18, _⟩ => ⟨S128x1, .f32⟩
  | .local _ .vmem, ⟨19, _⟩ => ⟨S1, .f32⟩
  | .local _ .vmem, ⟨20, _⟩ => ⟨S128x128, .f32⟩
  | .local _ .vmem, ⟨21, _⟩ => ⟨S128, .f32⟩
  | .local _ .vmem, ⟨22, _⟩ => ⟨S2000x128, .f32⟩
  | .local _ .vmem, ⟨23, _⟩ => ⟨S2000x128, .f32⟩
  | .local _ .vmem, ⟨24, _⟩ => ⟨S2000x2, .f32⟩
  | .local _ .vmem, ⟨25, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_2 : Ref sig .tc := ⟨.hbm, 34, rfl⟩
abbrev main_v11 : Ref sig .tc := ⟨.hbm, 35, rfl⟩
abbrev main_v12 : Ref sig .tc := ⟨.hbm, 36, rfl⟩
abbrev main_cst_3 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_4 : Ref sig .tc := ⟨.hbm, 41, rfl⟩
abbrev main_call0_v0 : Ref sig .tc := ⟨.hbm, 42, rfl⟩
abbrev main_call0_v1 : Ref sig .tc := ⟨.hbm, 43, rfl⟩
abbrev main_v16 : Ref sig .tc := ⟨.hbm, 44, rfl⟩
abbrev main_cst_5 : Ref sig .tc := ⟨.hbm, 45, rfl⟩
abbrev main_v17 : Ref sig .tc := ⟨.hbm, 46, rfl⟩
abbrev main_v18 : Ref sig .tc := ⟨.hbm, 47, rfl⟩
abbrev main_cst_6 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_7 : Ref sig .tc := ⟨.hbm, 52, rfl⟩
abbrev main_call1_v0 : Ref sig .tc := ⟨.hbm, 53, rfl⟩
abbrev main_call1_v1 : Ref sig .tc := ⟨.hbm, 54, rfl⟩
abbrev main_v22 : Ref sig .tc := ⟨.hbm, 55, rfl⟩
abbrev main_c : Ref sig .tc := ⟨.hbm, 56, rfl⟩
abbrev main_v23 : Ref sig .tc := ⟨.hbm, 57, rfl⟩
abbrev main_v24 : Ref sig .tc := ⟨.hbm, 58, rfl⟩
abbrev main_c_8 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_c_9 : Ref sig .tc := ⟨.hbm, 65, rfl⟩
abbrev main_v30 : Ref sig .tc := ⟨.hbm, 66, rfl⟩
abbrev main_v31 : Ref sig .tc := ⟨.hbm, 67, rfl⟩
abbrev main_c_10 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_c_11 : Ref sig .tc := ⟨.hbm, 76, rfl⟩
abbrev main_v39 : Ref sig .tc := ⟨.hbm, 77, rfl⟩
abbrev main_v40 : Ref sig .tc := ⟨.hbm, 78, rfl⟩
abbrev main_c_12 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_13 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_c_14 : Ref sig .tc := ⟨.hbm, 92, rfl⟩
abbrev main_v52 : Ref sig .tc := ⟨.hbm, 93, rfl⟩
abbrev main_v53 : Ref sig .tc := ⟨.hbm, 94, rfl⟩
abbrev main_c_15 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_cst_16 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77_0 : Ref sig .tc := ⟨.hbm, 120, rfl⟩
abbrev main_v77_1 : Ref sig .tc := ⟨.hbm, 121, rfl⟩
abbrev main_v78 : Ref sig .tc := ⟨.hbm, 122, rfl⟩
abbrev main_v79 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23
abbrev cc0_sem18_0 : DmaSem sig := 24
abbrev cc0_sem18_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x2 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S2000x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2000x2 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  concatenates_S50000x1_S50000x1_S50000x2_d1 : Shape.Concatenates [S50000x1, S50000x1] S50000x2 1
  concatenates_S50000x1_S50000x1_S50000x1_S50000x1_S50000x4_d1 : Shape.Concatenates [S50000x1, S50000x1, S50000x1, S50000x1] S50000x4 1
  transposes_S128x128_S128x128_1_0 : S128x128.Transposes [1, 0] S128x128
  transposes_S1x128_S128x1_1_0 : S1x128.Transposes [1, 0] S128x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x2_S2000x2_0_0 : ∀ a, (![0, 0] : Fin 2 → Nat) a + S2000x2.size a ≤ S2000x2.size a
  h_S2000x2 : 0 < S2000x2.numel
  shapeCasts_S2000x2_S2000x2 : S2000x2.ShapeCasts S2000x2
  slices_S2000x2_o0_0_S2000x1 : S2000x2.Slices ![0, 0] S2000x1
  slices_S2000x2_o0_1_S2000x1 : S2000x2.Slices ![0, 1] S2000x1
  iota_S2000x64_d1_w32 : S2000x64.Iotas .tc 32 [1]
  broadcasts_S2000x1_S2000x64 : S2000x1.Broadcasts S2000x64
  natLt_1_32 : 1 < 32
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  inb_S2000x4_S2000x4_0_0 : ∀ a, (![0, 0] : Fin 2 → Nat) a + S2000x4.size a ≤ S2000x4.size a
  h_S2000x4 : 0 < S2000x4.numel
  shapeCasts_S2000x4_S2000x4 : S2000x4.ShapeCasts S2000x4
  slices_S2000x4_o0_0_S2000x1 : S2000x4.Slices ![0, 0] S2000x1
  slices_S2000x4_o0_1_S2000x1 : S2000x4.Slices ![0, 1] S2000x1
  slices_S2000x4_o0_2_S2000x1 : S2000x4.Slices ![0, 2] S2000x1
  slices_S2000x4_o0_3_S2000x1 : S2000x4.Slices ![0, 3] S2000x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  broadcasts_S2000x1_S2000x128 : S2000x1.Broadcasts S2000x128
  inb_S2000x2_S2000x1_0_0 : ∀ a, (![0, 0] : Fin 2 → Nat) a + S2000x1.size a ≤ S2000x2.size a
  h_S2000x1 : 0 < S2000x1.numel
  inb_S2000x2_S2000x1_0_1 : ∀ a, (![0, 1] : Fin 2 → Nat) a + S2000x1.size a ≤ S2000x2.size a
  slices_S50000x2_S50000x1_0_0 : S50000x2.Slices ![0, 0] S50000x1
  slices_S50000x2_S50000x1_0_1 : S50000x2.Slices ![0, 1] S50000x1
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x64_S64x128_S2000x128_1_0_0_1_n_n_wf : DotDims.WF S2000x64 S64x128 S2000x128 [1] [0] [0] [1] [] []
  dot_S2000x128_S128x1_S2000x1_1_0_0_1_n_n_wf : DotDims.WF S2000x128 S128x1 S2000x1 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x2.size a ≤ S50000x2.size a
  hwx0_3 : ∀ i : grid0.Coords, EltTy.bits .i32 = 32 ∨ (Rect.block (s := S50000x2) S2000x2.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x4.size a ≤ S50000x4.size a
  hwx0_4 : ∀ i : grid0.Coords, EltTy.bits .f32 = 32 ∨ (Rect.block (s := S50000x4) S2000x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .f32 = 32 ∨ (Rect.block (s := S64x128) S64x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x1.size a ≤ S128x1.size a
  hwx0_11 : ∀ i : grid0.Coords, EltTy.bits .f32 = 32 ∨ (Rect.block (s := S128x1) S128x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1.size a ≤ S1.size a
  hwx0_12 : ∀ i : grid0.Coords, EltTy.bits .f32 = 32 ∨ (Rect.block (s := S1) S1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x1.size a ≤ S128x1.size a
  hwx0_13 : ∀ i : grid0.Coords, EltTy.bits .f32 = 32 ∨ (Rect.block (s := S128x1) S128x1.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1.size a ≤ S1.size a
  hwx0_14 : ∀ i : grid0.Coords, EltTy.bits .f32 = 32 ∨ (Rect.block (s := S1) S1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x128.size a ≤ S128x128.size a
  hwx0_15 : ∀ i : grid0.Coords, EltTy.bits .f32 = 32 ∨ (Rect.block (s := S128x128) S128x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128.size a ≤ S128.size a
  hwx0_16 : ∀ i : grid0.Coords, EltTy.bits .f32 = 32 ∨ (Rect.block (s := S128) S128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2000x128.size a ≤ S50000x128.size a
  hwx0_17 : ∀ i : grid0.Coords, EltTy.bits .f32 = 32 ∨ (Rect.block (s := S50000x128) S2000x128.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S2000x2.size a ≤ S50000x2.size a
  hwx0_18 : ∀ i : grid0.Coords, EltTy.bits .f32 = 32 ∨ (Rect.block (s := S50000x2) S2000x2.size (cc0_transform_18 i) (hinb0_18 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v63) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v66) S2000x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v71) S2000x4.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg19) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg18) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v72) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v73) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v75) S128x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v76) S128x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg15) S1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v74) S128x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg17) S128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v77_0) S2000x128.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v77_1) S2000x2.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S64x128 : Shape := ⟨2, ![64, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S128x1 : Shape := ⟨2, ![128, 1]⟩
abbrev S1x1 : Shape := ⟨2, ![1, 1]⟩
abbrev S50000x2 : Shape := ⟨2, ![50000, 2]⟩

abbrev nBuf : Space → Nat
  | .hbm => 188
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S50000, .i32⟩
  | 4 => ⟨S50000, .f32⟩
  | 5 => ⟨S50000, .f32⟩
  | 6 => ⟨S50000, .f32⟩
  | 7 => ⟨S50000, .f32⟩
  | 8 => ⟨S128x128, .f32⟩
  | 9 => ⟨S128, .f32⟩
  | 10 => ⟨S128x128, .f32⟩
  | 11 => ⟨S128, .f32⟩
  | 12 => ⟨S1x128, .f32⟩
  | 13 => ⟨S1, .f32⟩
  | 14 => ⟨S1x128, .f32⟩
  | 15 => ⟨S1, .f32⟩
  | 16 => ⟨S128x128, .f32⟩
  | 17 => ⟨S128, .f32⟩
  | 18 => ⟨S64x128, .f32⟩
  | 19 => ⟨S64x128, .f32⟩
  | 20 => ⟨S1x800000, .i32⟩
  | 21 => ⟨S800000, .i32⟩
  | 22 => ⟨S1x800000, .i32⟩
  | 23 => ⟨S800000, .i32⟩
  | 24 => ⟨S_, .f32⟩
  | 25 => ⟨S800000, .f32⟩
  | 26 => ⟨S_, .f32⟩
  | 27 => ⟨S50000, .f32⟩
  | 28 => ⟨S800000x1, .i32⟩
  | 29 => ⟨S50000, .f32⟩
  | 30 => ⟨S_, .f32⟩
  | 31 => ⟨S50000, .f32⟩
  | 32 => ⟨S800000x1, .i32⟩
  | 33 => ⟨S50000, .f32⟩
  | 34 => ⟨S_, .f32⟩
  | 35 => ⟨S50000, .f32⟩
  | 36 => ⟨S50000, .i1⟩
  | 37 => ⟨S_, .f32⟩
  | 38 => ⟨S50000, .f32⟩
  | 39 => ⟨S50000, .f32⟩
  | 40 => ⟨S50000, .f32⟩
  | 41 => ⟨S_, .f32⟩
  | 42 => ⟨S_, .f32⟩
  | 43 => ⟨S50000, .f32⟩
  | 44 => ⟨S50000, .f32⟩
  | 45 => ⟨S_, .f32⟩
  | 46 => ⟨S50000, .f32⟩
  | 47 => ⟨S50000, .i1⟩
  | 48 => ⟨S_, .f32⟩
  | 49 => ⟨S50000, .f32⟩
  | 50 => ⟨S50000, .f32⟩
  | 51 => ⟨S50000, .f32⟩
  | 52 => ⟨S_, .f32⟩
  | 53 => ⟨S_, .f32⟩
  | 54 => ⟨S50000, .f32⟩
  | 55 => ⟨S50000, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000, .f32⟩
  | 74 => ⟨S800000, .f32⟩
  | 75 => ⟨S800000x1, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x128, .f32⟩
  | 85 => ⟨S800000x128, .f32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S800000x1, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x128, .f32⟩
  | 101 => ⟨S800000x128, .f32⟩
  | 102 => ⟨S800000x128, .f32⟩
  | 103 => ⟨S_, .f32⟩
  | 104 => ⟨S50000x128, .f32⟩
  | 105 => ⟨S800000x1, .i32⟩
  | 106 => ⟨S50000x128, .f32⟩
  | 107 => ⟨S50000x128, .f32⟩
  | 108 => ⟨S_, .i32⟩
  | 109 => ⟨S50000, .i32⟩
  | 110 => ⟨S50000, .i1⟩
  | 111 => ⟨S_, .i32⟩
  | 112 => ⟨S50000, .i32⟩
  | 113 => ⟨S50000, .i32⟩
  | 114 => ⟨S50000, .i32⟩
  | 115 => ⟨S50000x1, .i32⟩
  | 116 => ⟨S50000x128, .f32⟩
  | 117 => ⟨S50000x128, .f32⟩
  | 118 => ⟨S128x1, .f32⟩
  | 119 => ⟨S50000x1, .f32⟩
  | 120 => ⟨S1x1, .f32⟩
  | 121 => ⟨S50000x1, .f32⟩
  | 122 => ⟨S50000x1, .f32⟩
  | 123 => ⟨S50000x128, .f32⟩
  | 124 => ⟨S_, .i32⟩
  | 125 => ⟨S50000, .i32⟩
  | 126 => ⟨S50000, .i1⟩
  | 127 => ⟨S_, .i32⟩
  | _ => ⟨S50000x128, .f32⟩

abbrev hbmTy0_1 (i : Nat) : BufTy := match i % 128 with
  | 0 => ⟨S50000, .i32⟩
  | 1 => ⟨S50000, .i32⟩
  | 2 => ⟨S50000, .i32⟩
  | 3 => ⟨S50000x1, .i32⟩
  | 4 => ⟨S50000x128, .f32⟩
  | 5 => ⟨S50000x128, .f32⟩
  | 6 => ⟨S128x1, .f32⟩
  | 7 => ⟨S50000x1, .f32⟩
  | 8 => ⟨S1x1, .f32⟩
  | 9 => ⟨S50000x1, .f32⟩
  | 10 => ⟨S50000x1, .f32⟩
  | 11 => ⟨S50000x2, .f32⟩
  | 12 => ⟨S_, .f32⟩
  | 13 => ⟨S50000, .f32⟩
  | 14 => ⟨S_, .f32⟩
  | 15 => ⟨S50000, .f32⟩
  | 16 => ⟨S50000, .f32⟩
  | 17 => ⟨S50000x1, .f32⟩
  | 18 => ⟨S50000x2, .f32⟩
  | 19 => ⟨S50000x2, .f32⟩
  | 20 => ⟨S50000x2, .f32⟩
  | 21 => ⟨S_, .f32⟩
  | 22 => ⟨S50000, .f32⟩
  | 23 => ⟨S50000x1, .f32⟩
  | 24 => ⟨S50000x2, .f32⟩
  | 25 => ⟨S50000x2, .f32⟩
  | 26 => ⟨S50000x1, .f32⟩
  | 27 => ⟨S50000x1, .f32⟩
  | 28 => ⟨S50000x1, .f32⟩
  | 29 => ⟨S50000x1, .f32⟩
  | 30 => ⟨S50000x1, .f32⟩
  | 31 => ⟨S50000x1, .f32⟩
  | 32 => ⟨S50000x1, .f32⟩
  | 33 => ⟨S50000x1, .f32⟩
  | 34 => ⟨S50000x1, .f32⟩
  | 35 => ⟨S50000x1, .f32⟩
  | 36 => ⟨S128x128, .f32⟩
  | 37 => ⟨S50000x128, .f32⟩
  | 38 => ⟨S1x128, .f32⟩
  | 39 => ⟨S50000x128, .f32⟩
  | 40 => ⟨S50000x128, .f32⟩
  | 41 => ⟨S50000x128, .f32⟩
  | 42 => ⟨S50000x128, .f32⟩
  | 43 => ⟨S128x128, .f32⟩
  | 44 => ⟨S50000x128, .f32⟩
  | 45 => ⟨S1x128, .f32⟩
  | 46 => ⟨S50000x128, .f32⟩
  | 47 => ⟨S50000x128, .f32⟩
  | 48 => ⟨S50000x128, .f32⟩
  | 49 => ⟨S50000x128, .f32⟩
  | 50 => ⟨S50000x128, .f32⟩
  | 51 => ⟨S128x128, .f32⟩
  | 52 => ⟨S50000x128, .f32⟩
  | 53 => ⟨S1x128, .f32⟩
  | 54 => ⟨S50000x128, .f32⟩
  | 55 => ⟨S50000x128, .f32⟩
  | 56 => ⟨S_, .f32⟩
  | 57 => ⟨S50000x128, .f32⟩
  | 58 => ⟨S50000x128, .f32⟩
  | 59 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_2 : Ref sig .tc := ⟨.hbm, 34, rfl⟩
abbrev main_v11 : Ref sig .tc := ⟨.hbm, 35, rfl⟩
abbrev main_v12 : Ref sig .tc := ⟨.hbm, 36, rfl⟩
abbrev main_cst_3 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_4 : Ref sig .tc := ⟨.hbm, 41, rfl⟩
abbrev main_call0_v0 : Ref sig .tc := ⟨.hbm, 42, rfl⟩
abbrev main_call0_v1 : Ref sig .tc := ⟨.hbm, 43, rfl⟩
abbrev main_v16 : Ref sig .tc := ⟨.hbm, 44, rfl⟩
abbrev main_cst_5 : Ref sig .tc := ⟨.hbm, 45, rfl⟩
abbrev main_v17 : Ref sig .tc := ⟨.hbm, 46, rfl⟩
abbrev main_v18 : Ref sig .tc := ⟨.hbm, 47, rfl⟩
abbrev main_cst_6 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_7 : Ref sig .tc := ⟨.hbm, 52, rfl⟩
abbrev main_call1_v0 : Ref sig .tc := ⟨.hbm, 53, rfl⟩
abbrev main_call1_v1 : Ref sig .tc := ⟨.hbm, 54, rfl⟩
abbrev main_v22 : Ref sig .tc := ⟨.hbm, 55, rfl⟩
abbrev main_c : Ref sig .tc := ⟨.hbm, 56, rfl⟩
abbrev main_v23 : Ref sig .tc := ⟨.hbm, 57, rfl⟩
abbrev main_v24 : Ref sig .tc := ⟨.hbm, 58, rfl⟩
abbrev main_c_8 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_c_9 : Ref sig .tc := ⟨.hbm, 65, rfl⟩
abbrev main_v30 : Ref sig .tc := ⟨.hbm, 66, rfl⟩
abbrev main_v31 : Ref sig .tc := ⟨.hbm, 67, rfl⟩
abbrev main_c_10 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_c_11 : Ref sig .tc := ⟨.hbm, 76, rfl⟩
abbrev main_v39 : Ref sig .tc := ⟨.hbm, 77, rfl⟩
abbrev main_v40 : Ref sig .tc := ⟨.hbm, 78, rfl⟩
abbrev main_c_12 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_13 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_c_14 : Ref sig .tc := ⟨.hbm, 92, rfl⟩
abbrev main_v52 : Ref sig .tc := ⟨.hbm, 93, rfl⟩
abbrev main_v53 : Ref sig .tc := ⟨.hbm, 94, rfl⟩
abbrev main_c_15 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_cst_16 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_c_17 : Ref sig .tc := ⟨.hbm, 108, rfl⟩
abbrev main_v65 : Ref sig .tc := ⟨.hbm, 109, rfl⟩
abbrev main_v66 : Ref sig .tc := ⟨.hbm, 110, rfl⟩
abbrev main_c_18 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_c_19 : Ref sig .tc := ⟨.hbm, 124, rfl⟩
abbrev main_v79 : Ref sig .tc := ⟨.hbm, 125, rfl⟩
abbrev main_v80 : Ref sig .tc := ⟨.hbm, 126, rfl⟩
abbrev main_c_20 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_21 : Ref sig .tc := ⟨.hbm, 140, rfl⟩
abbrev main_v93 : Ref sig .tc := ⟨.hbm, 141, rfl⟩
abbrev main_cst_22 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_cst_23 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_cst_24 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  transposes_S1x128_S128x1_1_0 : S1x128.Transposes [1, 0] S128x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  concatenates_S50000x1_S50000x1_S50000x2_d1 : Shape.Concatenates [S50000x1, S50000x1] S50000x2 1
  reducesTo_S50000x2_S50000_d1 : S50000x2.ReducesTo [1] S50000
  h_S_ : 0 < S_.numel
  bcast_S50000x1_S50000x2_0_1 : S50000x1.BroadcastsInDim S50000x2 (![0, 1] : Fin 2 → Fin S50000x2.rank)
  slices_S50000x2_S50000x1_0_0 : S50000x2.Slices ![0, 0] S50000x1
  slices_S50000x2_S50000x1_0_1 : S50000x2.Slices ![0, 1] S50000x1
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x1_S50000x128_0_1 : S50000x1.BroadcastsInDim S50000x128 (![0, 1] : Fin 2 → Fin S50000x128.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S64x128_S50000x1_S50000x128_1_0_n_n_0_1_1128_wf : GatherDims.WF S64x128 S50000x1 S50000x128 [1] [0] [] [0] [] 1 ![1, 128]
  dot_S50000x128_S128x1_S50000x1_1_0_0_1_n_n_wf : DotDims.WF S50000x128 S128x1 S50000x1 [1] [0] [0] [1] [] []
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S64x128_S50000x1_S50000x128_1_0_n_n_0_1_1128 : GatherDims S64x128 S50000x1 S50000x128 where
  offsetDims := [1]
  collapsedSliceDims := [0]
  operandBatchingDims := []
  startIndicesBatchingDims := []
  startIndexMap := [0]
  indexVectorDim := 1
  sliceSizes := ![1, 128]
  wf := gather_S64x128_S50000x1_S50000x128_1_0_n_n_0_1_1128_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Kernel.FrameHost.lean ====
/- The host side of the frame of the kernel program as this namespace prints it: what every array holds when the one
   region is entered (the fold of the host operations before it over the launch memory), that no host
   operation writes an argument array, each window's block at a grid point as a read of its array, that an
   input window's staging buffer holds that block at every point, and the frame statement read off a run
   to the pipeline library's post. Stated at any float instance. -/
import proofs.«402007_j15350213116045_2_alg».proof.Proof.Gen.Kernel.Launch
import proofs.«402007_j15350213116045_2_alg».proof.Proof.Gen.Kernel.Skeleton
import proofs.«402007_j15350213116045_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## The program around its region -/

/-- The host operations before the region, stretch by stretch (the two outlined selects are stretches of their own). -/
abbrev pre : List (List (HloOp τ sig (Elt F))) := [hostOps0, hostOps0_1, hostOps0_2, hostOps0_3, hostOps0_4]

/-- Core `c`'s buffer contents when the region is entered: the host operations before it folded over the launch memory. -/
abbrev V0 (c : Dev nD) : Valuation τ sig (Elt F) := StableHlo.after (List.flatten (pre (F := F))) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations, the region, and the two slices after it; so it reduces to the region
    continued by those slices, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (pre (F := F)) [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The slices after the region touch only the pipeline's arrays and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes its own result buffer, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## No host operation writes an argument array -/

theorem V_main_arg0 (c : Dev nD) : V m c main_arg0 = m ((c : Thread nD τ).loc main_arg0) :=
  StableHlo.after_of_forall_not_mem (b := Proc.devRef .tc main_arg0) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg19 (c : Dev nD) : V m c main_arg19 = m ((c : Thread nD τ).loc main_arg19) :=
  StableHlo.after_of_forall_not_mem (b := Proc.devRef .tc main_arg19) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c
theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is
    not fetched the block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (where it is
    not fetched the block index has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (where it is
    not fetched the block index has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (where it is
    not fetched the block index has not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (where it is
    not fetched the block index has not moved). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (where it is
    not fetched the block index has not moved). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (where it is
    not fetched the block index has not moved). -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (where it is
    not fetched the block index has not moved). -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not (where it is
    not fetched the block index has not moved). -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not (where it is
    not fetched the block index has not moved). -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not (where it is
    not fetched the block index has not moved). -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not (where it is
    not fetched the block index has not moved). -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not (where it is
    not fetched the block index has not moved). -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not (where it is
    not fetched the block index has not moved). -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not (where it is
    not fetched the block index has not moved). -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not (where it is
    not fetched the block index has not moved). -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not (where it is
    not fetched the block index has not moved). -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run to the library's post -/

set_option maxHeartbeats 4000000 in
/-- In any final state satisfying the pipeline library's post, for proof data whose arrays are the region-entry
    contents, the twenty argument arrays are as launched: a staged argument array ends at its entry contents, any
    other argument at what the slices after the region leave, and neither was written by a host operation. -/
theorem args_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).1 8).trans (((dats 0 c).arrAt_in 8 rfl _).trans ((hA c 8).trans (V_main_arg9 m c))),
      ((h c).2 main_arg10 (Pipeline.mem_restRefs_of main_arg10 (by decide) (by decide))).trans (W_main_arg10 m dats c),
      ((h c).1 10).trans (((dats 0 c).arrAt_in 10 rfl _).trans ((hA c 10).trans (V_main_arg11 m c))),
      ((h c).2 main_arg12 (Pipeline.mem_restRefs_of main_arg12 (by decide) (by decide))).trans (W_main_arg12 m dats c),
      ((h c).1 12).trans (((dats 0 c).arrAt_in 12 rfl _).trans ((hA c 12).trans (V_main_arg13 m c))),
      ((h c).2 main_arg14 (Pipeline.mem_restRefs_of main_arg14 (by decide) (by decide))).trans (W_main_arg14 m dats c),
      ((h c).1 14).trans (((dats 0 c).arrAt_in 14 rfl _).trans ((hA c 14).trans (V_main_arg15 m c))),
      ((h c).2 main_arg16 (Pipeline.mem_restRefs_of main_arg16 (by decide) (by decide))).trans (W_main_arg16 m dats c),
      ((h c).1 16).trans (((dats 0 c).arrAt_in 16 rfl _).trans ((hA c 16).trans (V_main_arg17 m c))),
      ((h c).1 6).trans (((dats 0 c).arrAt_in 6 rfl _).trans ((hA c 6).trans (V_main_arg18 m c))),
      ((h c).1 5).trans (((dats 0 c).arrAt_in 5 rfl _).trans ((hA c 5).trans (V_main_arg19 m c)))⟩

/-- So a run to that post gives the frame statement. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => args_of_post m dats hA r h c) h

end Cert.Kernel.Fr

end
-- ==== Proof.Kernel.BodyVals.lean ====
/- The values the kernel body computes at one grid point, at any float instance, as functions of the contents of
   its seventeen input buffers: each input is loaded whole, the two gate logits, the two masked gates and the output
   block are the printed payloads composed, and each output buffer ends at the canonical contents of the stores into
   it (one whole store for the output block, two column stores for the gates). -/
import proofs.«402007_j15350213116045_2_alg».proof.Proof.Gen.Kernel.Skeleton
import Idealize.ShloMosaic.Lib.Pipeline.FrameBody
import Idealize.ShloMosaic.Lib.Ring

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the body loads and stores through -/

abbrev rBig : Rect S2000x128 := Rect.unit (s := S2000x128) ![0, 0] S2000x128.size inb_S2000x128_S2000x128_0_0
abbrev rDeg : Rect S2000x2 := Rect.unit (s := S2000x2) ![0, 0] S2000x2.size inb_S2000x2_S2000x2_0_0
abbrev rMask : Rect S2000x4 := Rect.unit (s := S2000x4) ![0, 0] S2000x4.size inb_S2000x4_S2000x4_0_0
abbrev rTab : Rect S64x128 := Rect.unit (s := S64x128) ![0, 0] S64x128.size inb_S64x128_S64x128_0_0
abbrev rSq : Rect S128x128 := Rect.unit (s := S128x128) ![0, 0] S128x128.size inb_S128x128_S128x128_0_0
abbrev rVec : Rect S128 := Rect.unit (s := S128) ![0] S128.size inb_S128_S128_0
abbrev rCol : Rect S128x1 := Rect.unit (s := S128x1) ![0, 0] S128x1.size inb_S128x1_S128x1_0_0
abbrev rOne : Rect S1 := Rect.unit (s := S1) ![0] S1.size inb_S1_S1_0
abbrev rGate0 : Rect S2000x2 := Rect.unit (s := S2000x2) ![0, 0] S2000x1.size inb_S2000x2_S2000x1_0_0
abbrev rGate1 : Rect S2000x2 := Rect.unit (s := S2000x2) ![0, 1] S2000x1.size inb_S2000x2_S2000x1_0_1

/-! ## The values the body computes, from the contents of the input buffers -/

/-- The out-gate's logit column (before the softmax). -/
def logitOut (x0 : Vec F S2000x128 .f32) (x1 : Vec F S2000x128 .f32) (x2 : Vec F S2000x128 .f32) (x3 : Vec F S2000x2 .i32) (x4 : Vec F S2000x4 .f32) (x5 : Vec F S64x128 .f32) (x6 : Vec F S64x128 .f32) (x7 : Vec F S128x128 .f32) (x8 : Vec F S128 .f32) (x9 : Vec F S128x128 .f32) (x10 : Vec F S128 .f32) (x11 : Vec F S128x1 .f32) (x12 : Vec F S1 .f32) (x13 : Vec F S128x1 .f32) (x14 : Vec F S1 .f32) (x15 : Vec F S128x128 .f32) (x16 : Vec F S128 .f32) : FVec F S2000x1 .f32 :=
  k0_pay5 (View.ld x0 rBig) (View.ld x1 rBig) (View.ld x3 rDeg) (View.ld x5 rTab) (View.ld x11 rCol) (View.ld x12 rOne)
/-- The in-side term, narrowed for the matrix unit. -/
def termIn (x0 : Vec F S2000x128 .f32) (x1 : Vec F S2000x128 .f32) (x2 : Vec F S2000x128 .f32) (x3 : Vec F S2000x2 .i32) (x4 : Vec F S2000x4 .f32) (x5 : Vec F S64x128 .f32) (x6 : Vec F S64x128 .f32) (x7 : Vec F S128x128 .f32) (x8 : Vec F S128 .f32) (x9 : Vec F S128x128 .f32) (x10 : Vec F S128 .f32) (x11 : Vec F S128x1 .f32) (x12 : Vec F S1 .f32) (x13 : Vec F S128x1 .f32) (x14 : Vec F S1 .f32) (x15 : Vec F S128x128 .f32) (x16 : Vec F S128 .f32) : FVec F S2000x128 .bf16 :=
  k0_pay6 (View.ld x0 rBig) (View.ld x2 rBig) (View.ld x3 rDeg) (View.ld x6 rTab)
/-- The masked out-gate column. -/
def gateOut (x0 : Vec F S2000x128 .f32) (x1 : Vec F S2000x128 .f32) (x2 : Vec F S2000x128 .f32) (x3 : Vec F S2000x2 .i32) (x4 : Vec F S2000x4 .f32) (x5 : Vec F S64x128 .f32) (x6 : Vec F S64x128 .f32) (x7 : Vec F S128x128 .f32) (x8 : Vec F S128 .f32) (x9 : Vec F S128x128 .f32) (x10 : Vec F S128 .f32) (x11 : Vec F S128x1 .f32) (x12 : Vec F S1 .f32) (x13 : Vec F S128x1 .f32) (x14 : Vec F S1 .f32) (x15 : Vec F S128x128 .f32) (x16 : Vec F S128 .f32) : FVec F S2000x1 .f32 :=
  k0_pay13 (logitOut x0 x1 x2 x3 x4 x5 x6 x7 x8 x9 x10 x11 x12 x13 x14 x15 x16) (termIn x0 x1 x2 x3 x4 x5 x6 x7 x8 x9 x10 x11 x12 x13 x14 x15 x16) (View.ld x13 rCol) (View.ld x14 rOne) (View.ld x4 rMask)
/-- The masked in-gate column. -/
def gateIn (x0 : Vec F S2000x128 .f32) (x1 : Vec F S2000x128 .f32) (x2 : Vec F S2000x128 .f32) (x3 : Vec F S2000x2 .i32) (x4 : Vec F S2000x4 .f32) (x5 : Vec F S64x128 .f32) (x6 : Vec F S64x128 .f32) (x7 : Vec F S128x128 .f32) (x8 : Vec F S128 .f32) (x9 : Vec F S128x128 .f32) (x10 : Vec F S128 .f32) (x11 : Vec F S128x1 .f32) (x12 : Vec F S1 .f32) (x13 : Vec F S128x1 .f32) (x14 : Vec F S1 .f32) (x15 : Vec F S128x128 .f32) (x16 : Vec F S128 .f32) : FVec F S2000x1 .f32 :=
  k0_pay14 (logitOut x0 x1 x2 x3 x4 x5 x6 x7 x8 x9 x10 x11 x12 x13 x14 x15 x16) (termIn x0 x1 x2 x3 x4 x5 x6 x7 x8 x9 x10 x11 x12 x13 x14 x15 x16) (View.ld x13 rCol) (View.ld x14 rOne) (View.ld x4 rMask)
/-- The output block: the two gated projections plus half the self projection. -/
def outBlock (x0 : Vec F S2000x128 .f32) (x1 : Vec F S2000x128 .f32) (x2 : Vec F S2000x128 .f32) (x3 : Vec F S2000x2 .i32) (x4 : Vec F S2000x4 .f32) (x5 : Vec F S64x128 .f32) (x6 : Vec F S64x128 .f32) (x7 : Vec F S128x128 .f32) (x8 : Vec F S128 .f32) (x9 : Vec F S128x128 .f32) (x10 : Vec F S128 .f32) (x11 : Vec F S128x1 .f32) (x12 : Vec F S1 .f32) (x13 : Vec F S128x1 .f32) (x14 : Vec F S1 .f32) (x15 : Vec F S128x128 .f32) (x16 : Vec F S128 .f32) : FVec F S2000x128 .f32 :=
  k0_pay1 (gateOut x0 x1 x2 x3 x4 x5 x6 x7 x8 x9 x10 x11 x12 x13 x14 x15 x16) (gateIn x0 x1 x2 x3 x4 x5 x6 x7 x8 x9 x10 x11 x12 x13 x14 x15 x16) (k0_pay15 (k0_pay2 (View.ld x1 rBig)) (View.ld x7 rSq) (View.ld x8 rVec)) (k0_pay16 (k0_pay3 (View.ld x2 rBig)) (View.ld x9 rSq) (View.ld x10 rVec)) (k0_pay17 (View.ld x0 rBig)) (View.ld x15 rSq) (View.ld x16 rVec)

/-! ## What the body leaves in each output buffer -/

/-- The output window's buffer after the body: its one store, which fills it. -/
def out0_17 (x0 : Vec F S2000x128 .f32) (x1 : Vec F S2000x128 .f32) (x2 : Vec F S2000x128 .f32) (x3 : Vec F S2000x2 .i32) (x4 : Vec F S2000x4 .f32) (x5 : Vec F S64x128 .f32) (x6 : Vec F S64x128 .f32) (x7 : Vec F S128x128 .f32) (x8 : Vec F S128 .f32) (x9 : Vec F S128x128 .f32) (x10 : Vec F S128 .f32) (x11 : Vec F S128x1 .f32) (x12 : Vec F S1 .f32) (x13 : Vec F S128x1 .f32) (x14 : Vec F S1 .f32) (x15 : Vec F S128x128 .f32) (x16 : Vec F S128 .f32) : Vec F S2000x128 .f32 :=
  View.canon [⟨rBig, outBlock x0 x1 x2 x3 x4 x5 x6 x7 x8 x9 x10 x11 x12 x13 x14 x15 x16⟩]

/-- The gate window's buffer after the body: its two column stores, the later first. -/
def out0_18 (x0 : Vec F S2000x128 .f32) (x1 : Vec F S2000x128 .f32) (x2 : Vec F S2000x128 .f32) (x3 : Vec F S2000x2 .i32) (x4 : Vec F S2000x4 .f32) (x5 : Vec F S64x128 .f32) (x6 : Vec F S64x128 .f32) (x7 : Vec F S128x128 .f32) (x8 : Vec F S128 .f32) (x9 : Vec F S128x128 .f32) (x10 : Vec F S128 .f32) (x11 : Vec F S128x1 .f32) (x12 : Vec F S1 .f32) (x13 : Vec F S128x1 .f32) (x14 : Vec F S1 .f32) (x15 : Vec F S128x128 .f32) (x16 : Vec F S128 .f32) : Vec F S2000x2 .f32 :=
  View.canon [⟨rGate1, gateIn x0 x1 x2 x3 x4 x5 x6 x7 x8 x9 x10 x11 x12 x13 x14 x15 x16⟩, ⟨rGate0, gateOut x0 x1 x2 x3 x4 x5 x6 x7 x8 x9 x10 x11 x12 x13 x14 x15 x16⟩]

/-- The one store fills the output buffer. -/
theorem cover0_17 (p0 : Vec F S2000x128 .f32) (y : S2000x128.Idx) :
    ∃ pc ∈ ([⟨rBig, p0⟩] : List (View.Piece (Elt F) S2000x128 .f32)), y ∈ pc.1.set :=
  View.cover_of_tiled [⟨rBig, p0⟩] S2000x128.size (by rfl) y

/-- The two column stores tile the gate buffer. -/
theorem cover0_18 (p0 : Vec F S2000x1 .f32) (p1 : Vec F S2000x1 .f32) (y : S2000x2.Idx) :
    ∃ pc ∈ ([⟨rGate1, p0⟩, ⟨rGate0, p1⟩] : List (View.Piece (Elt F) S2000x2 .f32)), y ∈ pc.1.set :=
  View.cover_of_tiled [⟨rGate1, p0⟩, ⟨rGate0, p1⟩] S2000x1.size (by rfl) y

end Cert.Kernel.Fr

end
-- ==== Proof.Kernel.FrameBody.lean ====
/- The kernel body's triple at one grid point, at any float instance: on whole staging memrefs, the inputs' at given
   contents and the outputs' at anything, the body runs to its end without a fault, leaves the inputs' as they were and
   each output's at the canonical contents of its stores. Run symbolically, through both printed parts. -/
import proofs.«402007_j15350213116045_2_alg».proof.Proof.Kernel.FrameHost
import proofs.«402007_j15350213116045_2_alg».proof.Proof.Kernel.BodyVals

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's triple -/

set_option maxHeartbeats 4000000 in
/-- The body on whole staging memrefs, the inputs' at contents `xW` and the outputs' at anything, runs to the
    continuation with the inputs' as they were and each output's at the canonical contents of its stores. -/
theorem sound_kernel (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x2 .i32) (harg4 : arg4.IsWhole) (arg5 : Memref sig .tc .vmem S2000x4 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128x1 .f32) (harg12 : arg12.IsWhole) (arg13 : Memref sig .tc .vmem S1 .f32) (harg13 : arg13.IsWhole) (arg14 : Memref sig .tc .vmem S128x1 .f32) (harg14 : arg14.IsWhole) (arg15 : Memref sig .tc .vmem S1 .f32) (harg15 : arg15.IsWhole) (arg16 : Memref sig .tc .vmem S128x128 .f32) (harg16 : arg16.IsWhole) (arg17 : Memref sig .tc .vmem S128 .f32) (harg17 : arg17.IsWhole) (arg18 : Memref sig .tc .vmem S2000x128 .f32) (harg18 : arg18.IsWhole) (arg19 : Memref sig .tc .vmem S2000x2 .f32) (harg19 : arg19.IsWhole)
    (x0 : Vec F S2000x128 .f32) (x1 : Vec F S2000x128 .f32) (x2 : Vec F S2000x128 .f32) (x3 : Vec F S2000x2 .i32) (x4 : Vec F S2000x4 .f32) (x5 : Vec F S64x128 .f32) (x6 : Vec F S64x128 .f32) (x7 : Vec F S128x128 .f32) (x8 : Vec F S128 .f32) (x9 : Vec F S128x128 .f32) (x10 : Vec F S128 .f32) (x11 : Vec F S128x1 .f32) (x12 : Vec F S1 .f32) (x13 : Vec F S128x1 .f32) (x14 : Vec F S1 .f32) (x15 : Vec F S128x128 .f32) (x16 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out0_17 x0 x1 x2 x3 x4 x5 x6 x7 x8 x9 x10 x11 x12 x13 x14 x15 x16) ∗ owns (c : Thread nD τ) arg19 fullShare (out0_18 x0 x1 x2 x3 x4 x5 x6 x7 x8 x9 x10 x11 x12 x13 x14 x15 x16)) -∗ K ⟨⟩))
      ⊢ wp frame (wpE (defs₀ (F := F)) Variants.none c none) E (cc0__fusion_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__fusion_kernel_eq_skeleton]; unfold cc0__fusion_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    try dsimp only
    exact View.read_writes_eq_canon _ _ _ (cover0_17 _)
  iexists _; isplitr
  swap; · iexact H18
  ipureintro
  try dsimp only
  exact View.read_writes_eq_canon _ _ _ (cover0_18 _ _)

end Cert.Kernel.Fr

end
-- ==== Proof.Kernel.Frame.lean ====
/- The frame of the kernel program as this namespace prints it, at any float instance: the pipeline's proof data (each array as
   the region finds it; after the body each input buffer at its block and each output buffer at the canonical
   contents of the body's stores over the input blocks), the body obligation at a generic grid point, the run of
   the whole program to the pipeline library's post, and the frame statement. -/
import proofs.«402007_j15350213116045_2_alg».proof.Proof.Kernel.FrameBody

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's buffer at its
    block, the output's at `out0_17` and the gates' at `out0_18` of the input blocks; the invariant is the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨_ + 19, h⟩ => absurd h (Nat.not_lt.2 (Nat.le_add_left _ _))
  Φ _ := Pipeline.ΦA spec0 c
  q _ := fullShare
  owed _ := 0

/-- The proof data's arrays are the region-entry contents (the definition projected, the fold never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

set_option maxHeartbeats 1000000 in
/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel c Set.univ (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has every array of the pipeline at what the library computes from the proof data and every other unscoped
    buffer as the two slices after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program terminates without a fault and its twenty argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

end Cert.Kernel.Fr

end
-- ==== Proof.KernelIdeal.FrameHost.lean ====
/- The host side of the frame of the kernel program as this namespace prints it: what every array holds when the one
   region is entered (the fold of the host operations before it over the launch memory), that no host
   operation writes an argument array, each window's block at a grid point as a read of its array, that an
   input window's staging buffer holds that block at every point, and the frame statement read off a run
   to the pipeline library's post. Stated at any float instance. -/
import proofs.«402007_j15350213116045_2_alg».proof.Proof.Gen.KernelIdeal.Launch
import proofs.«402007_j15350213116045_2_alg».proof.Proof.Gen.KernelIdeal.Skeleton
import proofs.«402007_j15350213116045_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## The program around its region -/

/-- The host operations before the region, stretch by stretch (the two outlined selects are stretches of their own). -/
abbrev pre : List (List (HloOp τ sig (Elt F))) := [hostOps0, hostOps0_1, hostOps0_2, hostOps0_3, hostOps0_4]

/-- Core `c`'s buffer contents when the region is entered: the host operations before it folded over the launch memory. -/
abbrev V0 (c : Dev nD) : Valuation τ sig (Elt F) := StableHlo.after (List.flatten (pre (F := F))) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations, the region, and the two slices after it; so it reduces to the region
    continued by those slices, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (pre (F := F)) [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The slices after the region touch only the pipeline's arrays and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes its own result buffer, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## No host operation writes an argument array -/

theorem V_main_arg0 (c : Dev nD) : V m c main_arg0 = m ((c : Thread nD τ).loc main_arg0) :=
  StableHlo.after_of_forall_not_mem (b := Proc.devRef .tc main_arg0) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg19 (c : Dev nD) : V m c main_arg19 = m ((c : Thread nD τ).loc main_arg19) :=
  StableHlo.after_of_forall_not_mem (b := Proc.devRef .tc main_arg19) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c
theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is
    not fetched the block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (where it is
    not fetched the block index has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (where it is
    not fetched the block index has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (where it is
    not fetched the block index has not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (where it is
    not fetched the block index has not moved). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (where it is
    not fetched the block index has not moved). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (where it is
    not fetched the block index has not moved). -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (where it is
    not fetched the block index has not moved). -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not (where it is
    not fetched the block index has not moved). -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not (where it is
    not fetched the block index has not moved). -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not (where it is
    not fetched the block index has not moved). -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not (where it is
    not fetched the block index has not moved). -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not (where it is
    not fetched the block index has not moved). -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not (where it is
    not fetched the block index has not moved). -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not (where it is
    not fetched the block index has not moved). -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not (where it is
    not fetched the block index has not moved). -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not (where it is
    not fetched the block index has not moved). -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run to the library's post -/

set_option maxHeartbeats 4000000 in
/-- In any final state satisfying the pipeline library's post, for proof data whose arrays are the region-entry
    contents, the twenty argument arrays are as launched: a staged argument array ends at its entry contents, any
    other argument at what the slices after the region leave, and neither was written by a host operation. -/
theorem args_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).1 8).trans (((dats 0 c).arrAt_in 8 rfl _).trans ((hA c 8).trans (V_main_arg9 m c))),
      ((h c).2 main_arg10 (Pipeline.mem_restRefs_of main_arg10 (by decide) (by decide))).trans (W_main_arg10 m dats c),
      ((h c).1 10).trans (((dats 0 c).arrAt_in 10 rfl _).trans ((hA c 10).trans (V_main_arg11 m c))),
      ((h c).2 main_arg12 (Pipeline.mem_restRefs_of main_arg12 (by decide) (by decide))).trans (W_main_arg12 m dats c),
      ((h c).1 12).trans (((dats 0 c).arrAt_in 12 rfl _).trans ((hA c 12).trans (V_main_arg13 m c))),
      ((h c).2 main_arg14 (Pipeline.mem_restRefs_of main_arg14 (by decide) (by decide))).trans (W_main_arg14 m dats c),
      ((h c).1 14).trans (((dats 0 c).arrAt_in 14 rfl _).trans ((hA c 14).trans (V_main_arg15 m c))),
      ((h c).2 main_arg16 (Pipeline.mem_restRefs_of main_arg16 (by decide) (by decide))).trans (W_main_arg16 m dats c),
      ((h c).1 16).trans (((dats 0 c).arrAt_in 16 rfl _).trans ((hA c 16).trans (V_main_arg17 m c))),
      ((h c).1 6).trans (((dats 0 c).arrAt_in 6 rfl _).trans ((hA c 6).trans (V_main_arg18 m c))),
      ((h c).1 5).trans (((dats 0 c).arrAt_in 5 rfl _).trans ((hA c 5).trans (V_main_arg19 m c)))⟩

/-- So a run to that post gives the frame statement. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => args_of_post m dats hA r h c) h

end Cert.KernelIdeal.Fr

end
-- ==== Proof.KernelIdeal.BodyVals.lean ====
/- The values the kernel body computes at one grid point, at any float instance, as functions of the contents of
   its seventeen input buffers: each input is loaded whole, the two gate logits, the two masked gates and the output
   block are the printed payloads composed, and each output buffer ends at the canonical contents of the stores into
   it (one whole store for the output block, two column stores for the gates). -/
import proofs.«402007_j15350213116045_2_alg».proof.Proof.Gen.KernelIdeal.Skeleton
import Idealize.ShloMosaic.Lib.Pipeline.FrameBody
import Idealize.ShloMosaic.Lib.Ring

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the body loads and stores through -/

abbrev rBig : Rect S2000x128 := Rect.unit (s := S2000x128) ![0, 0] S2000x128.size inb_S2000x128_S2000x128_0_0
abbrev rDeg : Rect S2000x2 := Rect.unit (s := S2000x2) ![0, 0] S2000x2.size inb_S2000x2_S2000x2_0_0
abbrev rMask : Rect S2000x4 := Rect.unit (s := S2000x4) ![0, 0] S2000x4.size inb_S2000x4_S2000x4_0_0
abbrev rTab : Rect S64x128 := Rect.unit (s := S64x128) ![0, 0] S64x128.size inb_S64x128_S64x128_0_0
abbrev rSq : Rect S128x128 := Rect.unit (s := S128x128) ![0, 0] S128x128.size inb_S128x128_S128x128_0_0
abbrev rVec : Rect S128 := Rect.unit (s := S128) ![0] S128.size inb_S128_S128_0
abbrev rCol : Rect S128x1 := Rect.unit (s := S128x1) ![0, 0] S128x1.size inb_S128x1_S128x1_0_0
abbrev rOne : Rect S1 := Rect.unit (s := S1) ![0] S1.size inb_S1_S1_0
abbrev rGate0 : Rect S2000x2 := Rect.unit (s := S2000x2) ![0, 0] S2000x1.size inb_S2000x2_S2000x1_0_0
abbrev rGate1 : Rect S2000x2 := Rect.unit (s := S2000x2) ![0, 1] S2000x1.size inb_S2000x2_S2000x1_0_1

/-! ## The values the body computes, from the contents of the input buffers -/

/-- The out-gate's logit column (before the softmax). -/
def logitOut (x0 : Vec F S2000x128 .f32) (x1 : Vec F S2000x128 .f32) (x2 : Vec F S2000x128 .f32) (x3 : Vec F S2000x2 .i32) (x4 : Vec F S2000x4 .f32) (x5 : Vec F S64x128 .f32) (x6 : Vec F S64x128 .f32) (x7 : Vec F S128x128 .f32) (x8 : Vec F S128 .f32) (x9 : Vec F S128x128 .f32) (x10 : Vec F S128 .f32) (x11 : Vec F S128x1 .f32) (x12 : Vec F S1 .f32) (x13 : Vec F S128x1 .f32) (x14 : Vec F S1 .f32) (x15 : Vec F S128x128 .f32) (x16 : Vec F S128 .f32) : FVec F S2000x1 .f32 :=
  k0_pay5 (View.ld x0 rBig) (View.ld x1 rBig) (View.ld x3 rDeg) (View.ld x5 rTab) (View.ld x11 rCol) (View.ld x12 rOne)
/-- The in-side term, narrowed for the matrix unit. -/
def termIn (x0 : Vec F S2000x128 .f32) (x1 : Vec F S2000x128 .f32) (x2 : Vec F S2000x128 .f32) (x3 : Vec F S2000x2 .i32) (x4 : Vec F S2000x4 .f32) (x5 : Vec F S64x128 .f32) (x6 : Vec F S64x128 .f32) (x7 : Vec F S128x128 .f32) (x8 : Vec F S128 .f32) (x9 : Vec F S128x128 .f32) (x10 : Vec F S128 .f32) (x11 : Vec F S128x1 .f32) (x12 : Vec F S1 .f32) (x13 : Vec F S128x1 .f32) (x14 : Vec F S1 .f32) (x15 : Vec F S128x128 .f32) (x16 : Vec F S128 .f32) : FVec F S2000x128 .bf16 :=
  k0_pay6 (View.ld x0 rBig) (View.ld x2 rBig) (View.ld x3 rDeg) (View.ld x6 rTab)
/-- The masked out-gate column. -/
def gateOut (x0 : Vec F S2000x128 .f32) (x1 : Vec F S2000x128 .f32) (x2 : Vec F S2000x128 .f32) (x3 : Vec F S2000x2 .i32) (x4 : Vec F S2000x4 .f32) (x5 : Vec F S64x128 .f32) (x6 : Vec F S64x128 .f32) (x7 : Vec F S128x128 .f32) (x8 : Vec F S128 .f32) (x9 : Vec F S128x128 .f32) (x10 : Vec F S128 .f32) (x11 : Vec F S128x1 .f32) (x12 : Vec F S1 .f32) (x13 : Vec F S128x1 .f32) (x14 : Vec F S1 .f32) (x15 : Vec F S128x128 .f32) (x16 : Vec F S128 .f32) : FVec F S2000x1 .f32 :=
  k0_pay13 (logitOut x0 x1 x2 x3 x4 x5 x6 x7 x8 x9 x10 x11 x12 x13 x14 x15 x16) (termIn x0 x1 x2 x3 x4 x5 x6 x7 x8 x9 x10 x11 x12 x13 x14 x15 x16) (View.ld x13 rCol) (View.ld x14 rOne) (View.ld x4 rMask)
/-- The masked in-gate column. -/
def gateIn (x0 : Vec F S2000x128 .f32) (x1 : Vec F S2000x128 .f32) (x2 : Vec F S2000x128 .f32) (x3 : Vec F S2000x2 .i32) (x4 : Vec F S2000x4 .f32) (x5 : Vec F S64x128 .f32) (x6 : Vec F S64x128 .f32) (x7 : Vec F S128x128 .f32) (x8 : Vec F S128 .f32) (x9 : Vec F S128x128 .f32) (x10 : Vec F S128 .f32) (x11 : Vec F S128x1 .f32) (x12 : Vec F S1 .f32) (x13 : Vec F S128x1 .f32) (x14 : Vec F S1 .f32) (x15 : Vec F S128x128 .f32) (x16 : Vec F S128 .f32) : FVec F S2000x1 .f32 :=
  k0_pay14 (logitOut x0 x1 x2 x3 x4 x5 x6 x7 x8 x9 x10 x11 x12 x13 x14 x15 x16) (termIn x0 x1 x2 x3 x4 x5 x6 x7 x8 x9 x10 x11 x12 x13 x14 x15 x16) (View.ld x13 rCol) (View.ld x14 rOne) (View.ld x4 rMask)
/-- The output block: the two gated projections plus half the self projection. -/
def outBlock (x0 : Vec F S2000x128 .f32) (x1 : Vec F S2000x128 .f32) (x2 : Vec F S2000x128 .f32) (x3 : Vec F S2000x2 .i32) (x4 : Vec F S2000x4 .f32) (x5 : Vec F S64x128 .f32) (x6 : Vec F S64x128 .f32) (x7 : Vec F S128x128 .f32) (x8 : Vec F S128 .f32) (x9 : Vec F S128x128 .f32) (x10 : Vec F S128 .f32) (x11 : Vec F S128x1 .f32) (x12 : Vec F S1 .f32) (x13 : Vec F S128x1 .f32) (x14 : Vec F S1 .f32) (x15 : Vec F S128x128 .f32) (x16 : Vec F S128 .f32) : FVec F S2000x128 .f32 :=
  k0_pay1 (gateOut x0 x1 x2 x3 x4 x5 x6 x7 x8 x9 x10 x11 x12 x13 x14 x15 x16) (gateIn x0 x1 x2 x3 x4 x5 x6 x7 x8 x9 x10 x11 x12 x13 x14 x15 x16) (k0_pay15 (k0_pay2 (View.ld x1 rBig)) (View.ld x7 rSq) (View.ld x8 rVec)) (k0_pay16 (k0_pay3 (View.ld x2 rBig)) (View.ld x9 rSq) (View.ld x10 rVec)) (k0_pay17 (View.ld x0 rBig)) (View.ld x15 rSq) (View.ld x16 rVec)

/-! ## What the body leaves in each output buffer -/

/-- The output window's buffer after the body: its one store, which fills it. -/
def out0_17 (x0 : Vec F S2000x128 .f32) (x1 : Vec F S2000x128 .f32) (x2 : Vec F S2000x128 .f32) (x3 : Vec F S2000x2 .i32) (x4 : Vec F S2000x4 .f32) (x5 : Vec F S64x128 .f32) (x6 : Vec F S64x128 .f32) (x7 : Vec F S128x128 .f32) (x8 : Vec F S128 .f32) (x9 : Vec F S128x128 .f32) (x10 : Vec F S128 .f32) (x11 : Vec F S128x1 .f32) (x12 : Vec F S1 .f32) (x13 : Vec F S128x1 .f32) (x14 : Vec F S1 .f32) (x15 : Vec F S128x128 .f32) (x16 : Vec F S128 .f32) : Vec F S2000x128 .f32 :=
  View.canon [⟨rBig, outBlock x0 x1 x2 x3 x4 x5 x6 x7 x8 x9 x10 x11 x12 x13 x14 x15 x16⟩]

/-- The gate window's buffer after the body: its two column stores, the later first. -/
def out0_18 (x0 : Vec F S2000x128 .f32) (x1 : Vec F S2000x128 .f32) (x2 : Vec F S2000x128 .f32) (x3 : Vec F S2000x2 .i32) (x4 : Vec F S2000x4 .f32) (x5 : Vec F S64x128 .f32) (x6 : Vec F S64x128 .f32) (x7 : Vec F S128x128 .f32) (x8 : Vec F S128 .f32) (x9 : Vec F S128x128 .f32) (x10 : Vec F S128 .f32) (x11 : Vec F S128x1 .f32) (x12 : Vec F S1 .f32) (x13 : Vec F S128x1 .f32) (x14 : Vec F S1 .f32) (x15 : Vec F S128x128 .f32) (x16 : Vec F S128 .f32) : Vec F S2000x2 .f32 :=
  View.canon [⟨rGate1, gateIn x0 x1 x2 x3 x4 x5 x6 x7 x8 x9 x10 x11 x12 x13 x14 x15 x16⟩, ⟨rGate0, gateOut x0 x1 x2 x3 x4 x5 x6 x7 x8 x9 x10 x11 x12 x13 x14 x15 x16⟩]

/-- The one store fills the output buffer. -/
theorem cover0_17 (p0 : Vec F S2000x128 .f32) (y : S2000x128.Idx) :
    ∃ pc ∈ ([⟨rBig, p0⟩] : List (View.Piece (Elt F) S2000x128 .f32)), y ∈ pc.1.set :=
  View.cover_of_tiled [⟨rBig, p0⟩] S2000x128.size (by rfl) y

/-- The two column stores tile the gate buffer. -/
theorem cover0_18 (p0 : Vec F S2000x1 .f32) (p1 : Vec F S2000x1 .f32) (y : S2000x2.Idx) :
    ∃ pc ∈ ([⟨rGate1, p0⟩, ⟨rGate0, p1⟩] : List (View.Piece (Elt F) S2000x2 .f32)), y ∈ pc.1.set :=
  View.cover_of_tiled [⟨rGate1, p0⟩, ⟨rGate0, p1⟩] S2000x1.size (by rfl) y

end Cert.KernelIdeal.Fr

end
-- ==== Proof.KernelIdeal.FrameBody.lean ====
/- The kernel body's triple at one grid point, at any float instance: on whole staging memrefs, the inputs' at given
   contents and the outputs' at anything, the body runs to its end without a fault, leaves the inputs' as they were and
   each output's at the canonical contents of its stores. Run symbolically, through both printed parts. -/
import proofs.«402007_j15350213116045_2_alg».proof.Proof.KernelIdeal.FrameHost
import proofs.«402007_j15350213116045_2_alg».proof.Proof.KernelIdeal.BodyVals

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's triple -/

set_option maxHeartbeats 4000000 in
/-- The body on whole staging memrefs, the inputs' at contents `xW` and the outputs' at anything, runs to the
    continuation with the inputs' as they were and each output's at the canonical contents of its stores. -/
theorem sound_kernel (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x2 .i32) (harg4 : arg4.IsWhole) (arg5 : Memref sig .tc .vmem S2000x4 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128x1 .f32) (harg12 : arg12.IsWhole) (arg13 : Memref sig .tc .vmem S1 .f32) (harg13 : arg13.IsWhole) (arg14 : Memref sig .tc .vmem S128x1 .f32) (harg14 : arg14.IsWhole) (arg15 : Memref sig .tc .vmem S1 .f32) (harg15 : arg15.IsWhole) (arg16 : Memref sig .tc .vmem S128x128 .f32) (harg16 : arg16.IsWhole) (arg17 : Memref sig .tc .vmem S128 .f32) (harg17 : arg17.IsWhole) (arg18 : Memref sig .tc .vmem S2000x128 .f32) (harg18 : arg18.IsWhole) (arg19 : Memref sig .tc .vmem S2000x2 .f32) (harg19 : arg19.IsWhole)
    (x0 : Vec F S2000x128 .f32) (x1 : Vec F S2000x128 .f32) (x2 : Vec F S2000x128 .f32) (x3 : Vec F S2000x2 .i32) (x4 : Vec F S2000x4 .f32) (x5 : Vec F S64x128 .f32) (x6 : Vec F S64x128 .f32) (x7 : Vec F S128x128 .f32) (x8 : Vec F S128 .f32) (x9 : Vec F S128x128 .f32) (x10 : Vec F S128 .f32) (x11 : Vec F S128x1 .f32) (x12 : Vec F S1 .f32) (x13 : Vec F S128x1 .f32) (x14 : Vec F S1 .f32) (x15 : Vec F S128x128 .f32) (x16 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out0_17 x0 x1 x2 x3 x4 x5 x6 x7 x8 x9 x10 x11 x12 x13 x14 x15 x16) ∗ owns (c : Thread nD τ) arg19 fullShare (out0_18 x0 x1 x2 x3 x4 x5 x6 x7 x8 x9 x10 x11 x12 x13 x14 x15 x16)) -∗ K ⟨⟩))
      ⊢ wp frame (wpE (defs₀ (F := F)) Variants.none c none) E (cc0__fusion_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__fusion_kernel_eq_skeleton]; unfold cc0__fusion_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    try dsimp only
    exact View.read_writes_eq_canon _ _ _ (cover0_17 _)
  iexists _; isplitr
  swap; · iexact H18
  ipureintro
  try dsimp only
  exact View.read_writes_eq_canon _ _ _ (cover0_18 _ _)

end Cert.KernelIdeal.Fr

end
-- ==== Proof.KernelIdeal.Frame.lean ====
/- The frame of the kernel program as this namespace prints it, at any float instance: the pipeline's proof data (each array as
   the region finds it; after the body each input buffer at its block and each output buffer at the canonical
   contents of the body's stores over the input blocks), the body obligation at a generic grid point, the run of
   the whole program to the pipeline library's post, and the frame statement. -/
import proofs.«402007_j15350213116045_2_alg».proof.Proof.KernelIdeal.FrameBody

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's buffer at its
    block, the output's at `out0_17` and the gates' at `out0_18` of the input blocks; the invariant is the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨_ + 19, h⟩ => absurd h (Nat.not_lt.2 (Nat.le_add_left _ _))
  Φ _ := Pipeline.ΦA spec0 c
  q _ := fullShare
  owed _ := 0

/-- The proof data's arrays are the region-entry contents (the definition projected, the fold never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

set_option maxHeartbeats 1000000 in
/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel c Set.univ (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has every array of the pipeline at what the library computes from the proof data and every other unscoped
    buffer as the two slices after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program terminates without a fault and its twenty argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

end Cert.KernelIdeal.Fr

end
-- ==== Proof.Spec.lean ====
/- The mathematics both programs compute for ONE node, written once over the extended reals. The node's data are
   its feature row `x`, its two neighbour-sum rows `onei`, `inei` (128 entries each), its two degrees (words), its four
   mask scalars; the parameters are two 64-row embedding tables, two gate weight rows with their biases, and three
   128×128 weight matrices, stored [out, in], with their bias rows.
     emb tab d k       = Σ_j [j = d] · tab j k                 (the table row a degree picks, as the one-hot contraction)
     logit … d w b     = Σ_k (nei k − x k + emb tab d k) · w k + b
     gate0 lo li       = exp (lo − max lo li) / (exp (lo − max lo li) + exp (li − max lo li))      (two-way softmax)
     gate1 lo li       = exp (li − max lo li) / (the same denominator)
     cOut              = gate0 logitOut logitIn · mo + mob
     cIn               = gate1 logitOut logitIn · mi + mib
     proj a W b q      = Σ_k a k · W q k + b q
     out q             = cOut · proj onei Wsrc bsrc q + cIn · proj inei Wdst bdst q + ½ · proj x Wfc bfc q
   and the one fact about `emb`: when the degree is in [0, 64) the one-hot sum is the row it names. -/
import Idealize.ShloMosaic.PureOps.Ideal
import Idealize.ShloMosaic.Lib.ValueIdx

noncomputable section

open scoped BigOperators

namespace Cert.Spec

open Idealize.ShloMosaic Idealize.ShloMosaic.ValueIdx

/-- A degree is a row number of a 64-row table, read as a signed word. -/
def DegOk (d : BitVec 32) : Prop := 0 ≤ d.toInt ∧ d.toInt < 64

/-- The table row a degree picks, as the contraction of the degree's one-hot row with the table. -/
def emb (tab : Fin 64 → Fin 128 → EReal) (d : BitVec 32) (k : Fin 128) : EReal :=
  ∑ j : Fin 64, (if BitVec.ofNat 32 j.val = d then (1 : EReal) else 0) * tab j k

/-- A gate's logit: the neighbour sum less the node's own features plus the degree embedding, against one weight row,
    plus the bias. -/
def logit (nei x : Fin 128 → EReal) (tab : Fin 64 → Fin 128 → EReal) (d : BitVec 32) (w : Fin 128 → EReal) (b : EReal) : EReal :=
  (∑ k : Fin 128, (nei k - x k + emb tab d k) * w k) + b

/-- The first component of the softmax of a pair. -/
def gate0 (lo li : EReal) : EReal :=
  Ideal.div (Ideal.exp (lo - max lo li)) (Ideal.exp (lo - max lo li) + Ideal.exp (li - max lo li))
/-- The second component of the softmax of a pair. -/
def gate1 (lo li : EReal) : EReal :=
  Ideal.div (Ideal.exp (li - max lo li)) (Ideal.exp (lo - max lo li) + Ideal.exp (li - max lo li))

/-- A linear layer whose weights are stored [out, in], applied to one row. -/
def proj (a : Fin 128 → EReal) (W : Fin 128 → Fin 128 → EReal) (b : Fin 128 → EReal) (q : Fin 128) : EReal :=
  (∑ k : Fin 128, a k * W q k) + b q

/-- The masked out-gate of a node. -/
def cOut (x onei inei : Fin 128 → EReal) (dIn dOut : BitVec 32) (mo mob : EReal)
    (wOut : Fin 128 → EReal) (bOut : EReal) (wIn : Fin 128 → EReal) (bIn : EReal) (tabIn tabOut : Fin 64 → Fin 128 → EReal) : EReal :=
  gate0 (logit onei x tabOut dOut wOut bOut) (logit inei x tabIn dIn wIn bIn) * mo + mob

/-- The masked in-gate of a node. -/
def cIn (x onei inei : Fin 128 → EReal) (dIn dOut : BitVec 32) (mi mib : EReal)
    (wOut : Fin 128 → EReal) (bOut : EReal) (wIn : Fin 128 → EReal) (bIn : EReal) (tabIn tabOut : Fin 64 → Fin 128 → EReal) : EReal :=
  gate1 (logit onei x tabOut dOut wOut bOut) (logit inei x tabIn dIn wIn bIn) * mi + mib

/-- The layer's output row of a node. -/
def out (x onei inei : Fin 128 → EReal) (dIn dOut : BitVec 32) (mo mob mi mib : EReal)
    (wOut : Fin 128 → EReal) (bOut : EReal) (wIn : Fin 128 → EReal) (bIn : EReal) (tabIn tabOut : Fin 64 → Fin 128 → EReal)
    (Wsrc : Fin 128 → Fin 128 → EReal) (bsrc : Fin 128 → EReal) (Wdst : Fin 128 → Fin 128 → EReal) (bdst : Fin 128 → EReal)
    (Wfc : Fin 128 → Fin 128 → EReal) (bfc : Fin 128 → EReal) (q : Fin 128) : EReal :=
  cOut x onei inei dIn dOut mo mob wOut bOut wIn bIn tabIn tabOut * proj onei Wsrc bsrc q
    + cIn x onei inei dIn dOut mi mib wOut bOut wIn bIn tabIn tabOut * proj inei Wdst bdst q
    + Ideal.ofBits .f32 0x3F000000#32 * proj x Wfc bfc q

/-- A degree in [0, 64) is its own unsigned value. -/
theorem DegOk.toNat_eq {d : BitVec 32} (h : DegOk d) : d.toNat = d.toInt.toNat := by
  obtain ⟨h0, h1⟩ := h
  have key := BitVec.toInt_eq_toNat_cond d
  have hlt : d.toNat < 4294967296 := d.isLt
  split at key <;> omega

/-- With the degree in [0, 64) the one-hot contraction is the row the degree names: every other term has factor zero. -/
theorem emb_row (tab : Fin 64 → Fin 128 → EReal) (d : BitVec 32) (h : DegOk d) (k : Fin 128) :
    emb tab d k = tab ⟨d.toInt.toNat, by have := h.1; have := h.2; omega⟩ k := by
  have hnat := h.toNat_eq
  obtain ⟨h0, h1⟩ := h
  unfold emb
  rw [Finset.sum_eq_single (⟨d.toInt.toNat, by omega⟩ : Fin 64)]
  · rw [if_pos, one_mul]
    apply BitVec.eq_of_toNat_eq
    rw [BitVec.toNat_ofNat, hnat]
    exact Nat.mod_eq_of_lt (by omega)
  · intro j _ hj
    rw [if_neg, zero_mul]
    intro he
    apply hj
    apply Fin.ext
    have := congrArg BitVec.toNat he
    rw [BitVec.toNat_ofNat, Nat.mod_eq_of_lt (by have := j.isLt; omega)] at this
    show j.val = d.toInt.toNat
    omega
  · intro hn; exact absurd (Finset.mem_univ _) hn

end Cert.Spec

end
-- ==== Proof.KPay.lean ====
/- The kernel body's values are the specification's functions of the block's rows.

   The body works on a block of 2000 nodes. Read at row p (and column q), what it computes is, step by step:
     • the one-hot rows  [column number j, as a word, = the degree word of row p]  (a word comparison, widened, read as
       a signed integer: 1 or 0), contracted with a 64-row degree table into a zero accumulator: the sum
       Σ_j [j = d] · tab j k, which is the specification's `emb`; narrowing to the matrix unit's format is the identity
       on the extended reals;
     • the two logits  Σ_k (nei k − x k + emb tab d k) · w k + b, the out one from the out-neighbour sums, the out degree
       (column 0 of the degree pack) and the out table, the in one from the in-neighbour sums, the in degree (column 1)
       and the in table: the specification's `logit`;
     • the two-way softmax of the logit pair written out with a maximum, two differences, two exponentials, a sum and two
       quotients, which is `gate0` / `gate1` verbatim, each then multiplied by a mask column and shifted by a mask
       bias column of the mask pack: `cOut` and `cIn`;
     • three linear layers  Σ_k a k · W k q + b q  with the weights stored [in, out] (`proj` at the transposed matrix),
       combined as  cOut · proj(out sums) + cIn · proj(in sums) + ½ · proj(x): the specification's `out`.
   Every matrix product is read at an index as the sum over its one contraction axis, re-indexed to the axis's literal
   range; every layout step (an identity cast, a unit axis added to a bias, a row or a column broadcast, a column cut
   out of a pack) is read at an index as its operand at the corresponding index; each load of the body is through the
   whole-buffer rectangle and reads the buffer's contents. -/
import proofs.«402007_j15350213116045_2_alg».proof.Proof.KernelIdeal.BodyVals
import proofs.«402007_j15350213116045_2_alg».proof.Proof.Spec
import Idealize.ShloMosaic.Lib.ValueLayout
import Idealize.ShloMosaic.PureOps.Ideal.Laws

noncomputable section

open scoped BigOperators

namespace Cert.KPay

open Cert.KernelIdeal Cert.KernelIdeal.Gen Cert.KernelIdeal.Fr Cert.Spec Idealize.ShloMosaic Idealize.ShloMosaic.ValueIdx

/-! ## General facts: a column broadcast, and the one-hot entry -/

variable {α : Type}

/-- A column broadcast along the rows: an [a, 1] array broadcast to [a, b] reads, at (p, c), the column's entry at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-hot entry: the comparison bit of two words, widened and read as a signed integer, is 1 where the words are
    equal and 0 elsewhere. -/
theorem onehot_word (a b : BitVec 32) :
    (FloatOps.sitofp (F := Ideal) .f32 ((IntOp.cmpi .eq a b).setWidth 32) : EReal) = if a = b then (1 : EReal) else 0 := by
  by_cases h : a = b
  · rw [if_pos h]
    have e : IntOp.cmpi .eq a b = 1#1 := by subst h; simp [IntOp.cmpi]
    rw [e]
    show (((((1#1 : BitVec 1).setWidth 32).toInt : ℤ) : ℝ) : EReal) = 1
    have : ((1#1 : BitVec 1).setWidth 32).toInt = 1 := by decide
    rw [this]; simp
  · rw [if_neg h]
    have hb : (a == b) = false := by simpa using h
    have e : IntOp.cmpi .eq a b = 0#1 := by simp [IntOp.cmpi, hb]
    rw [e]
    show (((((0#1 : BitVec 1).setWidth 32).toInt : ℤ) : ℝ) : EReal) = 0
    have : ((0#1 : BitVec 1).setWidth 32).toInt = 0 := by decide
    rw [this]; simp

/-! ## The three matrix products at an index -/

/-! ### The one-hot rows against a degree table: [2000, 64] by [64, 128] -/

theorem lhs_tab_0 (i : S2000x128.Idx) (c : dot_S2000x64_S64x128_S2000x128_1_0_0_1_n_n.contr.Idx) :
    (dot_S2000x64_S64x128_S2000x128_1_0_0_1_n_n.lhsIdx i c 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
theorem lhs_tab_1 (i : S2000x128.Idx) (c : dot_S2000x64_S64x128_S2000x128_1_0_0_1_n_n.contr.Idx) :
    (dot_S2000x64_S64x128_S2000x128_1_0_0_1_n_n.lhsIdx i c 1).val = (c ⟨0, by decide⟩).val :=
  dot_S2000x64_S64x128_S2000x128_1_0_0_1_n_n.lhsIdx_val_of_single rfl i c
theorem rhs_tab_0 (i : S2000x128.Idx) (c : dot_S2000x64_S64x128_S2000x128_1_0_0_1_n_n.contr.Idx) :
    (dot_S2000x64_S64x128_S2000x128_1_0_0_1_n_n.rhsIdx i c 0).val = (c ⟨0, by decide⟩).val :=
  dot_S2000x64_S64x128_S2000x128_1_0_0_1_n_n.rhsIdx_val_of_single rfl i c
theorem rhs_tab_1 (i : S2000x128.Idx) (c : dot_S2000x64_S64x128_S2000x128_1_0_0_1_n_n.contr.Idx) :
    (dot_S2000x64_S64x128_S2000x128_1_0_0_1_n_n.rhsIdx i c 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- The product into a zero accumulator, at (p, q), is the sum over the 64 contraction positions of row p of the left
    operand against column q of the right one. -/
theorem matmul_tab_apply {φ₁ φ₂ : FTy} (a : FVec Ideal S2000x64 φ₁) (b : FVec Ideal S64x128 φ₂) (p : Fin 2000) (q : Fin 128) :
    matmul dot_S2000x64_S64x128_S2000x128_1_0_0_1_n_n none a b (constant (F := Ideal) S2000x128 .f32 0x00000000#32) (ix2 p q)
      = ∑ k : Fin 64, a (ix2 p k) * b (ix2 k q) := by
  refine (Ideal.matmul_constant_zero_apply dot_S2000x64_S64x128_S2000x128_1_0_0_1_n_n none a b (ix2 p q)).trans ?_
  rw [← Equiv.sum_comp (contrEquiv1 dot_S2000x64_S64x128_S2000x128_1_0_0_1_n_n 64 rfl rfl).symm]
  refine Finset.sum_congr rfl fun k _ => ?_
  have hk := contrEquiv1_symm_val dot_S2000x64_S64x128_S2000x128_1_0_0_1_n_n 64 rfl rfl k
  have el : dot_S2000x64_S64x128_S2000x128_1_0_0_1_n_n.lhsIdx (ix2 p q) ((contrEquiv1 dot_S2000x64_S64x128_S2000x128_1_0_0_1_n_n 64 rfl rfl).symm k) = ix2 p k := funext fun ax => Fin.ext (by
    match ax with
    | ⟨0, _⟩ => exact lhs_tab_0 _ _
    | ⟨1, _⟩ => exact (lhs_tab_1 _ _).trans hk)
  have er : dot_S2000x64_S64x128_S2000x128_1_0_0_1_n_n.rhsIdx (ix2 p q) ((contrEquiv1 dot_S2000x64_S64x128_S2000x128_1_0_0_1_n_n 64 rfl rfl).symm k) = ix2 k q := funext fun ax => Fin.ext (by
    match ax with
    | ⟨0, _⟩ => exact (rhs_tab_0 _ _).trans hk
    | ⟨1, _⟩ => exact rhs_tab_1 _ _)
  rw [el, er]

/-! ### A block of rows against one weight column: [2000, 128] by [128, 1] -/

theorem lhs_vec_0 (i : S2000x1.Idx) (c : dot_S2000x128_S128x1_S2000x1_1_0_0_1_n_n.contr.Idx) :
    (dot_S2000x128_S128x1_S2000x1_1_0_0_1_n_n.lhsIdx i c 0).val = (i 0).val := by
  unfold DotDims.lhsIdx
  rw [dif_neg (show ¬(0 : Fin S2000x128.rank) ∈ dot_S2000x128_S128x1_S2000x1_1_0_0_1_n_n.lhsBatch by decide), dif_pos (show (0 : Fin S2000x128.rank) ∈ dot_S2000x128_S128x1_S2000x1_1_0_0_1_n_n.lhsNonContracting by decide)]
  rfl
theorem lhs_vec_1 (i : S2000x1.Idx) (c : dot_S2000x128_S128x1_S2000x1_1_0_0_1_n_n.contr.Idx) :
    (dot_S2000x128_S128x1_S2000x1_1_0_0_1_n_n.lhsIdx i c 1).val = (c ⟨0, by decide⟩).val :=
  dot_S2000x128_S128x1_S2000x1_1_0_0_1_n_n.lhsIdx_val_of_single rfl i c
theorem rhs_vec_0 (i : S2000x1.Idx) (c : dot_S2000x128_S128x1_S2000x1_1_0_0_1_n_n.contr.Idx) :
    (dot_S2000x128_S128x1_S2000x1_1_0_0_1_n_n.rhsIdx i c 0).val = (c ⟨0, by decide⟩).val :=
  dot_S2000x128_S128x1_S2000x1_1_0_0_1_n_n.rhsIdx_val_of_single rfl i c
theorem rhs_vec_1 (i : S2000x1.Idx) (c : dot_S2000x128_S128x1_S2000x1_1_0_0_1_n_n.contr.Idx) :
    (dot_S2000x128_S128x1_S2000x1_1_0_0_1_n_n.rhsIdx i c 1).val = (i 1).val := by
  unfold DotDims.rhsIdx
  rw [dif_neg (show ¬(1 : Fin S128x1.rank) ∈ dot_S2000x128_S128x1_S2000x1_1_0_0_1_n_n.rhsBatch by decide), dif_pos (show (1 : Fin S128x1.rank) ∈ dot_S2000x128_S128x1_S2000x1_1_0_0_1_n_n.rhsNonContracting by decide)]
  rfl

/-- The product into a zero accumulator, at (p, q), is the sum over the 128 contraction positions of row p of the left
    operand against column q of the right one. -/
theorem matmul_vec_apply {φ₁ φ₂ : FTy} (a : FVec Ideal S2000x128 φ₁) (b : FVec Ideal S128x1 φ₂) (p : Fin 2000) (q : Fin 1) :
    matmul dot_S2000x128_S128x1_S2000x1_1_0_0_1_n_n none a b (constant (F := Ideal) S2000x1 .f32 0x00000000#32) (ix2 p q)
      = ∑ k : Fin 128, a (ix2 p k) * b (ix2 k q) := by
  refine (Ideal.matmul_constant_zero_apply dot_S2000x128_S128x1_S2000x1_1_0_0_1_n_n none a b (ix2 p q)).trans ?_
  rw [← Equiv.sum_comp (contrEquiv1 dot_S2000x128_S128x1_S2000x1_1_0_0_1_n_n 128 rfl rfl).symm]
  refine Finset.sum_congr rfl fun k _ => ?_
  have hk := contrEquiv1_symm_val dot_S2000x128_S128x1_S2000x1_1_0_0_1_n_n 128 rfl rfl k
  have el : dot_S2000x128_S128x1_S2000x1_1_0_0_1_n_n.lhsIdx (ix2 p q) ((contrEquiv1 dot_S2000x128_S128x1_S2000x1_1_0_0_1_n_n 128 rfl rfl).symm k) = ix2 p k := funext fun ax => Fin.ext (by
    match ax with
    | ⟨0, _⟩ => exact lhs_vec_0 _ _
    | ⟨1, _⟩ => exact (lhs_vec_1 _ _).trans hk)
  have er : dot_S2000x128_S128x1_S2000x1_1_0_0_1_n_n.rhsIdx (ix2 p q) ((contrEquiv1 dot_S2000x128_S128x1_S2000x1_1_0_0_1_n_n 128 rfl rfl).symm k) = ix2 k q := funext fun ax => Fin.ext (by
    match ax with
    | ⟨0, _⟩ => exact (rhs_vec_0 _ _).trans hk
    | ⟨1, _⟩ => exact rhs_vec_1 _ _)
  rw [el, er]

/-! ### A block of rows against a square weight matrix: [2000, 128] by [128, 128] -/

theorem lhs_sq_0 (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_sq_1 (i : S2000x128.Idx) (c : dot_S2000x128_S128x128_S2000x128_1_0_0_1_n_n.contr.Idx) :
    (dot_S2000x128_S128x128_S2000x128_1_0_0_1_n_n.lhsIdx i c 1).val = (c ⟨0, by decide⟩).val :=
  dot_S2000x128_S128x128_S2000x128_1_0_0_1_n_n.lhsIdx_val_of_single rfl i c
theorem rhs_sq_0 (i : S2000x128.Idx) (c : dot_S2000x128_S128x128_S2000x128_1_0_0_1_n_n.contr.Idx) :
    (dot_S2000x128_S128x128_S2000x128_1_0_0_1_n_n.rhsIdx i c 0).val = (c ⟨0, by decide⟩).val :=
  dot_S2000x128_S128x128_S2000x128_1_0_0_1_n_n.rhsIdx_val_of_single rfl i c
theorem rhs_sq_1 (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into a zero accumulator, at (p, q), is the sum over the 128 contraction positions of row p of the left
    operand against column q of the right one. -/
theorem matmul_sq_apply {φ₁ φ₂ : FTy} (a : FVec Ideal S2000x128 φ₁) (b : FVec Ideal S128x128 φ₂) (p : Fin 2000) (q : Fin 128) :
    matmul dot_S2000x128_S128x128_S2000x128_1_0_0_1_n_n none a b (constant (F := Ideal) S2000x128 .f32 0x00000000#32) (ix2 p q)
      = ∑ k : Fin 128, a (ix2 p k) * b (ix2 k q) := by
  refine (Ideal.matmul_constant_zero_apply dot_S2000x128_S128x128_S2000x128_1_0_0_1_n_n none a b (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun ax => Fin.ext (by
    match ax with
    | ⟨0, _⟩ => exact lhs_sq_0 _ _
    | ⟨1, _⟩ => exact (lhs_sq_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun ax => Fin.ext (by
    match ax with
    | ⟨0, _⟩ => exact (rhs_sq_0 _ _).trans hk
    | ⟨1, _⟩ => exact rhs_sq_1 _ _)
  rw [el, er]

/-! ## The degree columns and the one-hot rows -/

/-- The out-degree column of the degree pack, at row p. -/
theorem degOut_apply (v5 : Vec Ideal S2000x2 .i32) (p : Fin 2000) :
    extractStridedSlice S2000x1 ![0, 0] (k0_pay4 (F := Ideal) v5) slices_S2000x2_o0_0_S2000x1 (ix2 p 0) = v5 (ix2 p 0) := by
  refine (slice2_axis1_apply 0 _ slices_S2000x2_o0_0_S2000x1 p (0 : Fin 1) (0 : Fin 2) rfl).trans ?_
  unfold k0_pay4
  rw [shapeCast_self]

/-- The in-degree column of the degree pack, at row p. -/
theorem degIn_apply (v5 : Vec Ideal S2000x2 .i32) (p : Fin 2000) :
    extractStridedSlice S2000x1 ![0, 1] (k0_pay4 (F := Ideal) v5) slices_S2000x2_o0_1_S2000x1 (ix2 p 0) = v5 (ix2 p 1) := by
  refine (slice2_axis1_apply 1 _ slices_S2000x2_o0_1_S2000x1 p (0 : Fin 1) (1 : Fin 2) rfl).trans ?_
  unfold k0_pay4
  rw [shapeCast_self]

/-- The one-hot rows of a degree column: at (p, j) the entry is 1 where the column number j, as a word, is row p's
    degree, and 0 elsewhere. -/
theorem onehot_apply (d : IVec S2000x1 32) (p : Fin 2000) (j : Fin 64) :
    (truncf .bf16 (sitofp (F := Ideal) .f32 (extui 32 (cmpi .eq (iota .tc S2000x64 32 [1] iota_S2000x64_d1_w32)
        (broadcastTo S2000x64 d broadcasts_S2000x1_S2000x64)) natLt_1_32)) bitsLt_bf16_f32 : FVec Ideal S2000x64 .bf16) (ix2 p j)
      = if BitVec.ofNat 32 j.val = d (ix2 p 0) then (1 : EReal) else 0 := by
  show FloatOps.sitofp (F := Ideal) .f32 ((IntOp.cmpi .eq (iota .tc S2000x64 32 [1] iota_S2000x64_d1_w32 (ix2 p j))
      (broadcastTo S2000x64 d broadcasts_S2000x1_S2000x64 (ix2 p j))).setWidth 32) = _
  rw [iota_single_apply, broadcastTo_a1_ab_apply]
  exact onehot_word _ _

/-- The one-hot rows against a table, at (p, q): the embedding sum of row p's degree at column q. -/
theorem onehot_tab_apply (d : IVec S2000x1 32) (tab : Vec Ideal S64x128 .f32) (p : Fin 2000) (q : Fin 128) :
    matmul dot_S2000x64_S64x128_S2000x128_1_0_0_1_n_n none
        (truncf .bf16 (sitofp (F := Ideal) .f32 (extui 32 (cmpi .eq (iota .tc S2000x64 32 [1] iota_S2000x64_d1_w32)
          (broadcastTo S2000x64 d broadcasts_S2000x1_S2000x64)) natLt_1_32)) bitsLt_bf16_f32)
        (truncf .bf16 tab bitsLt_bf16_f32) (constant (F := Ideal) S2000x128 .f32 0x00000000#32) (ix2 p q)
      = Spec.emb (fun j k => tab (ix2 j k)) (d (ix2 p 0)) q := by
  refine (matmul_tab_apply _ _ p q).trans ?_
  unfold Spec.emb
  refine Finset.sum_congr rfl fun j _ => ?_
  rw [onehot_apply]
  rfl

/-! ## The two logits -/

/-- The out-neighbour sums pass through an identity cast. -/
theorem pay2_apply (v1 : Vec Ideal S2000x128 .f32) (i : S2000x128.Idx) : k0_pay2 (F := Ideal) v1 i = v1 i := by
  unfold k0_pay2
  rw [shapeCast_self]

/-- The in-neighbour sums pass through an identity cast. -/
theorem pay3_apply (v3 : Vec Ideal S2000x128 .f32) (i : S2000x128.Idx) : k0_pay3 (F := Ideal) v3 i = v3 i := by
  unfold k0_pay3
  rw [shapeCast_self]

/-- A [1] bias cast to [1, 1] and broadcast down a column reads the bias at every row. -/
theorem bias_col_apply (b : Vec Ideal S1 .f32) (p : Fin 2000) :
    broadcastTo S2000x1 (shapeCast S1x1 b shapeCasts_S1_S1x1) broadcasts_S1x1_S2000x1 (ix2 p 0) = b (ix1 0) := by
  rw [broadcastTo_1b_ab_apply, shapeCast_a_1a_apply]

/-- A [128] bias row cast to [1, 128] and broadcast over the rows reads the bias at the column. -/
theorem bias_row_apply (b : Vec Ideal S128 .f32) (p : Fin 2000) (q : Fin 128) :
    broadcastTo S2000x128 (shapeCast S1x128 b shapeCasts_S128_S1x128) broadcasts_S1x128_S2000x128 (ix2 p q) = b (ix1 q) := by
  rw [broadcastTo_1b_ab_apply, shapeCast_a_1a_apply]

/-- The out-gate's logit of row p. -/
theorem pay5_apply (v0 v1 : Vec Ideal S2000x128 .f32) (v5 : Vec Ideal S2000x2 .i32) (v20 : Vec Ideal S64x128 .f32)
    (v31 : Vec Ideal S128x1 .f32) (v35 : Vec Ideal S1 .f32) (p : Fin 2000) :
    k0_pay5 (F := Ideal) v0 v1 v5 v20 v31 v35 (ix2 p 0)
      = Spec.logit (fun k => v1 (ix2 p k)) (fun k => v0 (ix2 p k)) (fun j k => v20 (ix2 j k)) (v5 (ix2 p 0))
          (fun k => v31 (ix2 k 0)) (v35 (ix1 0)) := by
  unfold k0_pay5
  rw [addf_apply, matmul_vec_apply, bias_col_apply]
  unfold Spec.logit
  refine congrArg (· + v35 (ix1 0)) (Finset.sum_congr rfl fun k _ => ?_)
  rw [truncf_apply, truncf_apply, addf_apply, subf_apply, pay2_apply, onehot_tab_apply, degOut_apply, shapeCast_self]

/-- The in-side term at (p, k): the in-neighbour sum less the node's features plus the in-degree embedding. -/
theorem pay6_apply (v0 v3 : Vec Ideal S2000x128 .f32) (v5 : Vec Ideal S2000x2 .i32) (v23 : Vec Ideal S64x128 .f32)
    (p : Fin 2000) (k : Fin 128) :
    k0_pay6 (F := Ideal) v0 v3 v5 v23 (ix2 p k)
      = v3 (ix2 p k) - v0 (ix2 p k) + Spec.emb (fun j k => v23 (ix2 j k)) (v5 (ix2 p 1)) k := by
  unfold k0_pay6
  rw [truncf_apply, addf_apply, subf_apply, pay3_apply, onehot_tab_apply, degIn_apply]

/-- The in-gate's logit of row p, from the in-side term. -/
theorem pay7_apply (v39 : FVec Ideal S2000x128 .bf16) (v40 : Vec Ideal S128x1 .f32) (v44 : Vec Ideal S1 .f32) (p : Fin 2000) :
    k0_pay7 (F := Ideal) v39 v40 v44 (ix2 p 0) = (∑ k : Fin 128, v39 (ix2 p k) * v40 (ix2 k 0)) + v44 (ix1 0) := by
  unfold k0_pay7
  rw [addf_apply, matmul_vec_apply, bias_col_apply]
  refine congrArg (· + v44 (ix1 0)) (Finset.sum_congr rfl fun k _ => ?_)
  rw [truncf_apply, shapeCast_self]

/-! ## The softmax pair and the masked gates -/

/-- The first softmax component of the two logit columns, at any index, written out as the kernel computes it. -/
theorem softmax0_apply (v38 : FVec Ideal S2000x1 .f32) (v39 : FVec Ideal S2000x128 .bf16) (v40 : Vec Ideal S128x1 .f32)
    (v44 : Vec Ideal S1 .f32) (i : S2000x1.Idx) :
    divf (k0_pay9 (F := Ideal) v38 v39 v40 v44) (k0_pay11 (F := Ideal) v38 v39 v40 v44) i
      = Spec.gate0 (v38 i) (k0_pay7 (F := Ideal) v39 v40 v44 i) := rfl

/-- The second softmax component. -/
theorem softmax1_apply (v38 : FVec Ideal S2000x1 .f32) (v39 : FVec Ideal S2000x128 .bf16) (v40 : Vec Ideal S128x1 .f32)
    (v44 : Vec Ideal S1 .f32) (i : S2000x1.Idx) :
    divf (k0_pay10 (F := Ideal) v38 v39 v40 v44) (k0_pay11 (F := Ideal) v38 v39 v40 v44) i
      = Spec.gate1 (v38 i) (k0_pay7 (F := Ideal) v39 v40 v44 i) := rfl

/-- Column c of the mask pack, at row p. -/
theorem mask_apply (v56 : Vec Ideal S2000x4 .f32) (c : Fin 4) (h : S2000x4.Slices ![0, c.val] S2000x1) (p : Fin 2000) :
    extractStridedSlice S2000x1 ![0, c.val] (k0_pay12 (F := Ideal) v56) h (ix2 p 0) = v56 (ix2 p c) := by
  refine (slice2_axis1_apply c.val _ h p (0 : Fin 1) c rfl).trans ?_
  unfold k0_pay12
  rw [shapeCast_self]

/-- The masked out-gate of row p. -/
theorem pay13_apply (v38 : FVec Ideal S2000x1 .f32) (v39 : FVec Ideal S2000x128 .bf16) (v40 : Vec Ideal S128x1 .f32)
    (v44 : Vec Ideal S1 .f32) (v56 : Vec Ideal S2000x4 .f32) (p : Fin 2000) :
    k0_pay13 (F := Ideal) v38 v39 v40 v44 v56 (ix2 p 0)
      = Spec.gate0 (v38 (ix2 p 0)) (k0_pay7 (F := Ideal) v39 v40 v44 (ix2 p 0)) * v56 (ix2 p 0) + v56 (ix2 p 1) := by
  unfold k0_pay13
  rw [addf_apply, mulf_apply, softmax0_apply]
  exact congrArg₂ (fun a b => Spec.gate0 (v38 (ix2 p 0)) (k0_pay7 (F := Ideal) v39 v40 v44 (ix2 p 0)) * a + b)
    (mask_apply v56 0 slices_S2000x4_o0_0_S2000x1 p) (mask_apply v56 1 slices_S2000x4_o0_1_S2000x1 p)

/-- The masked in-gate of row p. -/
theorem pay14_apply (v38 : FVec Ideal S2000x1 .f32) (v39 : FVec Ideal S2000x128 .bf16) (v40 : Vec Ideal S128x1 .f32)
    (v44 : Vec Ideal S1 .f32) (v56 : Vec Ideal S2000x4 .f32) (p : Fin 2000) :
    k0_pay14 (F := Ideal) v38 v39 v40 v44 v56 (ix2 p 0)
      = Spec.gate1 (v38 (ix2 p 0)) (k0_pay7 (F := Ideal) v39 v40 v44 (ix2 p 0)) * v56 (ix2 p 2) + v56 (ix2 p 3) := by
  unfold k0_pay14
  rw [addf_apply, mulf_apply, softmax1_apply]
  exact congrArg₂ (fun a b => Spec.gate1 (v38 (ix2 p 0)) (k0_pay7 (F := Ideal) v39 v40 v44 (ix2 p 0)) * a + b)
    (mask_apply v56 2 slices_S2000x4_o0_2_S2000x1 p) (mask_apply v56 3 slices_S2000x4_o0_3_S2000x1 p)

/-! ## The three projections and the output row -/

/-- A block of rows, narrowed, against a weight matrix stored [in, out], plus the bias row: the linear layer of row p
    at column q. -/
theorem proj_apply (a : FVec Ideal S2000x128 .bf16) (W : Vec Ideal S128x128 .f32) (b : Vec Ideal S128 .f32)
    (p : Fin 2000) (q : Fin 128) :
    addf (matmul dot_S2000x128_S128x128_S2000x128_1_0_0_1_n_n none a
        (truncf .bf16 (shapeCast S128x128 W shapeCasts_S128x128_S128x128) bitsLt_bf16_f32)
        (constant (F := Ideal) S2000x128 .f32 0x00000000#32))
      (broadcastTo S2000x128 (shapeCast S1x128 b shapeCasts_S128_S1x128) broadcasts_S1x128_S2000x128) (ix2 p q)
      = Spec.proj (fun k => a (ix2 p k)) (fun q k => W (ix2 k q)) (fun q => b (ix1 q)) q := by
  rw [addf_apply, matmul_sq_apply, bias_row_apply]
  unfold Spec.proj
  refine congrArg (· + b (ix1 q)) (Finset.sum_congr rfl fun k _ => ?_)
  rw [truncf_apply, shapeCast_self]

/-- The out-neighbour projection. -/
theorem pay15_apply (v2 : FVec Ideal S2000x128 .f32) (v67 : Vec Ideal S128x128 .f32) (v71 : Vec Ideal S128 .f32)
    (p : Fin 2000) (q : Fin 128) :
    k0_pay15 (F := Ideal) v2 v67 v71 (ix2 p q)
      = Spec.proj (fun k => v2 (ix2 p k)) (fun q k => v67 (ix2 k q)) (fun q => v71 (ix1 q)) q := by
  unfold k0_pay15
  exact proj_apply (truncf .bf16 v2 bitsLt_bf16_f32) v67 v71 p q

/-- The in-neighbour projection. -/
theorem pay16_apply (v4 : FVec Ideal S2000x128 .f32) (v76 : Vec Ideal S128x128 .f32) (v80 : Vec Ideal S128 .f32)
    (p : Fin 2000) (q : Fin 128) :
    k0_pay16 (F := Ideal) v4 v76 v80 (ix2 p q)
      = Spec.proj (fun k => v4 (ix2 p k)) (fun q k => v76 (ix2 k q)) (fun q => v80 (ix1 q)) q := by
  unfold k0_pay16
  exact proj_apply (truncf .bf16 v4 bitsLt_bf16_f32) v76 v80 p q

/-- The output row: the two gates, broadcast along the row, against the two neighbour projections, plus half the
    self projection. -/
theorem pay1_apply (v63 v65 : FVec Ideal S2000x1 .f32) (v74 v83 : FVec Ideal S2000x128 .f32) (v84 : FVec Ideal S2000x128 .bf16)
    (v85 : Vec Ideal S128x128 .f32) (v89 : Vec Ideal S128 .f32) (p : Fin 2000) (q : Fin 128) :
    k0_pay1 (F := Ideal) v63 v65 v74 v83 v84 v85 v89 (ix2 p q)
      = v63 (ix2 p 0) * v74 (ix2 p q) + v65 (ix2 p 0) * v83 (ix2 p q)
        + Ideal.ofBits .f32 0x3F000000#32
          * Spec.proj (fun k => v84 (ix2 p k)) (fun q k => v85 (ix2 k q)) (fun q => v89 (ix1 q)) q := by
  unfold k0_pay1
  rw [addf_apply, addf_apply, mulf_apply, mulf_apply, mulf_apply, broadcastTo_a1_ab_apply, broadcastTo_a1_ab_apply,
    broadcast_apply, proj_apply]
  rfl

/-- The in-gate's logit of row p, from the block's rows. -/
theorem logitIn_apply (v0 v3 : Vec Ideal S2000x128 .f32) (v5 : Vec Ideal S2000x2 .i32) (v23 : Vec Ideal S64x128 .f32)
    (v40 : Vec Ideal S128x1 .f32) (v44 : Vec Ideal S1 .f32) (p : Fin 2000) :
    k0_pay7 (F := Ideal) (k0_pay6 (F := Ideal) v0 v3 v5 v23) v40 v44 (ix2 p 0)
      = Spec.logit (fun k => v3 (ix2 p k)) (fun k => v0 (ix2 p k)) (fun j k => v23 (ix2 j k)) (v5 (ix2 p 1))
          (fun k => v40 (ix2 k 0)) (v44 (ix1 0)) := by
  rw [pay7_apply]
  unfold Spec.logit
  refine congrArg (· + v44 (ix1 0)) (Finset.sum_congr rfl fun k _ => ?_)
  rw [pay6_apply]

/-! ## The loads: each rectangle is its whole buffer -/

theorem zero_offsets2 : (![0, 0] : Fin 2 → Nat) = fun _ => 0 :=
  funext fun a => by match a with | ⟨0, _⟩ => rfl | ⟨1, _⟩ => rfl
theorem zero_offsets1 : (![0] : Fin 1 → Nat) = fun _ => 0 :=
  funext fun a => by match a with | ⟨0, _⟩ => rfl

theorem ld_rBig (x : Vec Ideal S2000x128 .f32) : View.ld x rBig = x := View.ld_unit_zero zero_offsets2 _ x
theorem ld_rDeg (x : Vec Ideal S2000x2 .i32) : View.ld x rDeg = x := View.ld_unit_zero zero_offsets2 _ x
theorem ld_rMask (x : Vec Ideal S2000x4 .f32) : View.ld x rMask = x := View.ld_unit_zero zero_offsets2 _ x
theorem ld_rTab (x : Vec Ideal S64x128 .f32) : View.ld x rTab = x := View.ld_unit_zero zero_offsets2 _ x
theorem ld_rSq (x : Vec Ideal S128x128 .f32) : View.ld x rSq = x := View.ld_unit_zero zero_offsets2 _ x
theorem ld_rVec (x : Vec Ideal S128 .f32) : View.ld x rVec = x := View.ld_unit_zero zero_offsets1 _ x
theorem ld_rCol (x : Vec Ideal S128x1 .f32) : View.ld x rCol = x := View.ld_unit_zero zero_offsets2 _ x
theorem ld_rOne (x : Vec Ideal S1 .f32) : View.ld x rOne = x := View.ld_unit_zero zero_offsets1 _ x

/-! ## The body's values at an index -/

variable (x0 x1 x2 : Vec Ideal S2000x128 .f32) (x3 : Vec Ideal S2000x2 .i32) (x4 : Vec Ideal S2000x4 .f32)
  (x5 x6 : Vec Ideal S64x128 .f32) (x7 : Vec Ideal S128x128 .f32) (x8 : Vec Ideal S128 .f32)
  (x9 : Vec Ideal S128x128 .f32) (x10 : Vec Ideal S128 .f32) (x11 : Vec Ideal S128x1 .f32) (x12 : Vec Ideal S1 .f32)
  (x13 : Vec Ideal S128x1 .f32) (x14 : Vec Ideal S1 .f32) (x15 : Vec Ideal S128x128 .f32) (x16 : Vec Ideal S128 .f32)

/-- The masked out-gate column of the block, at row p, is the specification's out-gate of that row. -/
theorem gateOut_apply (p : Fin 2000) :
    gateOut (F := Ideal) x0 x1 x2 x3 x4 x5 x6 x7 x8 x9 x10 x11 x12 x13 x14 x15 x16 (ix2 p 0)
      = Spec.cOut (fun k => x0 (ix2 p k)) (fun k => x1 (ix2 p k)) (fun k => x2 (ix2 p k)) (x3 (ix2 p 1)) (x3 (ix2 p 0))
          (x4 (ix2 p 0)) (x4 (ix2 p 1))
          (fun k => x11 (ix2 k 0)) (x12 (ix1 0)) (fun k => x13 (ix2 k 0)) (x14 (ix1 0))
          (fun j k => x6 (ix2 j k)) (fun j k => x5 (ix2 j k)) := by
  unfold gateOut logitOut termIn
  rw [ld_rBig, ld_rBig, ld_rBig, ld_rDeg, ld_rTab, ld_rTab, ld_rCol, ld_rCol, ld_rOne, ld_rOne, ld_rMask]
  rw [pay13_apply, logitIn_apply, pay5_apply]
  rfl

/-- The masked in-gate column of the block, at row p, is the specification's in-gate of that row. -/
theorem gateIn_apply (p : Fin 2000) :
    gateIn (F := Ideal) x0 x1 x2 x3 x4 x5 x6 x7 x8 x9 x10 x11 x12 x13 x14 x15 x16 (ix2 p 0)
      = Spec.cIn (fun k => x0 (ix2 p k)) (fun k => x1 (ix2 p k)) (fun k => x2 (ix2 p k)) (x3 (ix2 p 1)) (x3 (ix2 p 0))
          (x4 (ix2 p 2)) (x4 (ix2 p 3))
          (fun k => x11 (ix2 k 0)) (x12 (ix1 0)) (fun k => x13 (ix2 k 0)) (x14 (ix1 0))
          (fun j k => x6 (ix2 j k)) (fun j k => x5 (ix2 j k)) := by
  unfold gateIn logitOut termIn
  rw [ld_rBig, ld_rBig, ld_rBig, ld_rDeg, ld_rTab, ld_rTab, ld_rCol, ld_rCol, ld_rOne, ld_rOne, ld_rMask]
  rw [pay14_apply, logitIn_apply, pay5_apply]
  rfl

/-- The output block, at (p, q), is the specification's output row of node p at column q. -/
theorem outBlock_apply (p : Fin 2000) (q : Fin 128) :
    outBlock (F := Ideal) x0 x1 x2 x3 x4 x5 x6 x7 x8 x9 x10 x11 x12 x13 x14 x15 x16 (ix2 p q)
      = Spec.out (fun k => x0 (ix2 p k)) (fun k => x1 (ix2 p k)) (fun k => x2 (ix2 p k)) (x3 (ix2 p 1)) (x3 (ix2 p 0))
          (x4 (ix2 p 0)) (x4 (ix2 p 1)) (x4 (ix2 p 2)) (x4 (ix2 p 3))
          (fun k => x11 (ix2 k 0)) (x12 (ix1 0)) (fun k => x13 (ix2 k 0)) (x14 (ix1 0))
          (fun j k => x6 (ix2 j k)) (fun j k => x5 (ix2 j k))
          (fun q k => x7 (ix2 k q)) (fun q => x8 (ix1 q)) (fun q k => x9 (ix2 k q)) (fun q => x10 (ix1 q))
          (fun q k => x15 (ix2 k q)) (fun q => x16 (ix1 q)) q := by
  have e1 : (fun k => k0_pay2 (F := Ideal) x1 (ix2 p k)) = fun k => x1 (ix2 p k) := funext fun k => pay2_apply x1 _
  have e2 : (fun k => k0_pay3 (F := Ideal) x2 (ix2 p k)) = fun k => x2 (ix2 p k) := funext fun k => pay3_apply x2 _
  unfold outBlock
  rw [pay1_apply, gateOut_apply, gateIn_apply, ld_rBig, ld_rBig, ld_rBig, ld_rSq, ld_rSq, ld_rSq, ld_rVec, ld_rVec, ld_rVec,
    pay15_apply, pay16_apply, e1, e2]
  rfl

end Cert.KPay

end
-- ==== Proof.KValue.lean ====
/- From the kernel program's frame run to its three result arrays as whole-array functions, index by index.
   The grid has 25 points. At point t the node-indexed arrays (features, the two neighbour sums, the degree pair,
   the four mask scalars, the output and the gate pack) are staged by blocks of 2000 rows, rows 2000·t … 2000·t+1999,
   and every parameter array is staged whole. So local row p of a block at point t is node 2000·t + p of its array,
   and what the body stores at local row p — the node's output row in the output block, the node's masked out-gate
   in column 0 and its masked in-gate in column 1 of the gate block — depends on the inputs through that node's rows
   and the parameters only: each block written back is the block of ONE function of the node index. The 25 blocks
   tile the 50000 rows (node r lies in block r / 2000), hence after the last write-back the output array is
   r, q ↦ out r q and the gate pack is r, 0 ↦ cOut r and r, 1 ↦ cIn r. The two slices after the region then cut
   the pack's columns: column 0 is the out-gate array and column 1 the in-gate array. -/
import proofs.«402007_j15350213116045_2_alg».proof.Proof.KernelIdeal.Frame
import proofs.«402007_j15350213116045_2_alg».proof.Proof.KPay
import proofs.«402007_j15350213116045_2_alg».proof.Proof.Spec
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.KV

open Cert.KernelIdeal Cert.KernelIdeal.Gen Cert.KernelIdeal.Fr Cert.Spec Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The three results of a node, from the arrays as the region finds them -/

/-- node r's masked out-gate from the arrays as the region finds them -/
def nodeCOut (c : Dev nD) (r : Fin 50000) : EReal :=
  Spec.cOut (fun k => V m c main_arg0 (ix2 r k)) (fun k => V m c main_v50 (ix2 r k)) (fun k => V m c main_v63 (ix2 r k)) (V m c main_v66 (ix2 r 1)) (V m c main_v66 (ix2 r 0)) (V m c main_v71 (ix2 r 0)) (V m c main_v71 (ix2 r 1)) (fun k => V m c main_v75 (ix2 k 0)) (V m c main_arg13 (ix1 0)) (fun k => V m c main_v76 (ix2 k 0)) (V m c main_arg15 (ix1 0)) (fun j k => V m c main_arg18 (ix2 j k)) (fun j k => V m c main_arg19 (ix2 j k))

/-- node r's masked in-gate from the arrays as the region finds them -/
def nodeCIn (c : Dev nD) (r : Fin 50000) : EReal :=
  Spec.cIn (fun k => V m c main_arg0 (ix2 r k)) (fun k => V m c main_v50 (ix2 r k)) (fun k => V m c main_v63 (ix2 r k)) (V m c main_v66 (ix2 r 1)) (V m c main_v66 (ix2 r 0)) (V m c main_v71 (ix2 r 2)) (V m c main_v71 (ix2 r 3)) (fun k => V m c main_v75 (ix2 k 0)) (V m c main_arg13 (ix1 0)) (fun k => V m c main_v76 (ix2 k 0)) (V m c main_arg15 (ix1 0)) (fun j k => V m c main_arg18 (ix2 j k)) (fun j k => V m c main_arg19 (ix2 j k))

/-- node r's output row at column q from the arrays as the region finds them -/
def nodeOut (c : Dev nD) (r : Fin 50000) (q : Fin 128) : EReal :=
  Spec.out (fun k => V m c main_arg0 (ix2 r k)) (fun k => V m c main_v50 (ix2 r k)) (fun k => V m c main_v63 (ix2 r k)) (V m c main_v66 (ix2 r 1)) (V m c main_v66 (ix2 r 0)) (V m c main_v71 (ix2 r 0)) (V m c main_v71 (ix2 r 1)) (V m c main_v71 (ix2 r 2)) (V m c main_v71 (ix2 r 3)) (fun k => V m c main_v75 (ix2 k 0)) (V m c main_arg13 (ix1 0)) (fun k => V m c main_v76 (ix2 k 0)) (V m c main_arg15 (ix1 0)) (fun j k => V m c main_arg18 (ix2 j k)) (fun j k => V m c main_arg19 (ix2 j k)) (fun q k => V m c main_v72 (ix2 k q)) (fun q => V m c main_arg9 (ix1 q)) (fun q k => V m c main_v73 (ix2 k q)) (fun q => V m c main_arg11 (ix1 q)) (fun q k => V m c main_v74 (ix2 k q)) (fun q => V m c main_arg17 (ix1 q)) q

/-! ## What the body leaves in its two output buffers, entry by entry -/

theorem zero_pair : (![0, 0] : Fin 2 → Nat) = fun _ => 0 := funext fun a => by fin_cases a <;> rfl

/-- Column 0 of a row of the gate buffer is outside the rectangle of column 1. -/
theorem col_zero_not_mem (p : Fin 2000) : (ix2 p (0 : Fin 2) : S2000x2.Idx) ∉ (rGate1).set := by
  intro hmem
  have h := Rect.mem_set_unit.mp hmem (1 : Fin 2)
  have h1 : (1 : Nat) ≤ 0 := h.1
  omega

/-- Row `p` of the one-column rectangle at column 0 is entry `(p, 0)` of the gate buffer. -/
theorem col_zero_emb (p : Fin 2000) : (ix2 p (0 : Fin 2) : S2000x2.Idx) = rGate0.emb (ix2 p (0 : Fin 1)) := by
  funext a; apply Fin.ext
  match a with
  | ⟨0, _⟩ => show p.val = 0 + 1 * p.val; omega
  | ⟨1, _⟩ => show (0 : Nat) = 0 + 1 * 0; rfl

/-- Row `p` of the one-column rectangle at column 1 is entry `(p, 1)` of the gate buffer. -/
theorem col_one_emb (p : Fin 2000) : (ix2 p (1 : Fin 2) : S2000x2.Idx) = rGate1.emb (ix2 p (0 : Fin 1)) := by
  funext a; apply Fin.ext
  match a with
  | ⟨0, _⟩ => show p.val = 0 + 1 * p.val; omega
  | ⟨1, _⟩ => show (1 : Nat) = 1 + 1 * 0; rfl

/-- Two column stores, the later into column 1 and the earlier into column 0: column 0 holds the earlier payload, -/
theorem gatePack_col_zero (g1 g0 : FVec Ideal S2000x1 .f32) (p : Fin 2000) :
    View.canon [(⟨rGate1, g1⟩ : View.Piece (Elt Ideal) S2000x2 .f32), ⟨rGate0, g0⟩] (ix2 p 0) = g0 (ix2 p 0) := by
  refine (View.canon_cons_of_not_mem (Val := Elt Ideal) (e := .f32) (⟨rGate1, g1⟩ : View.Piece (Elt Ideal) S2000x2 .f32) [⟨rGate0, g0⟩] (col_zero_not_mem p)).trans ?_
  refine (congrArg (View.canon [(⟨rGate0, g0⟩ : View.Piece (Elt Ideal) S2000x2 .f32)]) (col_zero_emb p)).trans ?_
  exact View.canon_cons_emb (Val := Elt Ideal) (e := .f32) rGate0 g0 [] (ix2 p (0 : Fin 1))

/-- and column 1 the later. -/
theorem gatePack_col_one (g1 g0 : FVec Ideal S2000x1 .f32) (p : Fin 2000) :
    View.canon [(⟨rGate1, g1⟩ : View.Piece (Elt Ideal) S2000x2 .f32), ⟨rGate0, g0⟩] (ix2 p 1) = g1 (ix2 p 0) := by
  refine (congrArg (View.canon [(⟨rGate1, g1⟩ : View.Piece (Elt Ideal) S2000x2 .f32), ⟨rGate0, g0⟩]) (col_one_emb p)).trans ?_
  exact View.canon_cons_emb (Val := Elt Ideal) (e := .f32) rGate1 g1 [⟨rGate0, g0⟩] (ix2 p (0 : Fin 1))

/-- One store that fills the buffer leaves its payload. -/
theorem wholeStore (w : FVec Ideal S2000x128 .f32) :
    View.canon [(⟨rBig, w⟩ : View.Piece (Elt Ideal) S2000x128 .f32)] = w :=
  View.canon_unit_zero (Val := Elt Ideal) (e := .f32) (S := S2000x128) zero_pair inb_S2000x128_S2000x128_0_0 w

section Blocks
variable (x0 x1 x2 : Vec Ideal S2000x128 .f32) (x3 : Vec Ideal S2000x2 .i32) (x4 : Vec Ideal S2000x4 .f32) (x5 x6 : Vec Ideal S64x128 .f32) (x7 : Vec Ideal S128x128 .f32) (x8 : Vec Ideal S128 .f32) (x9 : Vec Ideal S128x128 .f32) (x10 : Vec Ideal S128 .f32) (x11 : Vec Ideal S128x1 .f32) (x12 : Vec Ideal S1 .f32) (x13 : Vec Ideal S128x1 .f32) (x14 : Vec Ideal S1 .f32) (x15 : Vec Ideal S128x128 .f32) (x16 : Vec Ideal S128 .f32)

/-- The output buffer is filled by one store: its entry at local row `p`, column `q` is the output of the node whose
    rows are the blocks' rows `p`. -/
theorem outBuf_apply (p : Fin 2000) (q : Fin 128) :
    out0_17 (F := Ideal) x0 x1 x2 x3 x4 x5 x6 x7 x8 x9 x10 x11 x12 x13 x14 x15 x16 (ix2 p q) = Spec.out (fun k => x0 (ix2 p k)) (fun k => x1 (ix2 p k)) (fun k => x2 (ix2 p k)) (x3 (ix2 p 1)) (x3 (ix2 p 0)) (x4 (ix2 p 0)) (x4 (ix2 p 1)) (x4 (ix2 p 2)) (x4 (ix2 p 3)) (fun k => x11 (ix2 k 0)) (x12 (ix1 0)) (fun k => x13 (ix2 k 0)) (x14 (ix1 0)) (fun j k => x6 (ix2 j k)) (fun j k => x5 (ix2 j k)) (fun q k => x7 (ix2 k q)) (fun q => x8 (ix1 q)) (fun q k => x9 (ix2 k q)) (fun q => x10 (ix1 q)) (fun q k => x15 (ix2 k q)) (fun q => x16 (ix1 q)) q :=
  (congrFun (wholeStore (outBlock (F := Ideal) x0 x1 x2 x3 x4 x5 x6 x7 x8 x9 x10 x11 x12 x13 x14 x15 x16)) (ix2 p q)).trans (KPay.outBlock_apply x0 x1 x2 x3 x4 x5 x6 x7 x8 x9 x10 x11 x12 x13 x14 x15 x16 p q)

/-- Column 0 of the gate buffer is not under the later store (which fills column 1), so it holds the earlier store's
    payload: the masked out-gate. -/
theorem gateBuf_apply_zero (p : Fin 2000) :
    out0_18 (F := Ideal) x0 x1 x2 x3 x4 x5 x6 x7 x8 x9 x10 x11 x12 x13 x14 x15 x16 (ix2 p 0) = Spec.cOut (fun k => x0 (ix2 p k)) (fun k => x1 (ix2 p k)) (fun k => x2 (ix2 p k)) (x3 (ix2 p 1)) (x3 (ix2 p 0)) (x4 (ix2 p 0)) (x4 (ix2 p 1)) (fun k => x11 (ix2 k 0)) (x12 (ix1 0)) (fun k => x13 (ix2 k 0)) (x14 (ix1 0)) (fun j k => x6 (ix2 j k)) (fun j k => x5 (ix2 j k)) :=
  (gatePack_col_zero (gateIn (F := Ideal) x0 x1 x2 x3 x4 x5 x6 x7 x8 x9 x10 x11 x12 x13 x14 x15 x16) (gateOut (F := Ideal) x0 x1 x2 x3 x4 x5 x6 x7 x8 x9 x10 x11 x12 x13 x14 x15 x16) p).trans (KPay.gateOut_apply x0 x1 x2 x3 x4 x5 x6 x7 x8 x9 x10 x11 x12 x13 x14 x15 x16 p)

/-- Column 1 of the gate buffer is under the later store: it holds the masked in-gate. -/
theorem gateBuf_apply_one (p : Fin 2000) :
    out0_18 (F := Ideal) x0 x1 x2 x3 x4 x5 x6 x7 x8 x9 x10 x11 x12 x13 x14 x15 x16 (ix2 p 1) = Spec.cIn (fun k => x0 (ix2 p k)) (fun k => x1 (ix2 p k)) (fun k => x2 (ix2 p k)) (x3 (ix2 p 1)) (x3 (ix2 p 0)) (x4 (ix2 p 2)) (x4 (ix2 p 3)) (fun k => x11 (ix2 k 0)) (x12 (ix1 0)) (fun k => x13 (ix2 k 0)) (x14 (ix1 0)) (fun j k => x6 (ix2 j k)) (fun j k => x5 (ix2 j k)) :=
  (gatePack_col_one (gateIn (F := Ideal) x0 x1 x2 x3 x4 x5 x6 x7 x8 x9 x10 x11 x12 x13 x14 x15 x16) (gateOut (F := Ideal) x0 x1 x2 x3 x4 x5 x6 x7 x8 x9 x10 x11 x12 x13 x14 x15 x16) p).trans (KPay.gateIn_apply x0 x1 x2 x3 x4 x5 x6 x7 x8 x9 x10 x11 x12 x13 x14 x15 x16 p)

/-! The same three entries when local row `p` of every node-indexed block is row `r` of an array and every parameter
    block is a whole array: the results of node `r` of those arrays. -/

variable (a0 a1 a2 : Vec Ideal S50000x128 .f32) (a3 : Vec Ideal S50000x2 .i32) (a4 : Vec Ideal S50000x4 .f32) (a5 a6 : Vec Ideal S64x128 .f32) (a7 : Vec Ideal S128x128 .f32) (a8 : Vec Ideal S128 .f32) (a9 : Vec Ideal S128x128 .f32) (a10 : Vec Ideal S128 .f32) (a11 : Vec Ideal S128x1 .f32) (a12 : Vec Ideal S1 .f32) (a13 : Vec Ideal S128x1 .f32) (a14 : Vec Ideal S1 .f32) (a15 : Vec Ideal S128x128 .f32) (a16 : Vec Ideal S128 .f32) (p : Fin 2000) (r : Fin 50000)

theorem outBuf_of_rows (q : Fin 128) (h0 : ∀ k, x0 (ix2 p k) = a0 (ix2 r k)) (h1 : ∀ k, x1 (ix2 p k) = a1 (ix2 r k)) (h2 : ∀ k, x2 (ix2 p k) = a2 (ix2 r k)) (h3 : ∀ k, x3 (ix2 p k) = a3 (ix2 r k)) (h4 : ∀ k, x4 (ix2 p k) = a4 (ix2 r k)) (h5 : x5 = a5) (h6 : x6 = a6) (h7 : x7 = a7) (h8 : x8 = a8) (h9 : x9 = a9) (h10 : x10 = a10) (h11 : x11 = a11) (h12 : x12 = a12) (h13 : x13 = a13) (h14 : x14 = a14) (h15 : x15 = a15) (h16 : x16 = a16) :
    out0_17 (F := Ideal) x0 x1 x2 x3 x4 x5 x6 x7 x8 x9 x10 x11 x12 x13 x14 x15 x16 (ix2 p q) = Spec.out (fun k => a0 (ix2 r k)) (fun k => a1 (ix2 r k)) (fun k => a2 (ix2 r k)) (a3 (ix2 r 1)) (a3 (ix2 r 0)) (a4 (ix2 r 0)) (a4 (ix2 r 1)) (a4 (ix2 r 2)) (a4 (ix2 r 3)) (fun k => a11 (ix2 k 0)) (a12 (ix1 0)) (fun k => a13 (ix2 k 0)) (a14 (ix1 0)) (fun j k => a6 (ix2 j k)) (fun j k => a5 (ix2 j k)) (fun q k => a7 (ix2 k q)) (fun q => a8 (ix1 q)) (fun q k => a9 (ix2 k q)) (fun q => a10 (ix1 q)) (fun q k => a15 (ix2 k q)) (fun q => a16 (ix1 q)) q := by
  subst h5 h6 h7 h8 h9 h10 h11 h12 h13 h14 h15 h16
  refine (outBuf_apply x0 x1 x2 x3 x4 x5 x6 x7 x8 x9 x10 x11 x12 x13 x14 x15 x16 p q).trans ?_
  rw [funext h0, funext h1, funext h2, h3 1, h3 0, h4 0, h4 1, h4 2, h4 3]

theorem gateBuf_zero_of_rows (h0 : ∀ k, x0 (ix2 p k) = a0 (ix2 r k)) (h1 : ∀ k, x1 (ix2 p k) = a1 (ix2 r k)) (h2 : ∀ k, x2 (ix2 p k) = a2 (ix2 r k)) (h3 : ∀ k, x3 (ix2 p k) = a3 (ix2 r k)) (h4 : ∀ k, x4 (ix2 p k) = a4 (ix2 r k)) (h5 : x5 = a5) (h6 : x6 = a6) (h7 : x7 = a7) (h8 : x8 = a8) (h9 : x9 = a9) (h10 : x10 = a10) (h11 : x11 = a11) (h12 : x12 = a12) (h13 : x13 = a13) (h14 : x14 = a14) (h15 : x15 = a15) (h16 : x16 = a16) :
    out0_18 (F := Ideal) x0 x1 x2 x3 x4 x5 x6 x7 x8 x9 x10 x11 x12 x13 x14 x15 x16 (ix2 p 0) = Spec.cOut (fun k => a0 (ix2 r k)) (fun k => a1 (ix2 r k)) (fun k => a2 (ix2 r k)) (a3 (ix2 r 1)) (a3 (ix2 r 0)) (a4 (ix2 r 0)) (a4 (ix2 r 1)) (fun k => a11 (ix2 k 0)) (a12 (ix1 0)) (fun k => a13 (ix2 k 0)) (a14 (ix1 0)) (fun j k => a6 (ix2 j k)) (fun j k => a5 (ix2 j k)) := by
  subst h5 h6 h7 h8 h9 h10 h11 h12 h13 h14 h15 h16
  refine (gateBuf_apply_zero x0 x1 x2 x3 x4 x5 x6 x7 x8 x9 x10 x11 x12 x13 x14 x15 x16 p).trans ?_
  rw [funext h0, funext h1, funext h2, h3 1, h3 0, h4 0, h4 1]

theorem gateBuf_one_of_rows (h0 : ∀ k, x0 (ix2 p k) = a0 (ix2 r k)) (h1 : ∀ k, x1 (ix2 p k) = a1 (ix2 r k)) (h2 : ∀ k, x2 (ix2 p k) = a2 (ix2 r k)) (h3 : ∀ k, x3 (ix2 p k) = a3 (ix2 r k)) (h4 : ∀ k, x4 (ix2 p k) = a4 (ix2 r k)) (h5 : x5 = a5) (h6 : x6 = a6) (h7 : x7 = a7) (h8 : x8 = a8) (h9 : x9 = a9) (h10 : x10 = a10) (h11 : x11 = a11) (h12 : x12 = a12) (h13 : x13 = a13) (h14 : x14 = a14) (h15 : x15 = a15) (h16 : x16 = a16) :
    out0_18 (F := Ideal) x0 x1 x2 x3 x4 x5 x6 x7 x8 x9 x10 x11 x12 x13 x14 x15 x16 (ix2 p 1) = Spec.cIn (fun k => a0 (ix2 r k)) (fun k => a1 (ix2 r k)) (fun k => a2 (ix2 r k)) (a3 (ix2 r 1)) (a3 (ix2 r 0)) (a4 (ix2 r 2)) (a4 (ix2 r 3)) (fun k => a11 (ix2 k 0)) (a12 (ix1 0)) (fun k => a13 (ix2 k 0)) (a14 (ix1 0)) (fun j k => a6 (ix2 j k)) (fun j k => a5 (ix2 j k)) := by
  subst h5 h6 h7 h8 h9 h10 h11 h12 h13 h14 h15 h16
  refine (gateBuf_apply_one x0 x1 x2 x3 x4 x5 x6 x7 x8 x9 x10 x11 x12 x13 x14 x15 x16 p).trans ?_
  rw [funext h0, funext h1, funext h2, h3 1, h3 0, h4 2, h4 3]

end Blocks

/-! ## The blocks at a grid point, read off the arrays -/

/-! The windows' index maps, decided over the 25 points: a node-indexed window's block index is the point's number along
    the rows and 0 along the columns; a parameter window's is 0 on every axis. -/

theorem feat_index : ∀ t : Fin cfg0.N, win0_0.index t (0 : Fin 2) = t.val ∧ win0_0.index t (1 : Fin 2) = 0 :=
  (by decide +kernel : ∀ t : Fin grid0.N, _)

theorem outSum_index : ∀ t : Fin cfg0.N, win0_1.index t (0 : Fin 2) = t.val ∧ win0_1.index t (1 : Fin 2) = 0 :=
  (by decide +kernel : ∀ t : Fin grid0.N, _)

theorem inSum_index : ∀ t : Fin cfg0.N, win0_2.index t (0 : Fin 2) = t.val ∧ win0_2.index t (1 : Fin 2) = 0 :=
  (by decide +kernel : ∀ t : Fin grid0.N, _)

theorem deg_index : ∀ t : Fin cfg0.N, win0_3.index t (0 : Fin 2) = t.val ∧ win0_3.index t (1 : Fin 2) = 0 :=
  (by decide +kernel : ∀ t : Fin grid0.N, _)

theorem mask_index : ∀ t : Fin cfg0.N, win0_4.index t (0 : Fin 2) = t.val ∧ win0_4.index t (1 : Fin 2) = 0 :=
  (by decide +kernel : ∀ t : Fin grid0.N, _)

theorem out_index : ∀ t : Fin cfg0.N, win0_17.index t (0 : Fin 2) = t.val ∧ win0_17.index t (1 : Fin 2) = 0 :=
  (by decide +kernel : ∀ t : Fin grid0.N, _)

theorem gates_index : ∀ t : Fin cfg0.N, win0_18.index t (0 : Fin 2) = t.val ∧ win0_18.index t (1 : Fin 2) = 0 :=
  (by decide +kernel : ∀ t : Fin grid0.N, _)

theorem tabOut_index : ∀ t : Fin cfg0.N, win0_5.index t (0 : Fin 2) = 0 ∧ win0_5.index t (1 : Fin 2) = 0 :=
  (by decide +kernel : ∀ t : Fin grid0.N, _)

theorem tabIn_index : ∀ t : Fin cfg0.N, win0_6.index t (0 : Fin 2) = 0 ∧ win0_6.index t (1 : Fin 2) = 0 :=
  (by decide +kernel : ∀ t : Fin grid0.N, _)

theorem wSrc_index : ∀ t : Fin cfg0.N, win0_7.index t (0 : Fin 2) = 0 ∧ win0_7.index t (1 : Fin 2) = 0 :=
  (by decide +kernel : ∀ t : Fin grid0.N, _)

theorem bSrc_index : ∀ t : Fin cfg0.N, win0_8.index t (0 : Fin 1) = 0 :=
  (by decide +kernel : ∀ t : Fin grid0.N, _)

theorem wDst_index : ∀ t : Fin cfg0.N, win0_9.index t (0 : Fin 2) = 0 ∧ win0_9.index t (1 : Fin 2) = 0 :=
  (by decide +kernel : ∀ t : Fin grid0.N, _)

theorem bDst_index : ∀ t : Fin cfg0.N, win0_10.index t (0 : Fin 1) = 0 :=
  (by decide +kernel : ∀ t : Fin grid0.N, _)

theorem gateWOut_index : ∀ t : Fin cfg0.N, win0_11.index t (0 : Fin 2) = 0 ∧ win0_11.index t (1 : Fin 2) = 0 :=
  (by decide +kernel : ∀ t : Fin grid0.N, _)

theorem gateBOut_index : ∀ t : Fin cfg0.N, win0_12.index t (0 : Fin 1) = 0 :=
  (by decide +kernel : ∀ t : Fin grid0.N, _)

theorem gateWIn_index : ∀ t : Fin cfg0.N, win0_13.index t (0 : Fin 2) = 0 ∧ win0_13.index t (1 : Fin 2) = 0 :=
  (by decide +kernel : ∀ t : Fin grid0.N, _)

theorem gateBIn_index : ∀ t : Fin cfg0.N, win0_14.index t (0 : Fin 1) = 0 :=
  (by decide +kernel : ∀ t : Fin grid0.N, _)

theorem wFc_index : ∀ t : Fin cfg0.N, win0_15.index t (0 : Fin 2) = 0 ∧ win0_15.index t (1 : Fin 2) = 0 :=
  (by decide +kernel : ∀ t : Fin grid0.N, _)

theorem bFc_index : ∀ t : Fin cfg0.N, win0_16.index t (0 : Fin 1) = 0 :=
  (by decide +kernel : ∀ t : Fin grid0.N, _)

/-! Each window's block at a point, read off ANY contents `A` of its array. -/

/-- Local row `p` of the block of the feature rows at point `t` is row `2000·t + p` of the array. -/
theorem feat_block_row (A : Vec Ideal S50000x128 .f32) (t : Fin cfg0.N) (p : Fin 2000) (r : Fin 50000) (hr : r.val = 2000 * t.val + p.val) (k : Fin 128) :
    ((cfg0.win 0).blk t).view.read (Elt Ideal) A (ix2 p k) = A (ix2 r k) := by
  obtain ⟨e0, e1⟩ := feat_index t
  show A (((cfg0.win 0).blk t).view.emb (ix2 p k)) = A (ix2 r k)
  refine congrArg A (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- Local row `p` of the block of the out-neighbour sums at point `t` is row `2000·t + p` of the array. -/
theorem outSum_block_row (A : Vec Ideal S50000x128 .f32) (t : Fin cfg0.N) (p : Fin 2000) (r : Fin 50000) (hr : r.val = 2000 * t.val + p.val) (k : Fin 128) :
    ((cfg0.win 1).blk t).view.read (Elt Ideal) A (ix2 p k) = A (ix2 r k) := by
  obtain ⟨e0, e1⟩ := outSum_index t
  show A (((cfg0.win 1).blk t).view.emb (ix2 p k)) = A (ix2 r k)
  refine congrArg A (funext fun a => Fin.ext ?_)
  match a with
  | ⟨0, _⟩ => show win0_1.index t (0 : Fin 2) * 2000 + 1 * p.val = r.val; omega
  | ⟨1, _⟩ => show win0_1.index t (1 : Fin 2) * 128 + 1 * k.val = k.val; omega

/-- Local row `p` of the block of the in-neighbour sums at point `t` is row `2000·t + p` of the array. -/
theorem inSum_block_row (A : Vec Ideal S50000x128 .f32) (t : Fin cfg0.N) (p : Fin 2000) (r : Fin 50000) (hr : r.val = 2000 * t.val + p.val) (k : Fin 128) :
    ((cfg0.win 2).blk t).view.read (Elt Ideal) A (ix2 p k) = A (ix2 r k) := by
  obtain ⟨e0, e1⟩ := inSum_index t
  show A (((cfg0.win 2).blk t).view.emb (ix2 p k)) = A (ix2 r k)
  refine congrArg A (funext fun a => Fin.ext ?_)
  match a with
  | ⟨0, _⟩ => show win0_2.index t (0 : Fin 2) * 2000 + 1 * p.val = r.val; omega
  | ⟨1, _⟩ => show win0_2.index t (1 : Fin 2) * 128 + 1 * k.val = k.val; omega

/-- Local row `p` of the block of the degree pairs at point `t` is row `2000·t + p` of the array. -/
theorem deg_block_row (A : Vec Ideal S50000x2 .i32) (t : Fin cfg0.N) (p : Fin 2000) (r : Fin 50000) (hr : r.val = 2000 * t.val + p.val) (k : Fin 2) :
    ((cfg0.win 3).blk t).view.read (Elt Ideal) A (ix2 p k) = A (ix2 r k) := by
  obtain ⟨e0, e1⟩ := deg_index t
  show A (((cfg0.win 3).blk t).view.emb (ix2 p k)) = A (ix2 r k)
  refine congrArg A (funext fun a => Fin.ext ?_)
  match a with
  | ⟨0, _⟩ => show win0_3.index t (0 : Fin 2) * 2000 + 1 * p.val = r.val; omega
  | ⟨1, _⟩ => show win0_3.index t (1 : Fin 2) * 2 + 1 * k.val = k.val; omega

/-- Local row `p` of the block of the mask scalars at point `t` is row `2000·t + p` of the array. -/
theorem mask_block_row (A : Vec Ideal S50000x4 .f32) (t : Fin cfg0.N) (p : Fin 2000) (r : Fin 50000) (hr : r.val = 2000 * t.val + p.val) (k : Fin 4) :
    ((cfg0.win 4).blk t).view.read (Elt Ideal) A (ix2 p k) = A (ix2 r k) := by
  obtain ⟨e0, e1⟩ := mask_index t
  show A (((cfg0.win 4).blk t).view.emb (ix2 p k)) = A (ix2 r k)
  refine congrArg A (funext fun a => Fin.ext ?_)
  match a with
  | ⟨0, _⟩ => show win0_4.index t (0 : Fin 2) * 2000 + 1 * p.val = r.val; omega
  | ⟨1, _⟩ => show win0_4.index t (1 : Fin 2) * 4 + 1 * k.val = k.val; omega

/-- The block of the out-degree embedding table at every point is the whole array. -/
theorem tabOut_block (A : Vec Ideal S64x128 .f32) (t : Fin cfg0.N) :
    ((cfg0.win 5).blk t).view.read (Elt Ideal) A = A := by
  obtain ⟨e0, e1⟩ := tabOut_index t
  funext j
  show A (((cfg0.win 5).blk t).view.emb j) = A j
  refine congrArg A (funext fun a => Fin.ext ?_)
  match a with
  | ⟨0, _⟩ => show win0_5.index t (0 : Fin 2) * 64 + 1 * (j 0).val = (j 0).val; omega
  | ⟨1, _⟩ => show win0_5.index t (1 : Fin 2) * 128 + 1 * (j 1).val = (j 1).val; omega

/-- The block of the in-degree embedding table at every point is the whole array. -/
theorem tabIn_block (A : Vec Ideal S64x128 .f32) (t : Fin cfg0.N) :
    ((cfg0.win 6).blk t).view.read (Elt Ideal) A = A := by
  obtain ⟨e0, e1⟩ := tabIn_index t
  funext j
  show A (((cfg0.win 6).blk t).view.emb j) = A j
  refine congrArg A (funext fun a => Fin.ext ?_)
  match a with
  | ⟨0, _⟩ => show win0_6.index t (0 : Fin 2) * 64 + 1 * (j 0).val = (j 0).val; omega
  | ⟨1, _⟩ => show win0_6.index t (1 : Fin 2) * 128 + 1 * (j 1).val = (j 1).val; omega

/-- The block of the source projection's weights at every point is the whole array. -/
theorem wSrc_block (A : Vec Ideal S128x128 .f32) (t : Fin cfg0.N) :
    ((cfg0.win 7).blk t).view.read (Elt Ideal) A = A := by
  obtain ⟨e0, e1⟩ := wSrc_index t
  funext j
  show A (((cfg0.win 7).blk t).view.emb j) = A j
  refine congrArg A (funext fun a => Fin.ext ?_)
  match a with
  | ⟨0, _⟩ => show win0_7.index t (0 : Fin 2) * 128 + 1 * (j 0).val = (j 0).val; omega
  | ⟨1, _⟩ => show win0_7.index t (1 : Fin 2) * 128 + 1 * (j 1).val = (j 1).val; omega

/-- The block of the source projection's bias at every point is the whole array. -/
theorem bSrc_block (A : Vec Ideal S128 .f32) (t : Fin cfg0.N) :
    ((cfg0.win 8).blk t).view.read (Elt Ideal) A = A := by
  have e0 := bSrc_index t
  funext j
  show A (((cfg0.win 8).blk t).view.emb j) = A j
  refine congrArg A (funext fun a => Fin.ext ?_)
  match a with
  | ⟨0, _⟩ => show win0_8.index t (0 : Fin 1) * 128 + 1 * (j 0).val = (j 0).val; omega

/-- The block of the destination projection's weights at every point is the whole array. -/
theorem wDst_block (A : Vec Ideal S128x128 .f32) (t : Fin cfg0.N) :
    ((cfg0.win 9).blk t).view.read (Elt Ideal) A = A := by
  obtain ⟨e0, e1⟩ := wDst_index t
  funext j
  show A (((cfg0.win 9).blk t).view.emb j) = A j
  refine congrArg A (funext fun a => Fin.ext ?_)
  match a with
  | ⟨0, _⟩ => show win0_9.index t (0 : Fin 2) * 128 + 1 * (j 0).val = (j 0).val; omega
  | ⟨1, _⟩ => show win0_9.index t (1 : Fin 2) * 128 + 1 * (j 1).val = (j 1).val; omega

/-- The block of the destination projection's bias at every point is the whole array. -/
theorem bDst_block (A : Vec Ideal S128 .f32) (t : Fin cfg0.N) :
    ((cfg0.win 10).blk t).view.read (Elt Ideal) A = A := by
  have e0 := bDst_index t
  funext j
  show A (((cfg0.win 10).blk t).view.emb j) = A j
  refine congrArg A (funext fun a => Fin.ext ?_)
  match a with
  | ⟨0, _⟩ => show win0_10.index t (0 : Fin 1) * 128 + 1 * (j 0).val = (j 0).val; omega

/-- The block of the out-gate's weight column at every point is the whole array. -/
theorem gateWOut_block (A : Vec Ideal S128x1 .f32) (t : Fin cfg0.N) :
    ((cfg0.win 11).blk t).view.read (Elt Ideal) A = A := by
  obtain ⟨e0, e1⟩ := gateWOut_index t
  funext j
  show A (((cfg0.win 11).blk t).view.emb j) = A j
  refine congrArg A (funext fun a => Fin.ext ?_)
  match a with
  | ⟨0, _⟩ => show win0_11.index t (0 : Fin 2) * 128 + 1 * (j 0).val = (j 0).val; omega
  | ⟨1, _⟩ => show win0_11.index t (1 : Fin 2) * 1 + 1 * (j 1).val = (j 1).val; omega

/-- The block of the out-gate's bias at every point is the whole array. -/
theorem gateBOut_block (A : Vec Ideal S1 .f32) (t : Fin cfg0.N) :
    ((cfg0.win 12).blk t).view.read (Elt Ideal) A = A := by
  have e0 := gateBOut_index t
  funext j
  show A (((cfg0.win 12).blk t).view.emb j) = A j
  refine congrArg A (funext fun a => Fin.ext ?_)
  match a with
  | ⟨0, _⟩ => show win0_12.index t (0 : Fin 1) * 1 + 1 * (j 0).val = (j 0).val; omega

/-- The block of the in-gate's weight column at every point is the whole array. -/
theorem gateWIn_block (A : Vec Ideal S128x1 .f32) (t : Fin cfg0.N) :
    ((cfg0.win 13).blk t).view.read (Elt Ideal) A = A := by
  obtain ⟨e0, e1⟩ := gateWIn_index t
  funext j
  show A (((cfg0.win 13).blk t).view.emb j) = A j
  refine congrArg A (funext fun a => Fin.ext ?_)
  match a with
  | ⟨0, _⟩ => show win0_13.index t (0 : Fin 2) * 128 + 1 * (j 0).val = (j 0).val; omega
  | ⟨1, _⟩ => show win0_13.index t (1 : Fin 2) * 1 + 1 * (j 1).val = (j 1).val; omega

/-- The block of the in-gate's bias at every point is the whole array. -/
theorem gateBIn_block (A : Vec Ideal S1 .f32) (t : Fin cfg0.N) :
    ((cfg0.win 14).blk t).view.read (Elt Ideal) A = A := by
  have e0 := gateBIn_index t
  funext j
  show A (((cfg0.win 14).blk t).view.emb j) = A j
  refine congrArg A (funext fun a => Fin.ext ?_)
  match a with
  | ⟨0, _⟩ => show win0_14.index t (0 : Fin 1) * 1 + 1 * (j 0).val = (j 0).val; omega

/-- The block of the self projection's weights at every point is the whole array. -/
theorem wFc_block (A : Vec Ideal S128x128 .f32) (t : Fin cfg0.N) :
    ((cfg0.win 15).blk t).view.read (Elt Ideal) A = A := by
  obtain ⟨e0, e1⟩ := wFc_index t
  funext j
  show A (((cfg0.win 15).blk t).view.emb j) = A j
  refine congrArg A (funext fun a => Fin.ext ?_)
  match a with
  | ⟨0, _⟩ => show win0_15.index t (0 : Fin 2) * 128 + 1 * (j 0).val = (j 0).val; omega
  | ⟨1, _⟩ => show win0_15.index t (1 : Fin 2) * 128 + 1 * (j 1).val = (j 1).val; omega

/-- The block of the self projection's bias at every point is the whole array. -/
theorem bFc_block (A : Vec Ideal S128 .f32) (t : Fin cfg0.N) :
    ((cfg0.win 16).blk t).view.read (Elt Ideal) A = A := by
  have e0 := bFc_index t
  funext j
  show A (((cfg0.win 16).blk t).view.emb j) = A j
  refine congrArg A (funext fun a => Fin.ext ?_)
  match a with
  | ⟨0, _⟩ => show win0_16.index t (0 : Fin 1) * 128 + 1 * (j 0).val = (j 0).val; omega

/-! ## The two output buffers at a grid point, row by row -/

/-- At point `t`, local row `p`, column `q` of the output buffer is the output of node `2000·t + p` at column `q`. -/
theorem outBuf_at (c : Dev nD) (t : Fin cfg0.N) (p : Fin 2000) (r : Fin 50000) (hr : r.val = 2000 * t.val + p.val) (q : Fin 128) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 p q) = nodeOut m c r q :=
  outBuf_of_rows (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (V m c main_arg0) (V m c main_v50) (V m c main_v63) (V m c main_v66) (V m c main_v71) (V m c main_arg19) (V m c main_arg18) (V m c main_v72) (V m c main_arg9) (V m c main_v73) (V m c main_arg11) (V m c main_v75) (V m c main_arg13) (V m c main_v76) (V m c main_arg15) (V m c main_v74) (V m c main_arg17) p r q (feat_block_row (V m c main_arg0) t p r hr) (outSum_block_row (V m c main_v50) t p r hr) (inSum_block_row (V m c main_v63) t p r hr) (deg_block_row (V m c main_v66) t p r hr) (mask_block_row (V m c main_v71) t p r hr) (tabOut_block (V m c main_arg19) t) (tabIn_block (V m c main_arg18) t) (wSrc_block (V m c main_v72) t) (bSrc_block (V m c main_arg9) t) (wDst_block (V m c main_v73) t) (bDst_block (V m c main_arg11) t) (gateWOut_block (V m c main_v75) t) (gateBOut_block (V m c main_arg13) t) (gateWIn_block (V m c main_v76) t) (gateBIn_block (V m c main_arg15) t) (wFc_block (V m c main_v74) t) (bFc_block (V m c main_arg17) t)

/-- At point `t`, local row `p` of the gate buffer holds node `2000·t + p`'s masked out-gate in column 0 -/
theorem gateBuf_zero_at (c : Dev nD) (t : Fin cfg0.N) (p : Fin 2000) (r : Fin 50000) (hr : r.val = 2000 * t.val + p.val) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 p 0) = nodeCOut m c r :=
  gateBuf_zero_of_rows (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (V m c main_arg0) (V m c main_v50) (V m c main_v63) (V m c main_v66) (V m c main_v71) (V m c main_arg19) (V m c main_arg18) (V m c main_v72) (V m c main_arg9) (V m c main_v73) (V m c main_arg11) (V m c main_v75) (V m c main_arg13) (V m c main_v76) (V m c main_arg15) (V m c main_v74) (V m c main_arg17) p r (feat_block_row (V m c main_arg0) t p r hr) (outSum_block_row (V m c main_v50) t p r hr) (inSum_block_row (V m c main_v63) t p r hr) (deg_block_row (V m c main_v66) t p r hr) (mask_block_row (V m c main_v71) t p r hr) (tabOut_block (V m c main_arg19) t) (tabIn_block (V m c main_arg18) t) (wSrc_block (V m c main_v72) t) (bSrc_block (V m c main_arg9) t) (wDst_block (V m c main_v73) t) (bDst_block (V m c main_arg11) t) (gateWOut_block (V m c main_v75) t) (gateBOut_block (V m c main_arg13) t) (gateWIn_block (V m c main_v76) t) (gateBIn_block (V m c main_arg15) t) (wFc_block (V m c main_v74) t) (bFc_block (V m c main_arg17) t)

/-- and its masked in-gate in column 1. -/
theorem gateBuf_one_at (c : Dev nD) (t : Fin cfg0.N) (p : Fin 2000) (r : Fin 50000) (hr : r.val = 2000 * t.val + p.val) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 p 1) = nodeCIn m c r :=
  gateBuf_one_of_rows (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (V m c main_arg0) (V m c main_v50) (V m c main_v63) (V m c main_v66) (V m c main_v71) (V m c main_arg19) (V m c main_arg18) (V m c main_v72) (V m c main_arg9) (V m c main_v73) (V m c main_arg11) (V m c main_v75) (V m c main_arg13) (V m c main_v76) (V m c main_arg15) (V m c main_v74) (V m c main_arg17) p r (feat_block_row (V m c main_arg0) t p r hr) (outSum_block_row (V m c main_v50) t p r hr) (inSum_block_row (V m c main_v63) t p r hr) (deg_block_row (V m c main_v66) t p r hr) (mask_block_row (V m c main_v71) t p r hr) (tabOut_block (V m c main_arg19) t) (tabIn_block (V m c main_arg18) t) (wSrc_block (V m c main_v72) t) (bSrc_block (V m c main_arg9) t) (wDst_block (V m c main_v73) t) (bDst_block (V m c main_arg11) t) (gateWOut_block (V m c main_v75) t) (gateBOut_block (V m c main_arg13) t) (gateWIn_block (V m c main_v76) t) (gateBIn_block (V m c main_arg15) t) (wFc_block (V m c main_v74) t) (bFc_block (V m c main_arg17) t)

/-! ## What each point writes back is its block of one whole-array function -/

/-- If local row `p` of a buffer `X` of the output window is row `2000·t + p` of an array `G`, what point `t` writes back
    of `X` is block `t` of `G`. -/
theorem out_block_of_rows (G : Vec Ideal S50000x128 .f32) (X : Vec Ideal S2000x128 .f32) (t : Fin cfg0.N)
    (h : ∀ (p : Fin 2000) (q : Fin 128) (r : Fin 50000), r.val = 2000 * t.val + p.val → X (ix2 p q) = G (ix2 r q)) :
    (cfg0.win 17).cut (grid0.coords t) X = ((cfg0.win 17).blk t).view.read (Elt Ideal) G := by
  obtain ⟨e0, e1⟩ := out_index t
  funext j
  show X j = G (((cfg0.win 17).blk t).view.emb j)
  refine (congrArg X (@eq_ix2 2000 128 j)).trans ?_
  refine (h (j 0) (j 1) ((((cfg0.win 17).blk t).view.emb j) 0) ?_).trans ?_
  · show win0_17.index t (0 : Fin 2) * 2000 + 1 * (j 0).val = 2000 * t.val + (j 0).val; omega
  · refine congrArg G (funext fun a => Fin.ext ?_)
    match a with
    | ⟨0, _⟩ => rfl
    | ⟨1, _⟩ => show (j 1).val = win0_17.index t (1 : Fin 2) * 128 + 1 * (j 1).val; omega

/-- The same for the gate window. -/
theorem gates_block_of_rows (G : Vec Ideal S50000x2 .f32) (X : Vec Ideal S2000x2 .f32) (t : Fin cfg0.N)
    (h : ∀ (p : Fin 2000) (q : Fin 2) (r : Fin 50000), r.val = 2000 * t.val + p.val → X (ix2 p q) = G (ix2 r q)) :
    (cfg0.win 18).cut (grid0.coords t) X = ((cfg0.win 18).blk t).view.read (Elt Ideal) G := by
  obtain ⟨e0, e1⟩ := gates_index t
  funext j
  show X j = G (((cfg0.win 18).blk t).view.emb j)
  refine (congrArg X (@eq_ix2 2000 2 j)).trans ?_
  refine (h (j 0) (j 1) ((((cfg0.win 18).blk t).view.emb j) 0) ?_).trans ?_
  · show win0_18.index t (0 : Fin 2) * 2000 + 1 * (j 0).val = 2000 * t.val + (j 0).val; omega
  · refine congrArg G (funext fun a => Fin.ext ?_)
    match a with
    | ⟨0, _⟩ => rfl
    | ⟨1, _⟩ => show (j 1).val = win0_18.index t (1 : Fin 2) * 2 + 1 * (j 1).val; omega

/-- Row `p` of the gate buffer at point `t`, either column: the out-gate in column 0, the in-gate in column 1. -/
theorem gateBuf_at (c : Dev nD) (t : Fin cfg0.N) (p : Fin 2000) (r : Fin 50000) (hr : r.val = 2000 * t.val + p.val) (q : Fin 2) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 p q) = if q.val = 0 then nodeCOut m c r else nodeCIn m c r := by
  match q with
  | ⟨0, _⟩ => exact (gateBuf_zero_at m c t p r hr).trans (if_pos rfl).symm
  | ⟨1, _⟩ => exact (gateBuf_one_at m c t p r hr).trans (if_neg Nat.one_ne_zero).symm

/-- What point `t` writes back to the output array is block `t` of the nodes' outputs. -/
theorem flushed_out (c : Dev nD) (t : Fin cfg0.N) :
    (dats m 0 c).flushed 17 t = ((cfg0.win 17).blk t).view.read (Elt Ideal) (fun i => nodeOut m c (i 0) (i 1)) :=
  (congrArg ((cfg0.win 17).cut (grid0.coords t)) (after0_17 m c t)).trans
    (out_block_of_rows (fun i => nodeOut m c (i 0) (i 1)) (out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) t
      (fun p q r hr => outBuf_at m c t p r hr q))

/-- What point `t` writes back to the gate pack is block `t` of the nodes' two masked gates, the out-gate in column 0. -/
theorem flushed_gates (c : Dev nD) (t : Fin cfg0.N) :
    (dats m 0 c).flushed 18 t = ((cfg0.win 18).blk t).view.read (Elt Ideal) (fun i => if (i 1).val = 0 then nodeCOut m c (i 0) else nodeCIn m c (i 0)) :=
  (congrArg ((cfg0.win 18).cut (grid0.coords t)) (after0_18 m c t)).trans
    (gates_block_of_rows (fun i => if (i 1).val = 0 then nodeCOut m c (i 0) else nodeCIn m c (i 0)) (out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) t
      (fun p q r hr => gateBuf_at m c t p r hr q))

/-! ## The blocks tile the rows -/

/-- An index of the output array is in point `t`'s block iff each coordinate is in the block's range on its axis. -/
theorem mem_block_out (t : Fin cfg0.N) (i : S50000x128.Idx) :
    i ∈ ((cfg0.win 17).blk t).view.set ↔ ∀ a : Fin 2, win0_17.index t a * S2000x128.size a ≤ (i a).val ∧ (i a).val < win0_17.index t a * S2000x128.size a + S2000x128.size a := by
  show i ∈ ((View.whole main_v77_0).slice (win0_17.rect t)).set ↔ _
  rw [View.set_slice_whole, Rect.mem_set_unit]
  exact Iff.rfl

/-- The same for the gate pack. -/
theorem mem_block_gates (t : Fin cfg0.N) (i : S50000x2.Idx) :
    i ∈ ((cfg0.win 18).blk t).view.set ↔ ∀ a : Fin 2, win0_18.index t a * S2000x2.size a ≤ (i a).val ∧ (i a).val < win0_18.index t a * S2000x2.size a + S2000x2.size a := by
  show i ∈ ((View.whole main_v77_1).slice (win0_18.rect t)).set ↔ _
  rw [View.set_slice_whole, Rect.mem_set_unit]
  exact Iff.rfl

/-- The point whose block holds row `r` is `r / 2000`. -/
theorem point_of_row (r : Nat) (hr : r < 50000) : ∃ t : Fin cfg0.N, t.val = r / 2000 :=
  ⟨⟨r / 2000, Nat.lt_of_lt_of_eq (by omega : r / 2000 < 25) N_0.symm⟩, rfl⟩

/-- Every index of the output array is in the block of the point that holds its row. -/
theorem cover_out (i : S50000x128.Idx) : ∃ t : Fin cfg0.N, (cfg0.win 17).flush t = true ∧ i ∈ ((cfg0.win 17).blk t).view.set := by
  have hi0 : (i 0).val < 50000 := (i 0).isLt
  have hi1 : (i 1).val < 128 := (i 1).isLt
  obtain ⟨t, ht⟩ := point_of_row (i 0).val hi0
  obtain ⟨e0, e1⟩ := out_index t
  refine ⟨t, flush0_17 t, ?_⟩
  rw [mem_block_out]
  intro a
  match a with
  | ⟨0, _⟩ => show win0_17.index t (0 : Fin 2) * 2000 ≤ (i 0).val ∧ (i 0).val < win0_17.index t (0 : Fin 2) * 2000 + 2000; omega
  | ⟨1, _⟩ => show win0_17.index t (1 : Fin 2) * 128 ≤ (i 1).val ∧ (i 1).val < win0_17.index t (1 : Fin 2) * 128 + 128; omega

/-- Every index of the gate pack is in the block of the point that holds its row. -/
theorem cover_gates (i : S50000x2.Idx) : ∃ t : Fin cfg0.N, (cfg0.win 18).flush t = true ∧ i ∈ ((cfg0.win 18).blk t).view.set := by
  have hi0 : (i 0).val < 50000 := (i 0).isLt
  have hi1 : (i 1).val < 2 := (i 1).isLt
  obtain ⟨t, ht⟩ := point_of_row (i 0).val hi0
  obtain ⟨e0, e1⟩ := gates_index t
  refine ⟨t, flush0_18 t, ?_⟩
  rw [mem_block_gates]
  intro a
  match a with
  | ⟨0, _⟩ => show win0_18.index t (0 : Fin 2) * 2000 ≤ (i 0).val ∧ (i 0).val < win0_18.index t (0 : Fin 2) * 2000 + 2000; omega
  | ⟨1, _⟩ => show win0_18.index t (1 : Fin 2) * 2 ≤ (i 1).val ∧ (i 1).val < win0_18.index t (1 : Fin 2) * 2 + 2; omega

/-! ## The two arrays after the last write-back -/

/-- The output array after the last write-back: the nodes' outputs. -/
theorem final17 (c : Dev nD) : (dats m 0 c).arrAt 17 cfg0.N = fun i => nodeOut m c (i 0) (i 1) :=
  (dats m 0 c).arrAt_eq_of_cover 17 (fun i => nodeOut m c (i 0) (i 1)) (fun t _ => flushed_out m c t) cover_out

/-- The gate pack after the last write-back: the out-gates in column 0, the in-gates in column 1. -/
theorem final18 (c : Dev nD) : (dats m 0 c).arrAt 18 cfg0.N = fun i => if (i 1).val = 0 then nodeCOut m c (i 0) else nodeCIn m c (i 0) :=
  (dats m 0 c).arrAt_eq_of_cover 18 (fun i => if (i 1).val = 0 then nodeCOut m c (i 0) else nodeCIn m c (i 0)) (fun t _ => flushed_gates m c t) cover_gates

/-! ## The run: the output array, and the two columns of the gate pack cut out after the region -/

/-- The first slice after the region, over any buffer contents: column 0 of the gate pack. -/
theorem outGates_slice (W : Valuation τ sig (Elt Ideal)) :
    StableHlo.after (hostOps1 (F := Ideal)) W (Proc.devRef .tc main_v78)
      = extractStridedSlice S50000x1 ![0, 0] (W (Proc.devRef .tc main_v77_1)) slices_S50000x2_S50000x1_0_0 := by
  after_results

/-- The second slice after the region, over any buffer contents: column 1 of the gate pack. -/
theorem inGates_slice (W : Valuation τ sig (Elt Ideal)) :
    StableHlo.after (hostOps1 (F := Ideal)) W (Proc.devRef .tc main_v79)
      = extractStridedSlice S50000x1 ![0, 1] (W (Proc.devRef .tc main_v77_1)) slices_S50000x2_S50000x1_0_1 := by
  after_results

/-- Column 0 of a pack whose column 0 is `a` and whose column 1 is `b` is `a`, -/
theorem pack_col_zero (a b : Fin 50000 → EReal) :
    extractStridedSlice S50000x1 ![0, 0] (fun i : S50000x2.Idx => if (i 1).val = 0 then a (i 0) else b (i 0)) slices_S50000x2_S50000x1_0_0
      = fun i => a (i 0) := by
  funext i
  refine (congrArg _ (@eq_ix2 50000 1 i)).trans ?_
  refine (slice2_axis1_eq 0 _ slices_S50000x2_S50000x1_0_0 (i 0) (i 1)).trans ?_
  have hi : (i 1).val < 1 := (i 1).isLt
  exact if_pos (by show 0 + (i 1).val = 0; omega)

/-- and column 1 is `b`. -/
theorem pack_col_one (a b : Fin 50000 → EReal) :
    extractStridedSlice S50000x1 ![0, 1] (fun i : S50000x2.Idx => if (i 1).val = 0 then a (i 0) else b (i 0)) slices_S50000x2_S50000x1_0_1
      = fun i => b (i 0) := by
  funext i
  refine (congrArg _ (@eq_ix2 50000 1 i)).trans ?_
  refine (slice2_axis1_eq 1 _ slices_S50000x2_S50000x1_0_1 (i 0) (i 1)).trans ?_
  exact if_neg (by show ¬ (1 + (i 1).val = 0); omega)

/-- The gate pack among the buffers the region leaves is its array after the last write-back. -/
theorem pack_after_region (c : Dev nD) :
    Pipeline.withArrays spec0 c (V0 m c) (fun w => (dats m 0 c).arrAt w cfg0.N) (Proc.devRef .tc main_v77_1)
      = fun i => if (i 1).val = 0 then nodeCOut m c (i 0) else nodeCIn m c (i 0) :=
  (Pipeline.withArrays_arr spec0 launch0.win.arr_inj c (V0 m c) (fun w => (dats m 0 c).arrAt w cfg0.N) 18).trans (final18 m c)

/-- In any final state the frame run allows, the output array holds the nodes' outputs, and the two slices of the gate
    pack hold the in-gates (column 1) and the out-gates (column 0). -/
theorem results_of_post (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v77_0) = (fun i => nodeOut m c (i 0) (i 1))
      ∧ r.2.mem ((c.tc : Thread nD τ).loc main_v79) = (fun i => nodeCIn m c (i 0))
      ∧ r.2.mem ((c.tc : Thread nD τ).loc main_v78) = (fun i => nodeCOut m c (i 0)) :=
  ⟨((h c).1 17).trans (final17 m c),
    ((h c).2 main_v79 (Pipeline.mem_restRefs_of main_v79 (by decide) (by decide))).trans
      ((inGates_slice (Pipeline.withArrays spec0 c (V0 m c) (fun w => (dats m 0 c).arrAt w cfg0.N))).trans
        ((congrArg (fun X => extractStridedSlice S50000x1 ![0, 1] X slices_S50000x2_S50000x1_0_1) (pack_after_region m c)).trans
          (pack_col_one (nodeCOut m c) (nodeCIn m c)))),
    ((h c).2 main_v78 (Pipeline.mem_restRefs_of main_v78 (by decide) (by decide))).trans
      ((outGates_slice (Pipeline.withArrays spec0 c (V0 m c) (fun w => (dats m 0 c).arrAt w cfg0.N))).trans
        ((congrArg (fun X => extractStridedSlice S50000x1 ![0, 0] X slices_S50000x2_S50000x1_0_0) (pack_after_region m c)).trans
          (pack_col_zero (nodeCOut m c) (nodeCIn m c))))⟩

/-- The run of the kernel program: it terminates, and its three results are the nodes' outputs, in-gates and out-gates. -/
theorem kernel_run : θ_run defs (onTc (τ := τ) (main (F := Ideal))) ⟨m, fun _ => 0, ρ⟩ fun r => ∀ c : Dev nD,
      r.2.mem ((c.tc : Thread nD τ).loc main_v77_0) = (fun i => nodeOut m c (i 0) (i 1))
      ∧ r.2.mem ((c.tc : Thread nD τ).loc main_v79) = (fun i => nodeCIn m c (i 0))
      ∧ r.2.mem ((c.tc : Thread nD τ).loc main_v78) = (fun i => nodeCOut m c (i 0)) :=
  (θ_run defs _ _).mono (fun r h c => results_of_post m r h c) (run_main m ρ)

end Cert.KernelIdeal.KV

end
-- ==== Proof.KHost.lean ====
/- What the kernel program's host operations put in the arrays its one region reads, at the idealized program.
   Write x = argument 0 (the node features, [50000,128]) and e = argument 1 (the two index rows, [2,800000]).
   The hundred host operations before the region fall into eight runs, each reading only arguments and results of
   earlier runs:
     1. the two index rows src = e[0], dst = e[1] as vectors, the two degree counts (ones added up at src, at dst), and
        for the first count its mask (count > 0) and the inverse root of max(count, tiny);
     2. the first inverse root, zero where the count is zero;
     3. the same mask and inverse root for the second count;   4. the second inverse root, zero where its count is zero;
     5. the edge weights w = (first inverse root gathered at src) * (second inverse root gathered at dst), the index
        rows wrapped into range first (a negative index has 50000 added);
     6. the first neighbour aggregation: the rows of x gathered at dst, each times its edge's weight, added up at src;
     7. the second neighbour aggregation: the rows of x gathered at src, each times its edge's weight, added up at dst;
     8. the packs and transposes of the other arguments.
   The reference program applies the same operations, statement for statement, to x and e; so the two aggregations
   are the reference's own terms `val_main_v50 x e` and `val_main_v63 x e` (V_v50, V_v63), at any float instance: run by
   run, the contents a run leaves are the reference's terms for them once the contents it reads are.
   The arrays of run 8, read at an index (any float instance):
     the degree pack [50000,2]: column 0 is argument 3 (the out-degree), column 1 argument 2 (the in-degree);
     the mask pack [50000,4]: columns 0, 1, 2, 3 are arguments 4, 5, 6, 7;
     the three square weights transposed: entry (k, q) is entry (q, k) of argument 8, 10, 16;
     the two gate weight rows [1,128] transposed to columns [128,1]: entry (k, 0) is entry (0, k) of argument 12, 14. -/
import proofs.«402007_j15350213116045_2_alg».proof.Proof.KernelIdeal.FrameHost
import Idealize.ShloMosaic.Lib.StableHlo.Run
import Idealize.ShloMosaic.Lib.Pipeline.Value
import Idealize.ShloMosaic.Lib.ValueIdx
import Idealize.ShloMosaic.Lib.ValueLayout
import proofs.«402007_j15350213116045_2_alg».proof.Proof.RefRead
set_option maxRecDepth 16384

noncomputable section

namespace Cert.KernelIdeal.KHost

open Cert.KernelIdeal Cert.KernelIdeal.Gen Cert.KernelIdeal.Fr Idealize.ShloMosaic Idealize.ShloMosaic.TcCoe Idealize.SL.Sem Idealize.ShloMosaic.ValueIdx
open Idealize.ShloMosaic.StableHlo

variable {F : FTy → Type} [FloatOps F] (m : (ℓ : Loc nD τ sig) → Buf (Elt F) ℓ) (c : Dev nD)

open Cert.ReferenceIdeal.ReadP

/-! ## The host operations before the region, in eight runs -/

/-- The references `hostOps0` writes. -/
abbrev hostOps0_W : List (Ref sig .tc) := [main_v0, main_v1, main_v2, main_v3, main_cst, main_v4, main_cst_0, main_v5, main_v6, main_v7, main_cst_1, main_v8, main_v9, main_v10, main_cst_2, main_v11, main_v12, main_cst_3, main_v13, main_v14, main_v15, main_cst_4]
theorem hostOps0_writes : (hostOps0 : List (HloOp τ sig (Elt F))).Forall fun op => op.writes ⊆ (hostOps0_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

/-- The references `hostOps0_1` writes. -/
abbrev hostOps0_1_W : List (Ref sig .tc) := [main_call0_v0, main_call0_v1, main_v16]
theorem hostOps0_1_writes : (hostOps0_1 : List (HloOp τ sig (Elt F))).Forall fun op => op.writes ⊆ (hostOps0_1_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

/-- The references `hostOps0_2` writes. -/
abbrev hostOps0_2_W : List (Ref sig .tc) := [main_cst_5, main_v17, main_v18, main_cst_6, main_v19, main_v20, main_v21, main_cst_7]
theorem hostOps0_2_writes : (hostOps0_2 : List (HloOp τ sig (Elt F))).Forall fun op => op.writes ⊆ (hostOps0_2_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

/-- The references `hostOps0_3` writes. -/
abbrev hostOps0_3_W : List (Ref sig .tc) := [main_call1_v0, main_call1_v1, main_v22]
theorem hostOps0_3_writes : (hostOps0_3 : List (HloOp τ sig (Elt F))).Forall fun op => op.writes ⊆ (hostOps0_3_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

/-- The first nineteen operations of the last stretch: the two gathers of the inverse roots and the edge weights. -/
abbrev weightOps : List (HloOp τ sig (Elt F)) :=
  [ StableHlo.nullary main_c (constantI S_ 32 0#32),
    StableHlo.unary main_c main_v23 (broadcastInDim S800000 ![] bcast_S_S800000 : (⟨S_, .i32⟩ : BufTy).Contents (Elt F) → (⟨S800000, .i32⟩ : BufTy).Contents (Elt F)),
    StableHlo.binary main_v1 main_v23 main_v24 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32),
    StableHlo.unary main_c_8 main_v25 (broadcastInDim S800000 ![] bcast_S_S800000 : (⟨S_, .i32⟩ : BufTy).Contents (Elt F) → (⟨S800000, .i32⟩ : BufTy).Contents (Elt F)),
    StableHlo.binary main_v1 main_v25 main_v26 (addi : (⟨S800000, .i32⟩ : BufTy).Contents (Elt F) → (⟨S800000, .i32⟩ : BufTy).Contents (Elt F) → (⟨S800000, .i32⟩ : BufTy).Contents (Elt F)),
    StableHlo.ternary main_v24 main_v26 main_v1 main_v27 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v27 main_v28 (broadcastInDim S800000x1 ![0] bcast_S800000_S800000x1_0 : (⟨S800000, .i32⟩ : BufTy).Contents (Elt F) → (⟨S800000x1, .i32⟩ : BufTy).Contents (Elt F)),
    StableHlo.binary main_v16 main_v28 main_v29 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_9 (constantI S_ 32 0#32),
    StableHlo.unary main_c_9 main_v30 (broadcastInDim S800000 ![] bcast_S_S800000 : (⟨S_, .i32⟩ : BufTy).Contents (Elt F) → (⟨S800000, .i32⟩ : BufTy).Contents (Elt F)),
    StableHlo.binary main_v3 main_v30 main_v31 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v32 (broadcastInDim S800000 ![] bcast_S_S800000 : (⟨S_, .i32⟩ : BufTy).Contents (Elt F) → (⟨S800000, .i32⟩ : BufTy).Contents (Elt F)),
    StableHlo.binary main_v3 main_v32 main_v33 (addi : (⟨S800000, .i32⟩ : BufTy).Contents (Elt F) → (⟨S800000, .i32⟩ : BufTy).Contents (Elt F) → (⟨S800000, .i32⟩ : BufTy).Contents (Elt F)),
    StableHlo.ternary main_v31 main_v33 main_v3 main_v34 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v34 main_v35 (broadcastInDim S800000x1 ![0] bcast_S800000_S800000x1_0 : (⟨S800000, .i32⟩ : BufTy).Contents (Elt F) → (⟨S800000x1, .i32⟩ : BufTy).Contents (Elt F)),
    StableHlo.binary main_v22 main_v35 main_v36 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v29 main_v36 main_v37 (mulf : (⟨S800000, .f32⟩ : BufTy).Contents (Elt F) → (⟨S800000, .f32⟩ : BufTy).Contents (Elt F) → (⟨S800000, .f32⟩ : BufTy).Contents (Elt F)) ]
/-- The references they write. -/
abbrev weightOps_W : List (Ref sig .tc) := [main_c, main_v23, main_v24, main_c_8, main_v25, main_v26, main_v27, main_v28, main_v29, main_c_9, main_v30, main_v31, main_c_10, main_v32, main_v33, main_v34, main_v35, main_v36, main_v37]
theorem weightOps_writes : (weightOps : List (HloOp τ sig (Elt F))).Forall fun op => op.writes ⊆ (weightOps_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

/-- The next sixteen: the weighted rows gathered at the second index row and added up at the first. -/
abbrev outOps : List (HloOp τ sig (Elt F)) :=
  [ StableHlo.unary main_v37 main_v38 (broadcastInDim S800000x1 ![0] bcast_S800000_S800000x1_0 : (⟨S800000, .f32⟩ : BufTy).Contents (Elt F) → (⟨S800000x1, .f32⟩ : BufTy).Contents (Elt F)),
    StableHlo.nullary main_c_11 (constantI S_ 32 0#32),
    StableHlo.unary main_c_11 main_v39 (broadcastInDim S800000 ![] bcast_S_S800000 : (⟨S_, .i32⟩ : BufTy).Contents (Elt F) → (⟨S800000, .i32⟩ : BufTy).Contents (Elt F)),
    StableHlo.binary main_v3 main_v39 main_v40 (cmpi .slt : (⟨S800000, .i32⟩ : BufTy).Contents (Elt F) → (⟨S800000, .i32⟩ : BufTy).Contents (Elt F) → (⟨S800000, .i1⟩ : BufTy).Contents (Elt F)),
    StableHlo.nullary main_c_12 (constantI S_ 32 50000#32),
    StableHlo.unary main_c_12 main_v41 (broadcastInDim S800000 ![] bcast_S_S800000 : (⟨S_, .i32⟩ : BufTy).Contents (Elt F) → (⟨S800000, .i32⟩ : BufTy).Contents (Elt F)),
    StableHlo.binary main_v3 main_v41 main_v42 (addi : (⟨S800000, .i32⟩ : BufTy).Contents (Elt F) → (⟨S800000, .i32⟩ : BufTy).Contents (Elt F) → (⟨S800000, .i32⟩ : BufTy).Contents (Elt F)),
    StableHlo.ternary main_v40 main_v42 main_v3 main_v43 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v43 main_v44 (broadcastInDim S800000x1 ![0] bcast_S800000_S800000x1_0 : (⟨S800000, .i32⟩ : BufTy).Contents (Elt F) → (⟨S800000x1, .i32⟩ : BufTy).Contents (Elt F)),
    StableHlo.binary main_arg0 main_v44 main_v45 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v38 main_v46 (broadcastInDim S800000x128 ![0, 1] bcast_S800000x1_S800000x128_0_1 : (⟨S800000x1, .f32⟩ : BufTy).Contents (Elt F) → (⟨S800000x128, .f32⟩ : BufTy).Contents (Elt F)),
    StableHlo.binary main_v46 main_v45 main_v47 (mulf : (⟨S800000x128, .f32⟩ : BufTy).Contents (Elt F) → (⟨S800000x128, .f32⟩ : BufTy).Contents (Elt F) → (⟨S800000x128, .f32⟩ : BufTy).Contents (Elt F)),
    StableHlo.nullary main_cst_13 (constant S_ .f32 0x00000000#32),
    StableHlo.unary main_cst_13 main_v48 (broadcastInDim S50000x128 ![] bcast_S_S50000x128 : (⟨S_, .f32⟩ : BufTy).Contents (Elt F) → (⟨S50000x128, .f32⟩ : BufTy).Contents (Elt F)),
    StableHlo.unary main_v1 main_v49 (broadcastInDim S800000x1 ![0] bcast_S800000_S800000x1_0 : (⟨S800000, .i32⟩ : BufTy).Contents (Elt F) → (⟨S800000x1, .i32⟩ : BufTy).Contents (Elt F)),
    StableHlo.ternary main_v48 main_v49 main_v47 main_v50 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]
/-- The references they write. -/
abbrev outOps_W : List (Ref sig .tc) := [main_v38, main_c_11, main_v39, main_v40, main_c_12, main_v41, main_v42, main_v43, main_v44, main_v45, main_v46, main_v47, main_cst_13, main_v48, main_v49, main_v50]
theorem outOps_writes : (outOps : List (HloOp τ sig (Elt F))).Forall fun op => op.writes ⊆ (outOps_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

/-- The next sixteen: the weighted rows gathered at the first index row and added up at the second. -/
abbrev inOps : List (HloOp τ sig (Elt F)) :=
  [ StableHlo.unary main_v37 main_v51 (broadcastInDim S800000x1 ![0] bcast_S800000_S800000x1_0 : (⟨S800000, .f32⟩ : BufTy).Contents (Elt F) → (⟨S800000x1, .f32⟩ : BufTy).Contents (Elt F)),
    StableHlo.nullary main_c_14 (constantI S_ 32 0#32),
    StableHlo.unary main_c_14 main_v52 (broadcastInDim S800000 ![] bcast_S_S800000 : (⟨S_, .i32⟩ : BufTy).Contents (Elt F) → (⟨S800000, .i32⟩ : BufTy).Contents (Elt F)),
    StableHlo.binary main_v1 main_v52 main_v53 (cmpi .slt : (⟨S800000, .i32⟩ : BufTy).Contents (Elt F) → (⟨S800000, .i32⟩ : BufTy).Contents (Elt F) → (⟨S800000, .i1⟩ : BufTy).Contents (Elt F)),
    StableHlo.nullary main_c_15 (constantI S_ 32 50000#32),
    StableHlo.unary main_c_15 main_v54 (broadcastInDim S800000 ![] bcast_S_S800000 : (⟨S_, .i32⟩ : BufTy).Contents (Elt F) → (⟨S800000, .i32⟩ : BufTy).Contents (Elt F)),
    StableHlo.binary main_v1 main_v54 main_v55 (addi : (⟨S800000, .i32⟩ : BufTy).Contents (Elt F) → (⟨S800000, .i32⟩ : BufTy).Contents (Elt F) → (⟨S800000, .i32⟩ : BufTy).Contents (Elt F)),
    StableHlo.ternary main_v53 main_v55 main_v1 main_v56 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v56 main_v57 (broadcastInDim S800000x1 ![0] bcast_S800000_S800000x1_0 : (⟨S800000, .i32⟩ : BufTy).Contents (Elt F) → (⟨S800000x1, .i32⟩ : BufTy).Contents (Elt F)),
    StableHlo.binary main_arg0 main_v57 main_v58 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v51 main_v59 (broadcastInDim S800000x128 ![0, 1] bcast_S800000x1_S800000x128_0_1 : (⟨S800000x1, .f32⟩ : BufTy).Contents (Elt F) → (⟨S800000x128, .f32⟩ : BufTy).Contents (Elt F)),
    StableHlo.binary main_v59 main_v58 main_v60 (mulf : (⟨S800000x128, .f32⟩ : BufTy).Contents (Elt F) → (⟨S800000x128, .f32⟩ : BufTy).Contents (Elt F) → (⟨S800000x128, .f32⟩ : BufTy).Contents (Elt F)),
    StableHlo.nullary main_cst_16 (constant S_ .f32 0x00000000#32),
    StableHlo.unary main_cst_16 main_v61 (broadcastInDim S50000x128 ![] bcast_S_S50000x128 : (⟨S_, .f32⟩ : BufTy).Contents (Elt F) → (⟨S50000x128, .f32⟩ : BufTy).Contents (Elt F)),
    StableHlo.unary main_v3 main_v62 (broadcastInDim S800000x1 ![0] bcast_S800000_S800000x1_0 : (⟨S800000, .i32⟩ : BufTy).Contents (Elt F) → (⟨S800000x1, .i32⟩ : BufTy).Contents (Elt F)),
    StableHlo.ternary main_v61 main_v62 main_v60 main_v63 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]
/-- The references they write. -/
abbrev inOps_W : List (Ref sig .tc) := [main_v51, main_c_14, main_v52, main_v53, main_c_15, main_v54, main_v55, main_v56, main_v57, main_v58, main_v59, main_v60, main_cst_16, main_v61, main_v62, main_v63]
theorem inOps_writes : (inOps : List (HloOp τ sig (Elt F))).Forall fun op => op.writes ⊆ (inOps_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

/-- The last thirteen: the packs and the transposes of the arguments. -/
abbrev packOps : List (HloOp τ sig (Elt F)) :=
  [ StableHlo.unary main_arg3 main_v64 (broadcastInDim S50000x1 ![0] bcast_S50000_S50000x1_0 : (⟨S50000, .i32⟩ : BufTy).Contents (Elt F) → (⟨S50000x1, .i32⟩ : BufTy).Contents (Elt F)),
    StableHlo.unary main_arg2 main_v65 (broadcastInDim S50000x1 ![0] bcast_S50000_S50000x1_0 : (⟨S50000, .i32⟩ : BufTy).Contents (Elt F) → (⟨S50000x1, .i32⟩ : BufTy).Contents (Elt F)),
    StableHlo.binary main_v64 main_v65 main_v66 ((fun a b => concatenate S50000x2 1 [⟨S50000x1, a⟩, ⟨S50000x1, b⟩] concatenates_S50000x1_S50000x1_S50000x2_d1) : (⟨S50000x1, .i32⟩ : BufTy).Contents (Elt F) → (⟨S50000x1, .i32⟩ : BufTy).Contents (Elt F) → (⟨S50000x2, .i32⟩ : BufTy).Contents (Elt F)),
    StableHlo.unary main_arg4 main_v67 (broadcastInDim S50000x1 ![0] bcast_S50000_S50000x1_0 : (⟨S50000, .f32⟩ : BufTy).Contents (Elt F) → (⟨S50000x1, .f32⟩ : BufTy).Contents (Elt F)),
    StableHlo.unary main_arg5 main_v68 (broadcastInDim S50000x1 ![0] bcast_S50000_S50000x1_0 : (⟨S50000, .f32⟩ : BufTy).Contents (Elt F) → (⟨S50000x1, .f32⟩ : BufTy).Contents (Elt F)),
    StableHlo.unary main_arg6 main_v69 (broadcastInDim S50000x1 ![0] bcast_S50000_S50000x1_0 : (⟨S50000, .f32⟩ : BufTy).Contents (Elt F) → (⟨S50000x1, .f32⟩ : BufTy).Contents (Elt F)),
    StableHlo.unary main_arg7 main_v70 (broadcastInDim S50000x1 ![0] bcast_S50000_S50000x1_0 : (⟨S50000, .f32⟩ : BufTy).Contents (Elt F) → (⟨S50000x1, .f32⟩ : BufTy).Contents (Elt F)),
    StableHlo.nary ![main_v67, main_v68, main_v69, main_v70] main_v71 (fun u => concatenate S50000x4 1 [⟨S50000x1, u 0⟩, ⟨S50000x1, u 1⟩, ⟨S50000x1, u 2⟩, ⟨S50000x1, u 3⟩] concatenates_S50000x1_S50000x1_S50000x1_S50000x1_S50000x4_d1),
    StableHlo.unary main_arg8 main_v72 ((transpose S128x128 [1, 0] · transposes_S128x128_S128x128_1_0) : (⟨S128x128, .f32⟩ : BufTy).Contents (Elt F) → (⟨S128x128, .f32⟩ : BufTy).Contents (Elt F)),
    StableHlo.unary main_arg10 main_v73 ((transpose S128x128 [1, 0] · transposes_S128x128_S128x128_1_0) : (⟨S128x128, .f32⟩ : BufTy).Contents (Elt F) → (⟨S128x128, .f32⟩ : BufTy).Contents (Elt F)),
    StableHlo.unary main_arg16 main_v74 ((transpose S128x128 [1, 0] · transposes_S128x128_S128x128_1_0) : (⟨S128x128, .f32⟩ : BufTy).Contents (Elt F) → (⟨S128x128, .f32⟩ : BufTy).Contents (Elt F)),
    StableHlo.unary main_arg12 main_v75 ((transpose S128x1 [1, 0] · transposes_S1x128_S128x1_1_0) : (⟨S1x128, .f32⟩ : BufTy).Contents (Elt F) → (⟨S128x1, .f32⟩ : BufTy).Contents (Elt F)),
    StableHlo.unary main_arg14 main_v76 ((transpose S128x1 [1, 0] · transposes_S1x128_S128x1_1_0) : (⟨S1x128, .f32⟩ : BufTy).Contents (Elt F) → (⟨S128x1, .f32⟩ : BufTy).Contents (Elt F)) ]
/-- The references they write. -/
abbrev packOps_W : List (Ref sig .tc) := [main_v64, main_v65, main_v66, main_v67, main_v68, main_v69, main_v70, main_v71, main_v72, main_v73, main_v74, main_v75, main_v76]
theorem packOps_writes : (packOps : List (HloOp τ sig (Elt F))).Forall fun op => op.writes ⊆ (packOps_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)), (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

/-! ## Each run over any contents before it

Each lemma reads one result of a run off the contents `W` the run starts from: the composed term of the run's
operations is the reference's term for that value, given that `W` holds the reference's terms for the values the run
reads. -/

section Runs
variable (W : Valuation τ sig (Elt F))

/-- A reference a run does not write keeps its contents. -/
theorem hostOps0_of (r : Ref sig .tc) (h : r ∉ (hostOps0_W : List (Ref sig .tc))) : after hostOps0 W (Proc.devRef .tc r) = W (Proc.devRef .tc r) :=
  StableHlo.after_of_writes_sub hostOps0 W hostOps0_writes h
theorem hostOps0_1_of (r : Ref sig .tc) (h : r ∉ (hostOps0_1_W : List (Ref sig .tc))) : after hostOps0_1 W (Proc.devRef .tc r) = W (Proc.devRef .tc r) :=
  StableHlo.after_of_writes_sub hostOps0_1 W hostOps0_1_writes h
theorem hostOps0_2_of (r : Ref sig .tc) (h : r ∉ (hostOps0_2_W : List (Ref sig .tc))) : after hostOps0_2 W (Proc.devRef .tc r) = W (Proc.devRef .tc r) :=
  StableHlo.after_of_writes_sub hostOps0_2 W hostOps0_2_writes h
theorem hostOps0_3_of (r : Ref sig .tc) (h : r ∉ (hostOps0_3_W : List (Ref sig .tc))) : after hostOps0_3 W (Proc.devRef .tc r) = W (Proc.devRef .tc r) :=
  StableHlo.after_of_writes_sub hostOps0_3 W hostOps0_3_writes h
theorem weightOps_of (r : Ref sig .tc) (h : r ∉ (weightOps_W : List (Ref sig .tc))) : after weightOps W (Proc.devRef .tc r) = W (Proc.devRef .tc r) :=
  StableHlo.after_of_writes_sub weightOps W weightOps_writes h
theorem outOps_of (r : Ref sig .tc) (h : r ∉ (outOps_W : List (Ref sig .tc))) : after outOps W (Proc.devRef .tc r) = W (Proc.devRef .tc r) :=
  StableHlo.after_of_writes_sub outOps W outOps_writes h
theorem inOps_of (r : Ref sig .tc) (h : r ∉ (inOps_W : List (Ref sig .tc))) : after inOps W (Proc.devRef .tc r) = W (Proc.devRef .tc r) :=
  StableHlo.after_of_writes_sub inOps W inOps_writes h
theorem packOps_of (r : Ref sig .tc) (h : r ∉ (packOps_W : List (Ref sig .tc))) : after packOps W (Proc.devRef .tc r) = W (Proc.devRef .tc r) :=
  StableHlo.after_of_writes_sub packOps W packOps_writes h

/-- The first run: the two index rows, the two degree counts, the first inverse root and its mask. -/
theorem A_v1 : after hostOps0 W (Proc.devRef .tc main_v1) = val_main_v1 (F := F) (W (Proc.devRef .tc main_arg1)) := by
  after_results_simp
  rfl
theorem A_v3 : after hostOps0 W (Proc.devRef .tc main_v3) = val_main_v3 (F := F) (W (Proc.devRef .tc main_arg1)) := by
  after_results_simp
  rfl
theorem A_v10 : after hostOps0 W (Proc.devRef .tc main_v10) = val_main_v10 (F := F) (W (Proc.devRef .tc main_arg1)) := by
  after_results_simp
  rfl
theorem A_v12 : after hostOps0 W (Proc.devRef .tc main_v12) = val_main_v12 (F := F) (W (Proc.devRef .tc main_arg1)) := by
  after_results_simp
  rfl
theorem A_v15 : after hostOps0 W (Proc.devRef .tc main_v15) = val_main_v15 (F := F) (W (Proc.devRef .tc main_arg1)) := by
  after_results_simp
  rfl
theorem A_cst_4 : after hostOps0 W (Proc.devRef .tc main_cst_4) = val_main_cst_4 (F := F) := by
  after_results_simp
  rfl

/-- The second run: the first inverse root, zero where the count is zero. -/
theorem B_v16 (x1 : (⟨Cert.ReferenceIdeal.S2x800000, .i32⟩ : BufTy).Contents (Elt F))
    (h12 : W (Proc.devRef .tc main_v12) = val_main_v12 (F := F) x1) (h15 : W (Proc.devRef .tc main_v15) = val_main_v15 (F := F) x1)
    (hc : W (Proc.devRef .tc main_cst_4) = val_main_cst_4 (F := F)) :
    after hostOps0_1 W (Proc.devRef .tc main_v16) = val_main_v16 (F := F) x1 := by
  after_results_simp
  simp only [StableHlo.TRef.ofBuf, StableHlo.TRef.toBuf, cast_eq]
  rw [h12, h15, hc]
  rfl

/-- The third run: the second inverse root and its mask. -/
theorem C_v18 (x1 : (⟨Cert.ReferenceIdeal.S2x800000, .i32⟩ : BufTy).Contents (Elt F)) (h10 : W (Proc.devRef .tc main_v10) = val_main_v10 (F := F) x1) :
    after hostOps0_2 W (Proc.devRef .tc main_v18) = val_main_v18 (F := F) x1 := by
  after_results_simp
  rw [h10]
  rfl
theorem C_v21 (x1 : (⟨Cert.ReferenceIdeal.S2x800000, .i32⟩ : BufTy).Contents (Elt F)) (h10 : W (Proc.devRef .tc main_v10) = val_main_v10 (F := F) x1) :
    after hostOps0_2 W (Proc.devRef .tc main_v21) = val_main_v21 (F := F) x1 := by
  after_results_simp
  rw [h10]
  rfl
theorem C_cst_7 : after hostOps0_2 W (Proc.devRef .tc main_cst_7) = val_main_cst_7 (F := F) := by
  after_results_simp
  rfl

/-- The fourth run: the second inverse root, zero where the count is zero. -/
theorem D_v22 (x1 : (⟨Cert.ReferenceIdeal.S2x800000, .i32⟩ : BufTy).Contents (Elt F))
    (h18 : W (Proc.devRef .tc main_v18) = val_main_v18 (F := F) x1) (h21 : W (Proc.devRef .tc main_v21) = val_main_v21 (F := F) x1)
    (hc : W (Proc.devRef .tc main_cst_7) = val_main_cst_7 (F := F)) :
    after hostOps0_3 W (Proc.devRef .tc main_v22) = val_main_v22 (F := F) x1 := by
  after_results_simp
  simp only [StableHlo.TRef.ofBuf, StableHlo.TRef.toBuf, cast_eq]
  rw [h18, h21, hc]
  rfl

/-- The fifth run: the edge weights, the product of the two inverse roots gathered at the edge's ends. -/
theorem E1_v37 (x1 : (⟨Cert.ReferenceIdeal.S2x800000, .i32⟩ : BufTy).Contents (Elt F))
    (h1 : W (Proc.devRef .tc main_v1) = val_main_v1 (F := F) x1) (h3 : W (Proc.devRef .tc main_v3) = val_main_v3 (F := F) x1)
    (h16 : W (Proc.devRef .tc main_v16) = val_main_v16 (F := F) x1) (h22 : W (Proc.devRef .tc main_v22) = val_main_v22 (F := F) x1) :
    after weightOps W (Proc.devRef .tc main_v37) = val_main_v37 (F := F) x1 := by
  after_results_simp
  rw [h1, h3, h16, h22]
  rfl

/-- The sixth run: the first neighbour aggregation. -/
theorem E2_v50 (x0 : (⟨Cert.ReferenceIdeal.S50000x128, .f32⟩ : BufTy).Contents (Elt F)) (x1 : (⟨Cert.ReferenceIdeal.S2x800000, .i32⟩ : BufTy).Contents (Elt F))
    (h0 : W (Proc.devRef .tc main_arg0) = x0)
    (h1 : W (Proc.devRef .tc main_v1) = val_main_v1 (F := F) x1) (h3 : W (Proc.devRef .tc main_v3) = val_main_v3 (F := F) x1)
    (h37 : W (Proc.devRef .tc main_v37) = val_main_v37 (F := F) x1) :
    after outOps W (Proc.devRef .tc main_v50) = val_main_v50 (F := F) x0 x1 := by
  after_results_simp
  rw [h0, h1, h3, h37]
  rfl

/-- The seventh run: the second neighbour aggregation. -/
theorem E3_v63 (x0 : (⟨Cert.ReferenceIdeal.S50000x128, .f32⟩ : BufTy).Contents (Elt F)) (x1 : (⟨Cert.ReferenceIdeal.S2x800000, .i32⟩ : BufTy).Contents (Elt F))
    (h0 : W (Proc.devRef .tc main_arg0) = x0)
    (h1 : W (Proc.devRef .tc main_v1) = val_main_v1 (F := F) x1) (h3 : W (Proc.devRef .tc main_v3) = val_main_v3 (F := F) x1)
    (h37 : W (Proc.devRef .tc main_v37) = val_main_v37 (F := F) x1) :
    after inOps W (Proc.devRef .tc main_v63) = val_main_v63 (F := F) x0 x1 := by
  after_results_simp
  rw [h0, h1, h3, h37]
  rfl

end Runs

/-! ## The contents after each run, from the launch contents -/

/-- The last stretch is the three runs that compute, then the packing operations. -/
theorem hostOps0_4_split : (hostOps0_4 : List (HloOp τ sig (Elt F))) = weightOps ++ (outOps ++ (inOps ++ packOps)) := rfl

/-- Core `c`'s buffer contents after the first run, … , after the seventh. -/
def W1 : Valuation τ sig (Elt F) := after hostOps0 (fun b => m (c, b))
def W2 : Valuation τ sig (Elt F) := after hostOps0_1 (W1 m c)
def W3 : Valuation τ sig (Elt F) := after hostOps0_2 (W2 m c)
def W4 : Valuation τ sig (Elt F) := after hostOps0_3 (W3 m c)
def X1 : Valuation τ sig (Elt F) := after weightOps (W4 m c)
def X2 : Valuation τ sig (Elt F) := after outOps (X1 m c)
def X3 : Valuation τ sig (Elt F) := after inOps (X2 m c)

/-- The contents when the region is entered are the packing operations run after the seventh run. -/
theorem V0_eq : V0 m c = after packOps (X3 m c) := by
  unfold V0 pre X3 X2 X1 W4 W3 W2 W1
  rw [List.flatten_cons, List.flatten_cons, List.flatten_cons, List.flatten_cons, List.flatten_cons, List.flatten_nil, List.append_nil,
    StableHlo.after_append, StableHlo.after_append, StableHlo.after_append, StableHlo.after_append]
  conv_lhs => rw [hostOps0_4_split, StableHlo.after_append, StableHlo.after_append, StableHlo.after_append]

/-- A reference the packing operations do not write holds after the seventh run what it holds when the region is entered. -/
theorem X3_of (r : Ref sig .tc) (h : r ∉ (packOps_W : List (Ref sig .tc))) : X3 m c (Proc.devRef .tc r) = V m c r := by
  show _ = V0 m c (Proc.devRef .tc r)
  rw [V0_eq]
  exact (packOps_of _ r h).symm

theorem W1_arg0 : W1 m c (Proc.devRef .tc main_arg0) = (m ((c : Thread nD τ).loc main_arg0)) := hostOps0_of _ main_arg0 (by decide)
theorem W1_v1 : W1 m c (Proc.devRef .tc main_v1) = val_main_v1 (F := F) (m ((c : Thread nD τ).loc main_arg1)) := A_v1 _
theorem W1_v3 : W1 m c (Proc.devRef .tc main_v3) = val_main_v3 (F := F) (m ((c : Thread nD τ).loc main_arg1)) := A_v3 _
theorem W1_v10 : W1 m c (Proc.devRef .tc main_v10) = val_main_v10 (F := F) (m ((c : Thread nD τ).loc main_arg1)) := A_v10 _
theorem W1_v12 : W1 m c (Proc.devRef .tc main_v12) = val_main_v12 (F := F) (m ((c : Thread nD τ).loc main_arg1)) := A_v12 _
theorem W1_v15 : W1 m c (Proc.devRef .tc main_v15) = val_main_v15 (F := F) (m ((c : Thread nD τ).loc main_arg1)) := A_v15 _
theorem W1_cst_4 : W1 m c (Proc.devRef .tc main_cst_4) = val_main_cst_4 (F := F) := A_cst_4 _

theorem W2_arg0 : W2 m c (Proc.devRef .tc main_arg0) = (m ((c : Thread nD τ).loc main_arg0)) :=
  (hostOps0_1_of _ main_arg0 (by decide)).trans (W1_arg0 m c)
theorem W2_v1 : W2 m c (Proc.devRef .tc main_v1) = val_main_v1 (F := F) (m ((c : Thread nD τ).loc main_arg1)) :=
  (hostOps0_1_of _ main_v1 (by decide)).trans (W1_v1 m c)
theorem W2_v3 : W2 m c (Proc.devRef .tc main_v3) = val_main_v3 (F := F) (m ((c : Thread nD τ).loc main_arg1)) :=
  (hostOps0_1_of _ main_v3 (by decide)).trans (W1_v3 m c)
theorem W2_v10 : W2 m c (Proc.devRef .tc main_v10) = val_main_v10 (F := F) (m ((c : Thread nD τ).loc main_arg1)) :=
  (hostOps0_1_of _ main_v10 (by decide)).trans (W1_v10 m c)
theorem W2_v16 : W2 m c (Proc.devRef .tc main_v16) = val_main_v16 (F := F) (m ((c : Thread nD τ).loc main_arg1)) := B_v16 _ _ (W1_v12 m c) (W1_v15 m c) (W1_cst_4 m c)

theorem W3_arg0 : W3 m c (Proc.devRef .tc main_arg0) = (m ((c : Thread nD τ).loc main_arg0)) :=
  (hostOps0_2_of _ main_arg0 (by decide)).trans (W2_arg0 m c)
theorem W3_v1 : W3 m c (Proc.devRef .tc main_v1) = val_main_v1 (F := F) (m ((c : Thread nD τ).loc main_arg1)) :=
  (hostOps0_2_of _ main_v1 (by decide)).trans (W2_v1 m c)
theorem W3_v3 : W3 m c (Proc.devRef .tc main_v3) = val_main_v3 (F := F) (m ((c : Thread nD τ).loc main_arg1)) :=
  (hostOps0_2_of _ main_v3 (by decide)).trans (W2_v3 m c)
theorem W3_v16 : W3 m c (Proc.devRef .tc main_v16) = val_main_v16 (F := F) (m ((c : Thread nD τ).loc main_arg1)) :=
  (hostOps0_2_of _ main_v16 (by decide)).trans (W2_v16 m c)
theorem W3_v18 : W3 m c (Proc.devRef .tc main_v18) = val_main_v18 (F := F) (m ((c : Thread nD τ).loc main_arg1)) := C_v18 _ _ (W2_v10 m c)
theorem W3_v21 : W3 m c (Proc.devRef .tc main_v21) = val_main_v21 (F := F) (m ((c : Thread nD τ).loc main_arg1)) := C_v21 _ _ (W2_v10 m c)
theorem W3_cst_7 : W3 m c (Proc.devRef .tc main_cst_7) = val_main_cst_7 (F := F) := C_cst_7 _

theorem W4_arg0 : W4 m c (Proc.devRef .tc main_arg0) = (m ((c : Thread nD τ).loc main_arg0)) :=
  (hostOps0_3_of _ main_arg0 (by decide)).trans (W3_arg0 m c)
theorem W4_v1 : W4 m c (Proc.devRef .tc main_v1) = val_main_v1 (F := F) (m ((c : Thread nD τ).loc main_arg1)) :=
  (hostOps0_3_of _ main_v1 (by decide)).trans (W3_v1 m c)
theorem W4_v3 : W4 m c (Proc.devRef .tc main_v3) = val_main_v3 (F := F) (m ((c : Thread nD τ).loc main_arg1)) :=
  (hostOps0_3_of _ main_v3 (by decide)).trans (W3_v3 m c)
theorem W4_v16 : W4 m c (Proc.devRef .tc main_v16) = val_main_v16 (F := F) (m ((c : Thread nD τ).loc main_arg1)) :=
  (hostOps0_3_of _ main_v16 (by decide)).trans (W3_v16 m c)
theorem W4_v22 : W4 m c (Proc.devRef .tc main_v22) = val_main_v22 (F := F) (m ((c : Thread nD τ).loc main_arg1)) := D_v22 _ _ (W3_v18 m c) (W3_v21 m c) (W3_cst_7 m c)

theorem X1_arg0 : X1 m c (Proc.devRef .tc main_arg0) = (m ((c : Thread nD τ).loc main_arg0)) :=
  (weightOps_of _ main_arg0 (by decide)).trans (W4_arg0 m c)
theorem X1_v1 : X1 m c (Proc.devRef .tc main_v1) = val_main_v1 (F := F) (m ((c : Thread nD τ).loc main_arg1)) :=
  (weightOps_of _ main_v1 (by decide)).trans (W4_v1 m c)
theorem X1_v3 : X1 m c (Proc.devRef .tc main_v3) = val_main_v3 (F := F) (m ((c : Thread nD τ).loc main_arg1)) :=
  (weightOps_of _ main_v3 (by decide)).trans (W4_v3 m c)
theorem X1_v37 : X1 m c (Proc.devRef .tc main_v37) = val_main_v37 (F := F) (m ((c : Thread nD τ).loc main_arg1)) := E1_v37 _ _ (W4_v1 m c) (W4_v3 m c) (W4_v16 m c) (W4_v22 m c)

theorem X2_arg0 : X2 m c (Proc.devRef .tc main_arg0) = (m ((c : Thread nD τ).loc main_arg0)) :=
  (outOps_of _ main_arg0 (by decide)).trans (X1_arg0 m c)
theorem X2_v1 : X2 m c (Proc.devRef .tc main_v1) = val_main_v1 (F := F) (m ((c : Thread nD τ).loc main_arg1)) :=
  (outOps_of _ main_v1 (by decide)).trans (X1_v1 m c)
theorem X2_v3 : X2 m c (Proc.devRef .tc main_v3) = val_main_v3 (F := F) (m ((c : Thread nD τ).loc main_arg1)) :=
  (outOps_of _ main_v3 (by decide)).trans (X1_v3 m c)
theorem X2_v37 : X2 m c (Proc.devRef .tc main_v37) = val_main_v37 (F := F) (m ((c : Thread nD τ).loc main_arg1)) :=
  (outOps_of _ main_v37 (by decide)).trans (X1_v37 m c)
theorem X2_v50 : X2 m c (Proc.devRef .tc main_v50) = val_main_v50 (F := F) (m ((c : Thread nD τ).loc main_arg0)) (m ((c : Thread nD τ).loc main_arg1)) := E2_v50 _ _ _ (X1_arg0 m c) (X1_v1 m c) (X1_v3 m c) (X1_v37 m c)

theorem X3_v50 : X3 m c (Proc.devRef .tc main_v50) = val_main_v50 (F := F) (m ((c : Thread nD τ).loc main_arg0)) (m ((c : Thread nD τ).loc main_arg1)) :=
  (inOps_of _ main_v50 (by decide)).trans (X2_v50 m c)
theorem X3_v63 : X3 m c (Proc.devRef .tc main_v63) = val_main_v63 (F := F) (m ((c : Thread nD τ).loc main_arg0)) (m ((c : Thread nD τ).loc main_arg1)) := E3_v63 _ _ _ (X2_arg0 m c) (X2_v1 m c) (X2_v3 m c) (X2_v37 m c)

/-! ## The two neighbour aggregations are the reference's -/

theorem V_v50 : V m c main_v50 = Cert.ReferenceIdeal.ReadP.val_main_v50 (F := F) (m ((c : Thread nD τ).loc main_arg0)) (m ((c : Thread nD τ).loc main_arg1)) :=
  (X3_of m c main_v50 (by decide)).symm.trans (X3_v50 m c)
theorem V_v63 : V m c main_v63 = Cert.ReferenceIdeal.ReadP.val_main_v63 (F := F) (m ((c : Thread nD τ).loc main_arg0)) (m ((c : Thread nD τ).loc main_arg1)) :=
  (X3_of m c main_v63 (by decide)).symm.trans (X3_v63 m c)

/-! ## The packed and transposed arrays -/

theorem X3_arg2 : X3 m c (Proc.devRef .tc main_arg2) = m ((c : Thread nD τ).loc main_arg2) := (X3_of m c main_arg2 (by decide)).trans (V_main_arg2 m c)
theorem X3_arg3 : X3 m c (Proc.devRef .tc main_arg3) = m ((c : Thread nD τ).loc main_arg3) := (X3_of m c main_arg3 (by decide)).trans (V_main_arg3 m c)
theorem X3_arg4 : X3 m c (Proc.devRef .tc main_arg4) = m ((c : Thread nD τ).loc main_arg4) := (X3_of m c main_arg4 (by decide)).trans (V_main_arg4 m c)
theorem X3_arg5 : X3 m c (Proc.devRef .tc main_arg5) = m ((c : Thread nD τ).loc main_arg5) := (X3_of m c main_arg5 (by decide)).trans (V_main_arg5 m c)
theorem X3_arg6 : X3 m c (Proc.devRef .tc main_arg6) = m ((c : Thread nD τ).loc main_arg6) := (X3_of m c main_arg6 (by decide)).trans (V_main_arg6 m c)
theorem X3_arg7 : X3 m c (Proc.devRef .tc main_arg7) = m ((c : Thread nD τ).loc main_arg7) := (X3_of m c main_arg7 (by decide)).trans (V_main_arg7 m c)
theorem X3_arg8 : X3 m c (Proc.devRef .tc main_arg8) = m ((c : Thread nD τ).loc main_arg8) := (X3_of m c main_arg8 (by decide)).trans (V_main_arg8 m c)
theorem X3_arg10 : X3 m c (Proc.devRef .tc main_arg10) = m ((c : Thread nD τ).loc main_arg10) := (X3_of m c main_arg10 (by decide)).trans (V_main_arg10 m c)
theorem X3_arg12 : X3 m c (Proc.devRef .tc main_arg12) = m ((c : Thread nD τ).loc main_arg12) := (X3_of m c main_arg12 (by decide)).trans (V_main_arg12 m c)
theorem X3_arg14 : X3 m c (Proc.devRef .tc main_arg14) = m ((c : Thread nD τ).loc main_arg14) := (X3_of m c main_arg14 (by decide)).trans (V_main_arg14 m c)
theorem X3_arg16 : X3 m c (Proc.devRef .tc main_arg16) = m ((c : Thread nD τ).loc main_arg16) := (X3_of m c main_arg16 (by decide)).trans (V_main_arg16 m c)

/-! ## The packed and transposed arrays as terms of the arguments -/

theorem V_v66_term : (V m c main_v66 : S50000x2.Idx → Elt F .i32) =
    concatenate S50000x2 1 [⟨S50000x1, broadcastInDim S50000x1 ![0] bcast_S50000_S50000x1_0 (m ((c : Thread nD τ).loc main_arg3))⟩,
      ⟨S50000x1, broadcastInDim S50000x1 ![0] bcast_S50000_S50000x1_0 (m ((c : Thread nD τ).loc main_arg2))⟩] concatenates_S50000x1_S50000x1_S50000x2_d1 := by
  show V0 m c (Proc.devRef .tc main_v66) = _
  rw [V0_eq, ← X3_arg3 m c, ← X3_arg2 m c]
  generalize X3 m c = W
  after_results
  try rfl

theorem V_v71_term : (V m c main_v71 : S50000x4.Idx → Elt F .f32) =
    concatenate S50000x4 1 [⟨S50000x1, broadcastInDim S50000x1 ![0] bcast_S50000_S50000x1_0 (m ((c : Thread nD τ).loc main_arg4))⟩,
      ⟨S50000x1, broadcastInDim S50000x1 ![0] bcast_S50000_S50000x1_0 (m ((c : Thread nD τ).loc main_arg5))⟩,
      ⟨S50000x1, broadcastInDim S50000x1 ![0] bcast_S50000_S50000x1_0 (m ((c : Thread nD τ).loc main_arg6))⟩,
      ⟨S50000x1, broadcastInDim S50000x1 ![0] bcast_S50000_S50000x1_0 (m ((c : Thread nD τ).loc main_arg7))⟩]
      concatenates_S50000x1_S50000x1_S50000x1_S50000x1_S50000x4_d1 := by
  show V0 m c (Proc.devRef .tc main_v71) = _
  rw [V0_eq, ← X3_arg4 m c, ← X3_arg5 m c, ← X3_arg6 m c, ← X3_arg7 m c]
  generalize X3 m c = W
  after_results
  try rfl

theorem V_v72_term : (V m c main_v72 : S128x128.Idx → Elt F .f32) =
    transpose S128x128 [1, 0] (m ((c : Thread nD τ).loc main_arg8)) transposes_S128x128_S128x128_1_0 := by
  show V0 m c (Proc.devRef .tc main_v72) = _
  rw [V0_eq, ← X3_arg8 m c]
  generalize X3 m c = W
  after_results
  try rfl

theorem V_v73_term : (V m c main_v73 : S128x128.Idx → Elt F .f32) =
    transpose S128x128 [1, 0] (m ((c : Thread nD τ).loc main_arg10)) transposes_S128x128_S128x128_1_0 := by
  show V0 m c (Proc.devRef .tc main_v73) = _
  rw [V0_eq, ← X3_arg10 m c]
  generalize X3 m c = W
  after_results
  try rfl

theorem V_v74_term : (V m c main_v74 : S128x128.Idx → Elt F .f32) =
    transpose S128x128 [1, 0] (m ((c : Thread nD τ).loc main_arg16)) transposes_S128x128_S128x128_1_0 := by
  show V0 m c (Proc.devRef .tc main_v74) = _
  rw [V0_eq, ← X3_arg16 m c]
  generalize X3 m c = W
  after_results
  try rfl

theorem V_v75_term : (V m c main_v75 : S128x1.Idx → Elt F .f32) =
    transpose S128x1 [1, 0] (m ((c : Thread nD τ).loc main_arg12)) transposes_S1x128_S128x1_1_0 := by
  show V0 m c (Proc.devRef .tc main_v75) = _
  rw [V0_eq, ← X3_arg12 m c]
  generalize X3 m c = W
  after_results
  try rfl

theorem V_v76_term : (V m c main_v76 : S128x1.Idx → Elt F .f32) =
    transpose S128x1 [1, 0] (m ((c : Thread nD τ).loc main_arg14)) transposes_S1x128_S128x1_1_0 := by
  show V0 m c (Proc.devRef .tc main_v76) = _
  rw [V0_eq, ← X3_arg14 m c]
  generalize X3 m c = W
  after_results
  try rfl

/-! ## Reads at an index -/

section Reads
variable {α : Type}

/-- A vector made a one-column matrix reads, in row `r`, the vector's entry `r`. -/
theorem col_apply (x : S50000.Idx → α) (r : Fin 50000) :
    broadcastInDim S50000x1 ![0] bcast_S50000_S50000x1_0 x (ix2 r 0) = x (ix1 r) :=
  broadcastInDim_apply _ bcast_S50000_S50000x1_0 x (ix2 r 0) (ix1 r) (fun a => match a with
    | ⟨0, _⟩ => by show r.val = if (50000 : Nat) = 1 then 0 else r.val; rw [if_neg (by decide)])

/-- Two one-column matrices side by side: column `0` is the first. -/
theorem pack2_apply_0 (x₁ x₂ : S50000x1.Idx → α) (r : Fin 50000) :
    concatenate S50000x2 1 [⟨S50000x1, x₁⟩, ⟨S50000x1, x₂⟩] concatenates_S50000x1_S50000x1_S50000x2_d1 (ix2 r 0) = x₁ (ix2 r 0) :=
  concatenate_apply_piece (t := S50000x2) 1 [⟨S50000x1, x₁⟩, ⟨S50000x1, x₂⟩] concatenates_S50000x1_S50000x1_S50000x2_d1 (ix2 r 0) 0 (by show (0 : ℕ) < 2; decide) S50000x1 x₁ rfl rfl 0 rfl (ix2 r 0)
    (fun b hb => match b with | ⟨0, _⟩ => rfl | ⟨1, _⟩ => absurd rfl hb) rfl
/-- Column `1` is the second. -/
theorem pack2_apply_1 (x₁ x₂ : S50000x1.Idx → α) (r : Fin 50000) :
    concatenate S50000x2 1 [⟨S50000x1, x₁⟩, ⟨S50000x1, x₂⟩] concatenates_S50000x1_S50000x1_S50000x2_d1 (ix2 r 1) = x₂ (ix2 r 0) :=
  concatenate_apply_piece (t := S50000x2) 1 [⟨S50000x1, x₁⟩, ⟨S50000x1, x₂⟩] concatenates_S50000x1_S50000x1_S50000x2_d1 (ix2 r 1) 1 (by show (1 : ℕ) < 2; decide) S50000x1 x₂ rfl rfl 1 rfl (ix2 r 0)
    (fun b hb => match b with | ⟨0, _⟩ => rfl | ⟨1, _⟩ => absurd rfl hb) rfl

/-- Four one-column matrices side by side: column `0`. -/
theorem pack4_apply_0 (x₀ x₁ x₂ x₃ : S50000x1.Idx → α) (r : Fin 50000) :
    concatenate S50000x4 1 [⟨S50000x1, x₀⟩, ⟨S50000x1, x₁⟩, ⟨S50000x1, x₂⟩, ⟨S50000x1, x₃⟩] concatenates_S50000x1_S50000x1_S50000x1_S50000x1_S50000x4_d1 (ix2 r 0) = x₀ (ix2 r 0) :=
  concatenate_apply_piece (t := S50000x4) 1 [⟨S50000x1, x₀⟩, ⟨S50000x1, x₁⟩, ⟨S50000x1, x₂⟩, ⟨S50000x1, x₃⟩] concatenates_S50000x1_S50000x1_S50000x1_S50000x1_S50000x4_d1 (ix2 r 0) 0 (by show (0 : ℕ) < 4; decide) S50000x1 x₀ rfl rfl 0 rfl (ix2 r 0)
    (fun b hb => match b with | ⟨0, _⟩ => rfl | ⟨1, _⟩ => absurd rfl hb) rfl
/-- Four one-column matrices side by side: column `1`. -/
theorem pack4_apply_1 (x₀ x₁ x₂ x₃ : S50000x1.Idx → α) (r : Fin 50000) :
    concatenate S50000x4 1 [⟨S50000x1, x₀⟩, ⟨S50000x1, x₁⟩, ⟨S50000x1, x₂⟩, ⟨S50000x1, x₃⟩] concatenates_S50000x1_S50000x1_S50000x1_S50000x1_S50000x4_d1 (ix2 r 1) = x₁ (ix2 r 0) :=
  concatenate_apply_piece (t := S50000x4) 1 [⟨S50000x1, x₀⟩, ⟨S50000x1, x₁⟩, ⟨S50000x1, x₂⟩, ⟨S50000x1, x₃⟩] concatenates_S50000x1_S50000x1_S50000x1_S50000x1_S50000x4_d1 (ix2 r 1) 1 (by show (1 : ℕ) < 4; decide) S50000x1 x₁ rfl rfl 1 rfl (ix2 r 0)
    (fun b hb => match b with | ⟨0, _⟩ => rfl | ⟨1, _⟩ => absurd rfl hb) rfl
/-- Four one-column matrices side by side: column `2`. -/
theorem pack4_apply_2 (x₀ x₁ x₂ x₃ : S50000x1.Idx → α) (r : Fin 50000) :
    concatenate S50000x4 1 [⟨S50000x1, x₀⟩, ⟨S50000x1, x₁⟩, ⟨S50000x1, x₂⟩, ⟨S50000x1, x₃⟩] concatenates_S50000x1_S50000x1_S50000x1_S50000x1_S50000x4_d1 (ix2 r 2) = x₂ (ix2 r 0) :=
  concatenate_apply_piece (t := S50000x4) 1 [⟨S50000x1, x₀⟩, ⟨S50000x1, x₁⟩, ⟨S50000x1, x₂⟩, ⟨S50000x1, x₃⟩] concatenates_S50000x1_S50000x1_S50000x1_S50000x1_S50000x4_d1 (ix2 r 2) 2 (by show (2 : ℕ) < 4; decide) S50000x1 x₂ rfl rfl 2 rfl (ix2 r 0)
    (fun b hb => match b with | ⟨0, _⟩ => rfl | ⟨1, _⟩ => absurd rfl hb) rfl
/-- Four one-column matrices side by side: column `3`. -/
theorem pack4_apply_3 (x₀ x₁ x₂ x₃ : S50000x1.Idx → α) (r : Fin 50000) :
    concatenate S50000x4 1 [⟨S50000x1, x₀⟩, ⟨S50000x1, x₁⟩, ⟨S50000x1, x₂⟩, ⟨S50000x1, x₃⟩] concatenates_S50000x1_S50000x1_S50000x1_S50000x1_S50000x4_d1 (ix2 r 3) = x₃ (ix2 r 0) :=
  concatenate_apply_piece (t := S50000x4) 1 [⟨S50000x1, x₀⟩, ⟨S50000x1, x₁⟩, ⟨S50000x1, x₂⟩, ⟨S50000x1, x₃⟩] concatenates_S50000x1_S50000x1_S50000x1_S50000x1_S50000x4_d1 (ix2 r 3) 3 (by show (3 : ℕ) < 4; decide) S50000x1 x₃ rfl rfl 3 rfl (ix2 r 0)
    (fun b hb => match b with | ⟨0, _⟩ => rfl | ⟨1, _⟩ => absurd rfl hb) rfl

end Reads

/-! ## The statements -/

theorem V_v66_0 (r : Fin 50000) : V m c main_v66 (ix2 r 0) = m ((c : Thread nD τ).loc main_arg3) (ix1 r) :=
  (congrFun (V_v66_term m c) (ix2 r 0)).trans ((pack2_apply_0 _ _ r).trans (col_apply _ r))
theorem V_v66_1 (r : Fin 50000) : V m c main_v66 (ix2 r 1) = m ((c : Thread nD τ).loc main_arg2) (ix1 r) :=
  (congrFun (V_v66_term m c) (ix2 r 1)).trans ((pack2_apply_1 _ _ r).trans (col_apply _ r))
theorem V_v71_0 (r : Fin 50000) : V m c main_v71 (ix2 r 0) = m ((c : Thread nD τ).loc main_arg4) (ix1 r) :=
  (congrFun (V_v71_term m c) (ix2 r 0)).trans ((pack4_apply_0 _ _ _ _ r).trans (col_apply _ r))
theorem V_v71_1 (r : Fin 50000) : V m c main_v71 (ix2 r 1) = m ((c : Thread nD τ).loc main_arg5) (ix1 r) :=
  (congrFun (V_v71_term m c) (ix2 r 1)).trans ((pack4_apply_1 _ _ _ _ r).trans (col_apply _ r))
theorem V_v71_2 (r : Fin 50000) : V m c main_v71 (ix2 r 2) = m ((c : Thread nD τ).loc main_arg6) (ix1 r) :=
  (congrFun (V_v71_term m c) (ix2 r 2)).trans ((pack4_apply_2 _ _ _ _ r).trans (col_apply _ r))
theorem V_v71_3 (r : Fin 50000) : V m c main_v71 (ix2 r 3) = m ((c : Thread nD τ).loc main_arg7) (ix1 r) :=
  (congrFun (V_v71_term m c) (ix2 r 3)).trans ((pack4_apply_3 _ _ _ _ r).trans (col_apply _ r))
theorem V_v72 (k q : Fin 128) : V m c main_v72 (ix2 k q) = m ((c : Thread nD τ).loc main_arg8) (ix2 q k) :=
  (congrFun (V_v72_term m c) (ix2 k q)).trans (transpose_ix2_apply _ _ k q)
theorem V_v73 (k q : Fin 128) : V m c main_v73 (ix2 k q) = m ((c : Thread nD τ).loc main_arg10) (ix2 q k) :=
  (congrFun (V_v73_term m c) (ix2 k q)).trans (transpose_ix2_apply _ _ k q)
theorem V_v74 (k q : Fin 128) : V m c main_v74 (ix2 k q) = m ((c : Thread nD τ).loc main_arg16) (ix2 q k) :=
  (congrFun (V_v74_term m c) (ix2 k q)).trans (transpose_ix2_apply _ _ k q)
theorem V_v75 (k : Fin 128) : V m c main_v75 (ix2 k 0) = m ((c : Thread nD τ).loc main_arg12) (ix2 0 k) :=
  (congrFun (V_v75_term m c) (ix2 k 0)).trans (transpose_ix2_apply _ _ k 0)
theorem V_v76 (k : Fin 128) : V m c main_v76 (ix2 k 0) = m ((c : Thread nD τ).loc main_arg14) (ix2 0 k) :=
  (congrFun (V_v76_term m c) (ix2 k 0)).trans (transpose_ix2_apply _ _ k 0)

end Cert.KernelIdeal.KHost

end
-- ==== Proof.RefSpec.lean ====
/- The reference program's three results, read at one index, are the specification's functions of the node's rows.
   For a node r (a row of the feature array) write x = the node's feature row, onei = its row of the first neighbour
   sum, inei = its row of the second neighbour sum (both sums are carried as opaque arrays), dOut / dIn its two degree
   words, and read the parameters by rows as the specification does.
     * A table gather at a degree in [0, 64): the index first passes the wrap "if negative add 64", the identity at a
       non-negative word; the gather then clamps the start row into [0, 63], the identity below 64, collapses the row
       axis and keeps the 128 columns. So the gathered entry (r, k) is the table's entry (degree, k), which is the
       one-hot contraction emb of the specification (its row fact emb_row).
     * A gate's logit: entry (r, 0) of the product of the [50000,128] array (neighbour sum - x + gathered row) with the
       transposed [1,128] weight row, plus the broadcast bias, is  Σ_k (nei k - x k + emb k) · w k + b.
     * The two logit columns are joined into [50000, 2]; the maximum over that axis from -∞, then once more against
       -∞, is the maximum of the pair; each column less that maximum is exponentiated; the sum over the axis from 0
       is the sum of the two exponentials; each exponential divided by it is the pair's softmax: columns 0 and 1 are
       gate0 and gate1 of the specification.
     * The first result, entry (r, 0): gate0 · out-mask + out-mask bias = cOut. The second: gate1 · in-mask + in-mask
       bias = cIn.
     * A linear layer: entry (r, q) of the product of a row array with the transposed [128,128] weights plus the
       broadcast bias row is  Σ_k a k · W q k + b q = proj a W b q.
     * The third result, entry (r, q): cOut · proj onei Wsrc bsrc q + cIn · proj inei Wdst bdst q + ½ · proj x Wfc bfc q
       = out q, where cOut and cIn are broadcast along the row. -/
import proofs.«402007_j15350213116045_2_alg».proof.Proof.RefRead
import proofs.«402007_j15350213116045_2_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.RefSpec

open Cert.ReferenceIdeal Cert.ReferenceIdeal.ReadP Cert.Spec Idealize.ShloMosaic Idealize.ShloMosaic.ValueIdx

/-! ## General facts: a row gather, the wrap of a non-negative index, the maximum of a pair -/

/-- The dimension numbers of a row gather from a [64,128] table at [50000,1] start indices: the row axis is collapsed
    and indexed, the column axis is the offset axis of full extent. -/
abbrev rowDims (wf : GatherDims.WF S64x128 S50000x1 S50000x128 [1] [0] [] [0] [] 1 ![1, 128]) :
    GatherDims S64x128 S50000x1 S50000x128 where
  offsetDims := [1]
  collapsedSliceDims := [0]
  operandBatchingDims := []
  startIndicesBatchingDims := []
  startIndexMap := [0]
  indexVectorDim := 1
  sliceSizes := ![1, 128]
  wf := wf

/-- On the row axis the operand index of result entry (r, k) is the start index of row r, read signed and clamped
    into [0, 63]. -/
theorem row_axis0 (wf : GatherDims.WF S64x128 S50000x1 S50000x128 [1] [0] [] [0] [] 1 ![1, 128]) (idx : IVec S50000x1 32)
    (r : Fin 50000) (k : Fin 128) :
    ((rowDims wf).operandIdx (ix2 r k) idx 0).val = min (idx (ix2 r 0)).toInt.toNat 63 := by
  show (rowDims wf).start (ix2 r k) idx 0 + (rowDims wf).batchCoord (ix2 r k) 0 + (rowDims wf).offCoord (ix2 r k) 0 = _
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos (show (0 : Fin 2) ∈ (rowDims wf).startIndexMap from List.mem_singleton.mpr rfl)]
  have hsi : (rowDims wf).siIdx (ix2 r k) ⟨List.idxOf (0 : Fin 2) (rowDims wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

/-- On the column axis the operand index of result entry (r, k) is k: no start index, the offset coordinate. -/
theorem row_axis1 (wf : GatherDims.WF S64x128 S50000x1 S50000x128 [1] [0] [] [0] [] 1 ![1, 128]) (idx : IVec S50000x1 32)
    (r : Fin 50000) (k : Fin 128) :
    ((rowDims wf).operandIdx (ix2 r k) idx 1).val = k.val := by
  show (rowDims wf).start (ix2 r k) idx 1 + (rowDims wf).batchCoord (ix2 r k) 1 + (rowDims wf).offCoord (ix2 r k) 1 = _
  have h1 : ¬ (1 : Fin 2) ∈ (rowDims wf).startIndexMap := fun h => absurd (List.mem_singleton.mp h) (by decide)
  have h2 : (1 : Fin 2) ∈ (rowDims wf).sKept :=
    (GatherDims.mem_sKept _ _).mpr ⟨fun h => absurd (List.mem_singleton.mp h) (by decide), List.not_mem_nil⟩
  rw [GatherDims.batchCoord_eq_zero _ _ _ List.not_mem_nil, Nat.add_zero]
  unfold GatherDims.start
  rw [dif_neg h1, Nat.zero_add]
  unfold GatherDims.offCoord
  rw [dif_pos h2]
  rfl

/-- The row gather read at (r, k): the table at the clamped start row of r, column k. -/
theorem gather_row_apply {α : Type} (wf : GatherDims.WF S64x128 S50000x1 S50000x128 [1] [0] [] [0] [] 1 ![1, 128])
    (x : S64x128.Idx → α) (idx : IVec S50000x1 32) (r : Fin 50000) (k : Fin 128) :
    Host.gather (rowDims wf) x idx (ix2 r k)
      = x (ix2 (⟨min (idx (ix2 r 0)).toInt.toNat 63, by omega⟩ : Fin 64) k) := by
  unfold Host.gather
  congr 1
  funext a
  refine Fin.ext ?_
  match a with
  | ⟨0, _⟩ => exact row_axis0 wf idx r k
  | ⟨1, _⟩ => exact row_axis1 wf idx r k

/-- The wrap "if the word is negative take the other value" keeps a non-negative word. -/
theorem select_slt_zero_self (d a : BitVec 32) (h : 0 ≤ d.toInt) : Scalar.select (IntOp.cmpi .slt d 0#32) a d = d := by
  have hlt : d.slt 0#32 = false := by
    simp only [BitVec.slt, BitVec.toInt_zero, decide_eq_false_iff_not, Int.not_lt]
    exact h
  show (if BitVec.ofBool (d.slt 0#32) = 1 then _ else _) = _
  rw [hlt]
  rfl

/-- The word of -∞ is the bottom of the extended reals. -/
theorem ofBits_neg_inf : Ideal.ofBits .f32 0xFF800000#32 = (⊥ : EReal) := by
  simp [Ideal.ofBits, Ideal.ieee]

/-- The maximum folded from -∞ over a pair is the maximum of the pair. -/
theorem fold_maximumf_pair (f : Fin 2 → EReal) :
    (Finset.univ : Finset (Fin 2)).fold (FloatOps.maximumf (F := Ideal) (φ := .f32)) (Ideal.ofBits .f32 0xFF800000#32) f
      = max (f 0) (f 1) := by
  rw [show (Finset.univ : Finset (Fin 2)) = {0, 1} from rfl, Finset.fold_insert (by decide), Finset.fold_singleton]
  show max (f 0) (max (f 1) (Ideal.ofBits .f32 0xFF800000#32)) = _
  rw [ofBits_neg_inf]
  simp

/-- The specification's logit, written out. -/
theorem logit_eq (nei x : Fin 128 → EReal) (tab : Fin 64 → Fin 128 → EReal) (d : BitVec 32) (w : Fin 128 → EReal) (b : EReal) :
    Spec.logit nei x tab d w b = (∑ k : Fin 128, (nei k - x k + emb tab d k) * w k) + b := rfl

/-- The specification's linear layer, written out. -/
theorem proj_eq (a : Fin 128 → EReal) (W : Fin 128 → Fin 128 → EReal) (b : Fin 128 → EReal) (q : Fin 128) :
    Spec.proj a W b q = (∑ k : Fin 128, a k * W q k) + b q := rfl

variable (x0 : FVec Ideal S50000x128 .f32) (x1 : IVec S2x800000 32) (x2 x3 : IVec S50000 32)
  (x4 x5 x6 x7 : FVec Ideal S50000 .f32) (x8 : FVec Ideal S128x128 .f32) (x9 : FVec Ideal S128 .f32)
  (x10 : FVec Ideal S128x128 .f32) (x11 : FVec Ideal S128 .f32) (x12 : FVec Ideal S1x128 .f32) (x13 : FVec Ideal S1 .f32)
  (x14 : FVec Ideal S1x128 .f32) (x15 : FVec Ideal S1 .f32) (x16 : FVec Ideal S128x128 .f32) (x17 : FVec Ideal S128 .f32)
  (x18 x19 : FVec Ideal S64x128 .f32)

/-! ## The out side: the wrapped index, the gathered row, the logit -/

/-- The wrapped out-degree index of node r is the out-degree itself when it is not negative. -/
theorem v70_at (r : Fin 50000) (h : 0 ≤ (x3 (ix1 r)).toInt) : val_main_v70 (F := Ideal) x3 (ix2 r 0) = x3 (ix1 r) := by
  have e : idx_main_v70 (ix2 r (0 : Fin 1)) = ix1 r := funext fun a => Fin.ext (by match a with | ⟨0, _⟩ => rfl)
  rw [val_main_v70_apply, e, val_main_v69_apply, val_main_v66_apply, val_main_v65_apply, val_main_c_17_apply]
  exact select_slt_zero_self _ _ h

/-- The gathered out-degree row of node r is the table row its degree names. -/
theorem v71_row (r : Fin 50000) (k : Fin 128) (h : DegOk (x3 (ix1 r))) :
    val_main_v71 (F := Ideal) x3 x19 (ix2 r k)
      = x19 (ix2 (⟨(x3 (ix1 r)).toInt.toNat, by have := h.1; have := h.2; omega⟩ : Fin 64) k) := by
  unfold val_main_v71
  refine (gather_row_apply _ x19 _ r k).trans ?_
  refine congrArg (fun j : Fin 64 => x19 (ix2 j k)) (Fin.ext ?_)
  show min (val_main_v70 (F := Ideal) x3 (ix2 r 0)).toInt.toNat 63 = (x3 (ix1 r)).toInt.toNat
  rw [v70_at x3 r h.1]
  have := h.1; have := h.2; omega

/-- The gathered out-degree row is the specification's one-hot contraction. -/
theorem v71_emb (r : Fin 50000) (k : Fin 128) (h : DegOk (x3 (ix1 r))) :
    val_main_v71 (F := Ideal) x3 x19 (ix2 r k) = Spec.emb (fun j k => x19 (ix2 j k)) (x3 (ix1 r)) k :=
  (v71_row x3 x19 r k h).trans (emb_row (fun j k => x19 (ix2 j k)) (x3 (ix1 r)) h k).symm

/-- The out side's term at (r, k): the first neighbour sum less the features plus the degree embedding. -/
theorem v72_at (r : Fin 50000) (k : Fin 128) (h : DegOk (x3 (ix1 r))) :
    val_main_v72 (F := Ideal) x0 x1 x3 x19 (ix2 r k)
      = val_main_v50 (F := Ideal) x0 x1 (ix2 r k) - x0 (ix2 r k) + Spec.emb (fun j k => x19 (ix2 j k)) (x3 (ix1 r)) k := by
  rw [val_main_v72_apply, val_main_v64_apply, v71_emb x3 x19 r k h]
  rfl

/-- The out logit of node r. -/
theorem v77_at (r : Fin 50000) (h : DegOk (x3 (ix1 r))) :
    val_main_v77 (F := Ideal) x0 x1 x3 x12 x13 x19 (ix2 r 0)
      = Spec.logit (fun k => val_main_v50 (F := Ideal) x0 x1 (ix2 r k)) (fun k => x0 (ix2 r k)) (fun j k => x19 (ix2 j k))
          (x3 (ix1 r)) (fun k => x12 (ix2 0 k)) (x13 (ix1 0)) := by
  rw [val_main_v77_apply, val_main_v74_apply, val_main_v76_apply, val_main_v75_apply, logit_eq]
  refine congrArg₂ (· + ·) (Finset.sum_congr rfl fun k _ => ?_)
    (congrArg x13 (funext fun a => Fin.ext (by match a with | ⟨0, _⟩ => rfl)))
  have el : lidx_main_v74 (ix2 r (0 : Fin 1)) k = ix2 r k :=
    funext fun a => Fin.ext (by match a with | ⟨0, _⟩ => rfl | ⟨1, _⟩ => rfl)
  rw [el, v72_at x0 x1 x3 x19 r k h, val_main_v73_apply]
  exact congrArg (fun t => _ * x12 t) (funext fun a => Fin.ext (by match a with | ⟨0, _⟩ => rfl | ⟨1, _⟩ => rfl))

/-! ## The in side: the same three steps -/

/-- The wrapped in-degree index of node r is the in-degree itself when it is not negative. -/
theorem v84_at (r : Fin 50000) (h : 0 ≤ (x2 (ix1 r)).toInt) : val_main_v84 (F := Ideal) x2 (ix2 r 0) = x2 (ix1 r) := by
  have e : idx_main_v84 (ix2 r (0 : Fin 1)) = ix1 r := funext fun a => Fin.ext (by match a with | ⟨0, _⟩ => rfl)
  rw [val_main_v84_apply, e, val_main_v83_apply, val_main_v80_apply, val_main_v79_apply, val_main_c_19_apply]
  exact select_slt_zero_self _ _ h

/-- The gathered in-degree row of node r is the table row its degree names. -/
theorem v85_row (r : Fin 50000) (k : Fin 128) (h : DegOk (x2 (ix1 r))) :
    val_main_v85 (F := Ideal) x2 x18 (ix2 r k)
      = x18 (ix2 (⟨(x2 (ix1 r)).toInt.toNat, by have := h.1; have := h.2; omega⟩ : Fin 64) k) := by
  unfold val_main_v85
  refine (gather_row_apply _ x18 _ r k).trans ?_
  refine congrArg (fun j : Fin 64 => x18 (ix2 j k)) (Fin.ext ?_)
  show min (val_main_v84 (F := Ideal) x2 (ix2 r 0)).toInt.toNat 63 = (x2 (ix1 r)).toInt.toNat
  rw [v84_at x2 r h.1]
  have := h.1; have := h.2; omega

/-- The gathered in-degree row is the specification's one-hot contraction. -/
theorem v85_emb (r : Fin 50000) (k : Fin 128) (h : DegOk (x2 (ix1 r))) :
    val_main_v85 (F := Ideal) x2 x18 (ix2 r k) = Spec.emb (fun j k => x18 (ix2 j k)) (x2 (ix1 r)) k :=
  (v85_row x2 x18 r k h).trans (emb_row (fun j k => x18 (ix2 j k)) (x2 (ix1 r)) h k).symm

/-- The in side's term at (r, k): the second neighbour sum less the features plus the degree embedding. -/
theorem v86_at (r : Fin 50000) (k : Fin 128) (h : DegOk (x2 (ix1 r))) :
    val_main_v86 (F := Ideal) x0 x1 x2 x18 (ix2 r k)
      = val_main_v63 (F := Ideal) x0 x1 (ix2 r k) - x0 (ix2 r k) + Spec.emb (fun j k => x18 (ix2 j k)) (x2 (ix1 r)) k := by
  rw [val_main_v86_apply, val_main_v78_apply, v85_emb x2 x18 r k h]
  rfl

/-- The in logit of node r. -/
theorem v91_at (r : Fin 50000) (h : DegOk (x2 (ix1 r))) :
    val_main_v91 (F := Ideal) x0 x1 x2 x14 x15 x18 (ix2 r 0)
      = Spec.logit (fun k => val_main_v63 (F := Ideal) x0 x1 (ix2 r k)) (fun k => x0 (ix2 r k)) (fun j k => x18 (ix2 j k))
          (x2 (ix1 r)) (fun k => x14 (ix2 0 k)) (x15 (ix1 0)) := by
  rw [val_main_v91_apply, val_main_v88_apply, val_main_v90_apply, val_main_v89_apply, logit_eq]
  refine congrArg₂ (· + ·) (Finset.sum_congr rfl fun k _ => ?_)
    (congrArg x15 (funext fun a => Fin.ext (by match a with | ⟨0, _⟩ => rfl)))
  have el : lidx_main_v88 (ix2 r (0 : Fin 1)) k = ix2 r k :=
    funext fun a => Fin.ext (by match a with | ⟨0, _⟩ => rfl | ⟨1, _⟩ => rfl)
  rw [el, v86_at x0 x1 x2 x18 r k h, val_main_v87_apply]
  exact congrArg (fun t => _ * x14 t) (funext fun a => Fin.ext (by match a with | ⟨0, _⟩ => rfl | ⟨1, _⟩ => rfl))

/-! ## The pair of logits and its softmax -/

/-- Column 0 of the joined pair is the out logit. -/
theorem v92_0 (r : Fin 50000) :
    val_main_v92 (F := Ideal) x0 x1 x2 x3 x12 x13 x14 x15 x18 x19 (ix2 r 0)
      = val_main_v77 (F := Ideal) x0 x1 x3 x12 x13 x19 (ix2 r 0) := by
  unfold val_main_v92
  exact concatenate_pair_apply_left (t := S50000x2) (s₁ := S50000x1) (s₂ := S50000x1) (1 : Fin 2) _ _ _ (ix2 r (0 : Fin 2)) rfl (ix2 r (0 : Fin 1))
    (fun b => by match b with | ⟨0, _⟩ => rfl | ⟨1, _⟩ => rfl)

/-- Column 1 of the joined pair is the in logit. -/
theorem v92_1 (r : Fin 50000) :
    val_main_v92 (F := Ideal) x0 x1 x2 x3 x12 x13 x14 x15 x18 x19 (ix2 r 1)
      = val_main_v91 (F := Ideal) x0 x1 x2 x14 x15 x18 (ix2 r 0) := by
  unfold val_main_v92
  exact concatenate_pair_apply_right (t := S50000x2) (s₁ := S50000x1) (s₂ := S50000x1) (1 : Fin 2) _ _ _ (ix2 r (1 : Fin 2)) rfl rfl (ix2 r (0 : Fin 1))
    (fun b => by
      match b with
      | ⟨0, _⟩ => exact fun _ => rfl
      | ⟨1, _⟩ => exact fun hb => absurd rfl hb)
    rfl

/-- The maximum over the pair's axis from -∞ is the maximum of the pair. -/
theorem v93_at (r : Fin 50000) :
    val_main_v93 (F := Ideal) x0 x1 x2 x3 x12 x13 x14 x15 x18 x19 (ix1 r)
      = max (val_main_v92 (F := Ideal) x0 x1 x2 x3 x12 x13 x14 x15 x18 x19 (ix2 r 0))
          (val_main_v92 (F := Ideal) x0 x1 x2 x3 x12 x13 x14 x15 x18 x19 (ix2 r 1)) := by
  unfold val_main_v93
  generalize val_main_v92 (F := Ideal) x0 x1 x2 x3 x12 x13 x14 x15 x18 x19 = y
  have hR : S50000x2.Reduces [1] S50000 := by decide
  rw [Host.reduce_eq_fold_single (FloatOps.maximumf (F := Ideal) (φ := .f32)) y _ _ hR _ (ix1 r)]
  refine (fold_maximumf_pair _).trans ?_
  exact congrArg₂ max
    (congrArg y (funext fun c => Fin.ext (by match c with | ⟨0, _⟩ => rfl | ⟨1, _⟩ => rfl)))
    (congrArg y (funext fun c => Fin.ext (by match c with | ⟨0, _⟩ => rfl | ⟨1, _⟩ => rfl)))

/-- Taking the maximum with -∞ once more changes nothing. -/
theorem v95_at (r : Fin 50000) :
    val_main_v95 (F := Ideal) x0 x1 x2 x3 x12 x13 x14 x15 x18 x19 (ix1 r)
      = max (val_main_v92 (F := Ideal) x0 x1 x2 x3 x12 x13 x14 x15 x18 x19 (ix2 r 0))
          (val_main_v92 (F := Ideal) x0 x1 x2 x3 x12 x13 x14 x15 x18 x19 (ix2 r 1)) := by
  rw [val_main_v95_apply, val_main_v94_apply, val_main_cst_22_apply, v93_at]
  show max (Ideal.ofBits .f32 0xFF800000#32) _ = _
  rw [ofBits_neg_inf]
  simp

/-- Each column's exponential of its logit less the pair's maximum. -/
theorem v99_at (r : Fin 50000) (c : Fin 2) :
    val_main_v99 (F := Ideal) x0 x1 x2 x3 x12 x13 x14 x15 x18 x19 (ix2 r c)
      = Ideal.exp (val_main_v92 (F := Ideal) x0 x1 x2 x3 x12 x13 x14 x15 x18 x19 (ix2 r c)
          - max (val_main_v92 (F := Ideal) x0 x1 x2 x3 x12 x13 x14 x15 x18 x19 (ix2 r 0))
              (val_main_v92 (F := Ideal) x0 x1 x2 x3 x12 x13 x14 x15 x18 x19 (ix2 r 1))) := by
  have e : idx_main_v96 (idx_main_v97 (ix2 r c)) = ix1 r := funext fun a => Fin.ext (by match a with | ⟨0, _⟩ => rfl)
  rw [val_main_v99_apply, val_main_v98_apply, val_main_v97_apply, val_main_v96_apply, e, v95_at]
  rfl

/-- The sum over the pair's axis from 0 is the sum of the two exponentials. -/
theorem v100_at (r : Fin 50000) :
    val_main_v100 (F := Ideal) x0 x1 x2 x3 x12 x13 x14 x15 x18 x19 (ix1 r)
      = val_main_v99 (F := Ideal) x0 x1 x2 x3 x12 x13 x14 x15 x18 x19 (ix2 r 0)
        + val_main_v99 (F := Ideal) x0 x1 x2 x3 x12 x13 x14 x15 x18 x19 (ix2 r 1) := by
  have e0 : idx_main_v100 (ix1 r) 0 = ix2 r 0 := funext fun a => Fin.ext (by match a with | ⟨0, _⟩ => rfl | ⟨1, _⟩ => rfl)
  have e1 : idx_main_v100 (ix1 r) 1 = ix2 r 1 := funext fun a => Fin.ext (by match a with | ⟨0, _⟩ => rfl | ⟨1, _⟩ => rfl)
  rw [val_main_v100_apply, val_main_cst_23_apply, Fin.sum_univ_two, e0, e1]
  show Ideal.ofBits .f32 0x00000000#32 + _ = _
  rw [Ideal.ofBits_zero_f32, zero_add]

/-- Each column of the softmax: its exponential over the sum. -/
theorem v103_at (r : Fin 50000) (c : Fin 2) :
    val_main_v103 (F := Ideal) x0 x1 x2 x3 x12 x13 x14 x15 x18 x19 (ix2 r c)
      = Ideal.div (val_main_v99 (F := Ideal) x0 x1 x2 x3 x12 x13 x14 x15 x18 x19 (ix2 r c))
          (val_main_v99 (F := Ideal) x0 x1 x2 x3 x12 x13 x14 x15 x18 x19 (ix2 r 0)
            + val_main_v99 (F := Ideal) x0 x1 x2 x3 x12 x13 x14 x15 x18 x19 (ix2 r 1)) := by
  have e : idx_main_v101 (idx_main_v102 (ix2 r c)) = ix1 r := funext fun a => Fin.ext (by match a with | ⟨0, _⟩ => rfl)
  rw [val_main_v103_apply, val_main_v102_apply, val_main_v101_apply, e, v100_at]
  rfl

/-- The first softmax column of node r is the specification's first gate of the two logits. -/
theorem v104_at (r : Fin 50000) (hO : DegOk (x3 (ix1 r))) (hI : DegOk (x2 (ix1 r))) :
    val_main_v104 (F := Ideal) x0 x1 x2 x3 x12 x13 x14 x15 x18 x19 (ix2 r 0)
      = Spec.gate0
          (Spec.logit (fun k => val_main_v50 (F := Ideal) x0 x1 (ix2 r k)) (fun k => x0 (ix2 r k)) (fun j k => x19 (ix2 j k))
            (x3 (ix1 r)) (fun k => x12 (ix2 0 k)) (x13 (ix1 0)))
          (Spec.logit (fun k => val_main_v63 (F := Ideal) x0 x1 (ix2 r k)) (fun k => x0 (ix2 r k)) (fun j k => x18 (ix2 j k))
            (x2 (ix1 r)) (fun k => x14 (ix2 0 k)) (x15 (ix1 0))) := by
  have e : idx_main_v104 (ix2 r (0 : Fin 1)) = ix2 r 0 :=
    funext fun a => Fin.ext (by match a with | ⟨0, _⟩ => rfl | ⟨1, _⟩ => rfl)
  rw [val_main_v104_apply, e, v103_at, v99_at, v99_at, v92_0, v92_1, v77_at x0 x1 x3 x12 x13 x19 r hO,
    v91_at x0 x1 x2 x14 x15 x18 r hI]
  rfl

/-- The second softmax column of node r is the specification's second gate of the two logits. -/
theorem v109_at (r : Fin 50000) (hO : DegOk (x3 (ix1 r))) (hI : DegOk (x2 (ix1 r))) :
    val_main_v109 (F := Ideal) x0 x1 x2 x3 x12 x13 x14 x15 x18 x19 (ix2 r 0)
      = Spec.gate1
          (Spec.logit (fun k => val_main_v50 (F := Ideal) x0 x1 (ix2 r k)) (fun k => x0 (ix2 r k)) (fun j k => x19 (ix2 j k))
            (x3 (ix1 r)) (fun k => x12 (ix2 0 k)) (x13 (ix1 0)))
          (Spec.logit (fun k => val_main_v63 (F := Ideal) x0 x1 (ix2 r k)) (fun k => x0 (ix2 r k)) (fun j k => x18 (ix2 j k))
            (x2 (ix1 r)) (fun k => x14 (ix2 0 k)) (x15 (ix1 0))) := by
  have e : idx_main_v109 (ix2 r (0 : Fin 1)) = ix2 r 1 :=
    funext fun a => Fin.ext (by match a with | ⟨0, _⟩ => rfl | ⟨1, _⟩ => rfl)
  rw [val_main_v109_apply, e, v103_at, v99_at, v99_at, v92_0, v92_1, v77_at x0 x1 x3 x12 x13 x19 r hO,
    v91_at x0 x1 x2 x14 x15 x18 r hI]
  rfl

/-! ## The first two results -/

/-- The first result at node r is the specification's masked out-gate. -/
theorem ref_cOut (hO : ∀ r : Fin 50000, DegOk (x3 (ix1 r))) (hI : ∀ r : Fin 50000, DegOk (x2 (ix1 r))) (r : Fin 50000) :
    val_main_v108 (F := Ideal) x0 x1 x2 x3 x4 x5 x12 x13 x14 x15 x18 x19 (ix2 r 0)
      = Spec.cOut (fun k => x0 (ix2 r k)) (fun k => val_main_v50 (F := Ideal) x0 x1 (ix2 r k))
          (fun k => val_main_v63 (F := Ideal) x0 x1 (ix2 r k))
          (x2 (ix1 r)) (x3 (ix1 r)) (x4 (ix1 r)) (x5 (ix1 r)) (fun k => x12 (ix2 0 k)) (x13 (ix1 0)) (fun k => x14 (ix2 0 k))
          (x15 (ix1 0)) (fun j k => x18 (ix2 j k)) (fun j k => x19 (ix2 j k)) := by
  have e5 : idx_main_v105 (ix2 r (0 : Fin 1)) = ix1 r := funext fun a => Fin.ext (by match a with | ⟨0, _⟩ => rfl)
  have e7 : idx_main_v107 (ix2 r (0 : Fin 1)) = ix1 r := funext fun a => Fin.ext (by match a with | ⟨0, _⟩ => rfl)
  rw [val_main_v108_apply, val_main_v106_apply, val_main_v105_apply, val_main_v107_apply, e5, e7,
    v104_at x0 x1 x2 x3 x12 x13 x14 x15 x18 x19 r (hO r) (hI r)]
  rfl

/-- The second result at node r is the specification's masked in-gate. -/
theorem ref_cIn (hO : ∀ r : Fin 50000, DegOk (x3 (ix1 r))) (hI : ∀ r : Fin 50000, DegOk (x2 (ix1 r))) (r : Fin 50000) :
    val_main_v113 (F := Ideal) x0 x1 x2 x3 x6 x7 x12 x13 x14 x15 x18 x19 (ix2 r 0)
      = Spec.cIn (fun k => x0 (ix2 r k)) (fun k => val_main_v50 (F := Ideal) x0 x1 (ix2 r k))
          (fun k => val_main_v63 (F := Ideal) x0 x1 (ix2 r k))
          (x2 (ix1 r)) (x3 (ix1 r)) (x6 (ix1 r)) (x7 (ix1 r)) (fun k => x12 (ix2 0 k)) (x13 (ix1 0)) (fun k => x14 (ix2 0 k))
          (x15 (ix1 0)) (fun j k => x18 (ix2 j k)) (fun j k => x19 (ix2 j k)) := by
  have e10 : idx_main_v110 (ix2 r (0 : Fin 1)) = ix1 r := funext fun a => Fin.ext (by match a with | ⟨0, _⟩ => rfl)
  have e12 : idx_main_v112 (ix2 r (0 : Fin 1)) = ix1 r := funext fun a => Fin.ext (by match a with | ⟨0, _⟩ => rfl)
  rw [val_main_v113_apply, val_main_v111_apply, val_main_v110_apply, val_main_v112_apply, e10, e12,
    v109_at x0 x1 x2 x3 x12 x13 x14 x15 x18 x19 r (hO r) (hI r)]
  rfl

/-! ## The three linear layers and the third result -/

/-- The source layer applied to the first neighbour sum's row. -/
theorem v118_at (r : Fin 50000) (q : Fin 128) :
    val_main_v118 (F := Ideal) x0 x1 x8 x9 (ix2 r q)
      = Spec.proj (fun k => val_main_v50 (F := Ideal) x0 x1 (ix2 r k)) (fun q k => x8 (ix2 q k)) (fun q => x9 (ix1 q)) q := by
  rw [val_main_v118_apply, val_main_v115_apply, val_main_v117_apply, val_main_v116_apply, proj_eq]
  refine congrArg₂ (· + ·) (Finset.sum_congr rfl fun k _ => ?_)
    (congrArg x9 (funext fun a => Fin.ext (by match a with | ⟨0, _⟩ => rfl)))
  rw [val_main_v114_apply]
  exact congrArg₂ (· * ·)
    (congrArg (val_main_v50 (F := Ideal) x0 x1) (funext fun a => Fin.ext (by match a with | ⟨0, _⟩ => rfl | ⟨1, _⟩ => rfl)))
    (congrArg x8 (funext fun a => Fin.ext (by match a with | ⟨0, _⟩ => rfl | ⟨1, _⟩ => rfl)))

/-- The destination layer applied to the second neighbour sum's row. -/
theorem v125_at (r : Fin 50000) (q : Fin 128) :
    val_main_v125 (F := Ideal) x0 x1 x10 x11 (ix2 r q)
      = Spec.proj (fun k => val_main_v63 (F := Ideal) x0 x1 (ix2 r k)) (fun q k => x10 (ix2 q k)) (fun q => x11 (ix1 q)) q := by
  rw [val_main_v125_apply, val_main_v122_apply, val_main_v124_apply, val_main_v123_apply, proj_eq]
  refine congrArg₂ (· + ·) (Finset.sum_congr rfl fun k _ => ?_)
    (congrArg x11 (funext fun a => Fin.ext (by match a with | ⟨0, _⟩ => rfl)))
  rw [val_main_v121_apply]
  exact congrArg₂ (· * ·)
    (congrArg (val_main_v63 (F := Ideal) x0 x1) (funext fun a => Fin.ext (by match a with | ⟨0, _⟩ => rfl | ⟨1, _⟩ => rfl)))
    (congrArg x10 (funext fun a => Fin.ext (by match a with | ⟨0, _⟩ => rfl | ⟨1, _⟩ => rfl)))

/-- The self layer applied to the node's own row. -/
theorem v133_at (r : Fin 50000) (q : Fin 128) :
    val_main_v133 (F := Ideal) x0 x16 x17 (ix2 r q)
      = Spec.proj (fun k => x0 (ix2 r k)) (fun q k => x16 (ix2 q k)) (fun q => x17 (ix1 q)) q := by
  rw [val_main_v133_apply, val_main_v130_apply, val_main_v132_apply, val_main_v131_apply, proj_eq]
  refine congrArg₂ (· + ·) (Finset.sum_congr rfl fun k _ => ?_)
    (congrArg x17 (funext fun a => Fin.ext (by match a with | ⟨0, _⟩ => rfl)))
  rw [val_main_v129_apply]
  exact congrArg₂ (· * ·)
    (congrArg x0 (funext fun a => Fin.ext (by match a with | ⟨0, _⟩ => rfl | ⟨1, _⟩ => rfl)))
    (congrArg x16 (funext fun a => Fin.ext (by match a with | ⟨0, _⟩ => rfl | ⟨1, _⟩ => rfl)))

/-- The third result at (r, q) is the specification's output row of node r at q. -/
theorem ref_out (hO : ∀ r : Fin 50000, DegOk (x3 (ix1 r))) (hI : ∀ r : Fin 50000, DegOk (x2 (ix1 r))) (r : Fin 50000)
    (q : Fin 128) :
    val_main_v136 (F := Ideal) x0 x1 x2 x3 x4 x5 x6 x7 x8 x9 x10 x11 x12 x13 x14 x15 x16 x17 x18 x19 (ix2 r q)
      = Spec.out (fun k => x0 (ix2 r k)) (fun k => val_main_v50 (F := Ideal) x0 x1 (ix2 r k))
          (fun k => val_main_v63 (F := Ideal) x0 x1 (ix2 r k))
          (x2 (ix1 r)) (x3 (ix1 r)) (x4 (ix1 r)) (x5 (ix1 r)) (x6 (ix1 r)) (x7 (ix1 r)) (fun k => x12 (ix2 0 k)) (x13 (ix1 0))
          (fun k => x14 (ix2 0 k)) (x15 (ix1 0)) (fun j k => x18 (ix2 j k)) (fun j k => x19 (ix2 j k))
          (fun q k => x8 (ix2 q k)) (fun q => x9 (ix1 q)) (fun q k => x10 (ix2 q k)) (fun q => x11 (ix1 q))
          (fun q k => x16 (ix2 q k)) (fun q => x17 (ix1 q)) q := by
  have e19 : idx_main_v119 (ix2 r q) = ix2 r 0 :=
    funext fun a => Fin.ext (by match a with | ⟨0, _⟩ => rfl | ⟨1, _⟩ => rfl)
  have e26 : idx_main_v126 (ix2 r q) = ix2 r 0 :=
    funext fun a => Fin.ext (by match a with | ⟨0, _⟩ => rfl | ⟨1, _⟩ => rfl)
  rw [val_main_v136_apply, val_main_v128_apply, val_main_v120_apply, val_main_v127_apply, val_main_v135_apply,
    val_main_v119_apply, val_main_v126_apply, val_main_v134_apply, val_main_cst_24_apply, e19, e26,
    ref_cOut x0 x1 x2 x3 x4 x5 x12 x13 x14 x15 x18 x19 hO hI r, ref_cIn x0 x1 x2 x3 x6 x7 x12 x13 x14 x15 x18 x19 hO hI r,
    v118_at, v125_at, v133_at]
  rfl

end Cert.RefSpec

end
-- ==== Proof.DegPre.lean ====
/- The precondition, read: when the printed predicate is all ones, every entry of the two degree inputs is, as a
   signed word, at least 0 and less than 64 — the row numbers of the two 64-row embedding tables. The predicate is a
   conjunction whose last two conjuncts are the "all" of (d ≥ 0 and d < 64) over each degree input; the finiteness
   conjuncts before them are not opened. -/
import proofs.«402007_j15350213116045_2_alg».proof.Pre_finite_inputs
import proofs.«402007_j15350213116045_2_alg».proof.Proof.Spec
import Idealize.ShloMosaic.Lib.ReduceAll
import Idealize.ShloMosaic.Lib.Affine
import Idealize.ShloMosaic.Lib.ValueIdx

set_option maxRecDepth 16384

noncomputable section

namespace Cert.DegPre

open Idealize.ShloMosaic Idealize.ShloMosaic.ValueIdx Cert.Pre_finite_inputs Cert.Pre_finite_inputs.Facts Cert.Spec

variable [Cert.Pre_finite_inputs.Facts] {F : FTy → Type} [FloatOps F]

instance : Subsingleton S_.Idx := ⟨fun a b => funext fun d => d.elim0⟩

/-- One conjunct read: an "all" of (d ≥ 0 and d < 64) over a vector of words that is one says each word is in [0, 64). -/
theorem degOk_of_all (d : IVec S50000 32)
    (h : Host.reduce IntOp.andi
        (andi (cmpi .sge d (broadcastInDim S50000 ![] bcast_S_S50000 (constantI S_ 32 0#32)))
          (cmpi .slt d (broadcastInDim S50000 ![] bcast_S_S50000 (constantI S_ 32 64#32))))
        (constantI S_ 1 1#1) reducesTo_S50000_S_d0 h_S_ ix0 = 1#1) (r : Fin 50000) : DegOk (d (ix1 r)) := by
  have hr := Host.reduce_andi_all _ _ _ _ _ h (ix1 r)
  obtain ⟨hge, hlt⟩ := IntOp.andi_eq_one.mp hr
  have hge' := IntOp.cmpi_sge.mp hge
  have hlt' := IntOp.cmpi_slt.mp hlt
  refine ⟨?_, ?_⟩
  · have e : (broadcastInDim S50000 ![] bcast_S_S50000 (constantI S_ 32 0#32) (ix1 r)).toInt = 0 := by
      show (0#32 : BitVec 32).toInt = 0
      decide
    rw [e] at hge'
    exact hge'
  · have e : (broadcastInDim S50000 ![] bcast_S_S50000 (constantI S_ 32 64#32) (ix1 r)).toInt = 64 := by
      show (64#32 : BitVec 32).toInt = 64
      decide
    rw [e] at hlt'
    exact hlt'

/-- The whole predicate read at its last two conjuncts: both degree inputs are in range everywhere. -/
theorem degs_of_fn (a0 : FVec F S50000x128 .f32) (a1 : IVec S2x800000 32) (a2 : IVec S50000 32) (a3 : IVec S50000 32) (a4 : FVec F S50000 .f32) (a5 : FVec F S50000 .f32) (a6 : FVec F S50000 .f32) (a7 : FVec F S50000 .f32) (a8 : FVec F S128x128 .f32) (a9 : FVec F S128 .f32) (a10 : FVec F S128x128 .f32) (a11 : FVec F S128 .f32) (a12 : FVec F S1x128 .f32) (a13 : FVec F S1 .f32) (a14 : FVec F S1x128 .f32) (a15 : FVec F S1 .f32) (a16 : FVec F S128x128 .f32) (a17 : FVec F S128 .f32) (a18 : FVec F S64x128 .f32) (a19 : FVec F S64x128 .f32)
    (h : fn (F := F) a0 a1 a2 a3 a4 a5 a6 a7 a8 a9 a10 a11 a12 a13 a14 a15 a16 a17 a18 a19 = fun _ => 1#1) :
    (∀ r : Fin 50000, DegOk (a2 (ix1 r))) ∧ (∀ r : Fin 50000, DegOk (a3 (ix1 r))) := by
  have h0 := congrFun h ix0
  dsimp only [fn, fn_part1, fn_part2, fn_part3, fn_part4, fn_part5] at h0
  obtain ⟨h90, h96⟩ := IntOp.andi_eq_one.mp h0
  obtain ⟨-, h89⟩ := IntOp.andi_eq_one.mp h90
  exact ⟨fun r => degOk_of_all a2 h89 r, fun r => degOk_of_all a3 h96 r⟩

end Cert.DegPre

end
-- ==== Proof.Bridge.lean ====
/- The five conjuncts, assembled. The kernel program's run gives each result array as the specification's function of
   the node's rows, read off the arrays the region finds; those arrays are the argument arrays, the two neighbour sums
   the reference also forms, and packings and transposes of arguments; the reference's run gives the same functions of
   the same rows, its table gather being the one-hot contraction because every degree is a row number of the table. -/
import proofs.«402007_j15350213116045_2_alg».proof.Defs
import proofs.«402007_j15350213116045_2_alg».proof.Proof.Gen.Kernel
import proofs.«402007_j15350213116045_2_alg».proof.Proof.Gen.KernelIdeal
import proofs.«402007_j15350213116045_2_alg».proof.Proof.Gen.ReferenceIdeal
import proofs.«402007_j15350213116045_2_alg».proof.Proof.Gen.Pre_finite_inputs
import proofs.«402007_j15350213116045_2_alg».proof.Proof.Kernel.Frame
import proofs.«402007_j15350213116045_2_alg».proof.Proof.KernelIdeal.Frame
import proofs.«402007_j15350213116045_2_alg».proof.Proof.KValue
import proofs.«402007_j15350213116045_2_alg».proof.Proof.KHost
import proofs.«402007_j15350213116045_2_alg».proof.Proof.RefSpec
import proofs.«402007_j15350213116045_2_alg».proof.Proof.DegPre

set_option maxRecDepth 16384

noncomputable section

namespace Cert.Bridge

open Idealize.ShloMosaic Idealize.ShloMosaic.TcCoe Idealize.SL.Sem Idealize.ShloMosaic.ValueIdx
open Cert.KernelIdeal.Fr Cert.KernelIdeal.KV Cert.KernelIdeal

/-! ## The kernel's node functions over the argument arrays -/

section
variable (m : (ℓ : Loc Cert.KernelIdeal.nD Cert.KernelIdeal.τ Cert.KernelIdeal.sig) → Buf (Elt Ideal) ℓ) (c : Dev Cert.KernelIdeal.nD)

theorem nodeCOut_eq (r : Fin 50000) : nodeCOut m c r
    = Spec.cOut (fun k => (m ((c.tc : Thread Cert.KernelIdeal.nD Cert.KernelIdeal.τ).loc Cert.KernelIdeal.main_arg0)) (ix2 r k)) (fun k => Cert.ReferenceIdeal.ReadP.val_main_v50 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (ix2 r k)) (fun k => Cert.ReferenceIdeal.ReadP.val_main_v63 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (ix2 r k)) ((m ((c.tc : Thread Cert.KernelIdeal.nD Cert.KernelIdeal.τ).loc Cert.KernelIdeal.main_arg2)) (ix1 r)) ((m ((c.tc : Thread Cert.KernelIdeal.nD Cert.KernelIdeal.τ).loc Cert.KernelIdeal.main_arg3)) (ix1 r)) ((m ((c.tc : Thread Cert.KernelIdeal.nD Cert.KernelIdeal.τ).loc Cert.KernelIdeal.main_arg4)) (ix1 r)) ((m ((c.tc : Thread Cert.KernelIdeal.nD Cert.KernelIdeal.τ).loc Cert.KernelIdeal.main_arg5)) (ix1 r)) (fun k => (m ((c.tc : Thread Cert.KernelIdeal.nD Cert.KernelIdeal.τ).loc Cert.KernelIdeal.main_arg12)) (ix2 0 k)) ((m ((c.tc : Thread Cert.KernelIdeal.nD Cert.KernelIdeal.τ).loc Cert.KernelIdeal.main_arg13)) (ix1 0)) (fun k => (m ((c.tc : Thread Cert.KernelIdeal.nD Cert.KernelIdeal.τ).loc Cert.KernelIdeal.main_arg14)) (ix2 0 k)) ((m ((c.tc : Thread Cert.KernelIdeal.nD Cert.KernelIdeal.τ).loc Cert.KernelIdeal.main_arg15)) (ix1 0)) (fun j k => (m ((c.tc : Thread Cert.KernelIdeal.nD Cert.KernelIdeal.τ).loc Cert.KernelIdeal.main_arg18)) (ix2 j k)) (fun j k => (m ((c.tc : Thread Cert.KernelIdeal.nD Cert.KernelIdeal.τ).loc Cert.KernelIdeal.main_arg19)) (ix2 j k)) := by
  unfold nodeCOut
  simp only [Fr.V_main_arg0 m c, Fr.V_main_arg9 m c, Fr.V_main_arg11 m c, Fr.V_main_arg13 m c, Fr.V_main_arg15 m c, Fr.V_main_arg17 m c, Fr.V_main_arg18 m c, Fr.V_main_arg19 m c, KHost.V_v50 m c, KHost.V_v63 m c, KHost.V_v66_0 m c, KHost.V_v66_1 m c, KHost.V_v71_0 m c, KHost.V_v71_1 m c, KHost.V_v71_2 m c, KHost.V_v71_3 m c, KHost.V_v72 m c, KHost.V_v73 m c, KHost.V_v74 m c, KHost.V_v75 m c, KHost.V_v76 m c]

theorem nodeCIn_eq (r : Fin 50000) : nodeCIn m c r
    = Spec.cIn (fun k => (m ((c.tc : Thread Cert.KernelIdeal.nD Cert.KernelIdeal.τ).loc Cert.KernelIdeal.main_arg0)) (ix2 r k)) (fun k => Cert.ReferenceIdeal.ReadP.val_main_v50 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (ix2 r k)) (fun k => Cert.ReferenceIdeal.ReadP.val_main_v63 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (ix2 r k)) ((m ((c.tc : Thread Cert.KernelIdeal.nD Cert.KernelIdeal.τ).loc Cert.KernelIdeal.main_arg2)) (ix1 r)) ((m ((c.tc : Thread Cert.KernelIdeal.nD Cert.KernelIdeal.τ).loc Cert.KernelIdeal.main_arg3)) (ix1 r)) ((m ((c.tc : Thread Cert.KernelIdeal.nD Cert.KernelIdeal.τ).loc Cert.KernelIdeal.main_arg6)) (ix1 r)) ((m ((c.tc : Thread Cert.KernelIdeal.nD Cert.KernelIdeal.τ).loc Cert.KernelIdeal.main_arg7)) (ix1 r)) (fun k => (m ((c.tc : Thread Cert.KernelIdeal.nD Cert.KernelIdeal.τ).loc Cert.KernelIdeal.main_arg12)) (ix2 0 k)) ((m ((c.tc : Thread Cert.KernelIdeal.nD Cert.KernelIdeal.τ).loc Cert.KernelIdeal.main_arg13)) (ix1 0)) (fun k => (m ((c.tc : Thread Cert.KernelIdeal.nD Cert.KernelIdeal.τ).loc Cert.KernelIdeal.main_arg14)) (ix2 0 k)) ((m ((c.tc : Thread Cert.KernelIdeal.nD Cert.KernelIdeal.τ).loc Cert.KernelIdeal.main_arg15)) (ix1 0)) (fun j k => (m ((c.tc : Thread Cert.KernelIdeal.nD Cert.KernelIdeal.τ).loc Cert.KernelIdeal.main_arg18)) (ix2 j k)) (fun j k => (m ((c.tc : Thread Cert.KernelIdeal.nD Cert.KernelIdeal.τ).loc Cert.KernelIdeal.main_arg19)) (ix2 j k)) := by
  unfold nodeCIn
  simp only [Fr.V_main_arg0 m c, Fr.V_main_arg9 m c, Fr.V_main_arg11 m c, Fr.V_main_arg13 m c, Fr.V_main_arg15 m c, Fr.V_main_arg17 m c, Fr.V_main_arg18 m c, Fr.V_main_arg19 m c, KHost.V_v50 m c, KHost.V_v63 m c, KHost.V_v66_0 m c, KHost.V_v66_1 m c, KHost.V_v71_0 m c, KHost.V_v71_1 m c, KHost.V_v71_2 m c, KHost.V_v71_3 m c, KHost.V_v72 m c, KHost.V_v73 m c, KHost.V_v74 m c, KHost.V_v75 m c, KHost.V_v76 m c]

theorem nodeOut_eq (r : Fin 50000) (q : Fin 128) : nodeOut m c r q
    = Spec.out (fun k => (m ((c.tc : Thread Cert.KernelIdeal.nD Cert.KernelIdeal.τ).loc Cert.KernelIdeal.main_arg0)) (ix2 r k)) (fun k => Cert.ReferenceIdeal.ReadP.val_main_v50 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (ix2 r k)) (fun k => Cert.ReferenceIdeal.ReadP.val_main_v63 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (ix2 r k)) ((m ((c.tc : Thread Cert.KernelIdeal.nD Cert.KernelIdeal.τ).loc Cert.KernelIdeal.main_arg2)) (ix1 r)) ((m ((c.tc : Thread Cert.KernelIdeal.nD Cert.KernelIdeal.τ).loc Cert.KernelIdeal.main_arg3)) (ix1 r)) ((m ((c.tc : Thread Cert.KernelIdeal.nD Cert.KernelIdeal.τ).loc Cert.KernelIdeal.main_arg4)) (ix1 r)) ((m ((c.tc : Thread Cert.KernelIdeal.nD Cert.KernelIdeal.τ).loc Cert.KernelIdeal.main_arg5)) (ix1 r)) ((m ((c.tc : Thread Cert.KernelIdeal.nD Cert.KernelIdeal.τ).loc Cert.KernelIdeal.main_arg6)) (ix1 r)) ((m ((c.tc : Thread Cert.KernelIdeal.nD Cert.KernelIdeal.τ).loc Cert.KernelIdeal.main_arg7)) (ix1 r)) (fun k => (m ((c.tc : Thread Cert.KernelIdeal.nD Cert.KernelIdeal.τ).loc Cert.KernelIdeal.main_arg12)) (ix2 0 k)) ((m ((c.tc : Thread Cert.KernelIdeal.nD Cert.KernelIdeal.τ).loc Cert.KernelIdeal.main_arg13)) (ix1 0)) (fun k => (m ((c.tc : Thread Cert.KernelIdeal.nD Cert.KernelIdeal.τ).loc Cert.KernelIdeal.main_arg14)) (ix2 0 k)) ((m ((c.tc : Thread Cert.KernelIdeal.nD Cert.KernelIdeal.τ).loc Cert.KernelIdeal.main_arg15)) (ix1 0)) (fun j k => (m ((c.tc : Thread Cert.KernelIdeal.nD Cert.KernelIdeal.τ).loc Cert.KernelIdeal.main_arg18)) (ix2 j k)) (fun j k => (m ((c.tc : Thread Cert.KernelIdeal.nD Cert.KernelIdeal.τ).loc Cert.KernelIdeal.main_arg19)) (ix2 j k)) (fun q k => (m ((c.tc : Thread Cert.KernelIdeal.nD Cert.KernelIdeal.τ).loc Cert.KernelIdeal.main_arg8)) (ix2 q k)) (fun q => (m ((c.tc : Thread Cert.KernelIdeal.nD Cert.KernelIdeal.τ).loc Cert.KernelIdeal.main_arg9)) (ix1 q)) (fun q k => (m ((c.tc : Thread Cert.KernelIdeal.nD Cert.KernelIdeal.τ).loc Cert.KernelIdeal.main_arg10)) (ix2 q k)) (fun q => (m ((c.tc : Thread Cert.KernelIdeal.nD Cert.KernelIdeal.τ).loc Cert.KernelIdeal.main_arg11)) (ix1 q)) (fun q k => (m ((c.tc : Thread Cert.KernelIdeal.nD Cert.KernelIdeal.τ).loc Cert.KernelIdeal.main_arg16)) (ix2 q k)) (fun q => (m ((c.tc : Thread Cert.KernelIdeal.nD Cert.KernelIdeal.τ).loc Cert.KernelIdeal.main_arg17)) (ix1 q)) q := by
  unfold nodeOut
  simp only [Fr.V_main_arg0 m c, Fr.V_main_arg9 m c, Fr.V_main_arg11 m c, Fr.V_main_arg13 m c, Fr.V_main_arg15 m c, Fr.V_main_arg17 m c, Fr.V_main_arg18 m c, Fr.V_main_arg19 m c, KHost.V_v50 m c, KHost.V_v63 m c, KHost.V_v66_0 m c, KHost.V_v66_1 m c, KHost.V_v71_0 m c, KHost.V_v71_1 m c, KHost.V_v71_2 m c, KHost.V_v71_3 m c, KHost.V_v72 m c, KHost.V_v73 m c, KHost.V_v74 m c, KHost.V_v75 m c, KHost.V_v76 m c]
end

/-! ## The claims -/

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2.2.2) (Cert.ReferenceIdeal.ValueP.run (F := Ideal) m ρ)

set_option maxHeartbeats 4000000 in
theorem algebraic : Cert.algebraic_KernelIdeal_ReferenceIdeal := by
  intro m ρ m' ρ' hpre hagree
  have hdeg := fun c => Cert.DegPre.degs_of_fn _ _ _ _ _ _ _ _ _ _ _ _ _ _ _ _ _ _ _ _ (hpre c)
  refine ⟨fun c i => nodeOut m c (i 0) (i 1), fun c i => nodeCIn m c (i 0), fun c i => nodeCOut m c (i 0), ?_, ?_⟩
  · exact (θ_run Cert.KernelIdeal.defs _ _).mono (fun r h c =>
      ⟨(results_of_post m r h c).1, (results_of_post m r h c).2.1, (results_of_post m r h c).2.2,
        args_of_post m (dats m) (A_eq m) r h c⟩) (run_main m ρ)
  · refine (θ_run Cert.ReferenceIdeal.defs _ _).mono (fun r h c => ⟨(h c).1.trans ?_, (h c).2.1.trans ?_, (h c).2.2.1.trans ?_, (h c).2.2.2⟩)
      (Cert.ReferenceIdeal.ValueP.run (F := Ideal) m' ρ')
    · rw [Cert.ReferenceIdeal.ReadP.val_main_v136_eq]
      obtain ⟨e0, e1, e2, e3, e4, e5, e6, e7, e8, e9, e10, e11, e12, e13, e14, e15, e16, e17, e18, e19⟩ := hagree c
      rw [e0, e1, e2, e3, e4, e5, e6, e7, e8, e9, e10, e11, e12, e13, e14, e15, e16, e17, e18, e19]
      funext i
      obtain ⟨r, q, rfl⟩ : ∃ (r : Fin 50000) (q : Fin 128), i = ix2 r q := ⟨i 0, i 1, eq_ix2 i⟩
      exact (Cert.RefSpec.ref_out _ _ _ _ _ _ _ _ _ _ _ _ _ _ _ _ _ _ _ _ (hdeg c).2 (hdeg c).1 r q).trans (nodeOut_eq m c r q).symm
    · rw [Cert.ReferenceIdeal.ReadP.val_main_v113_eq]
      obtain ⟨e0, e1, e2, e3, e4, e5, e6, e7, e8, e9, e10, e11, e12, e13, e14, e15, e16, e17, e18, e19⟩ := hagree c
      rw [e0, e1, e2, e3, e6, e7, e12, e13, e14, e15, e18, e19]
      funext i
      obtain ⟨r, rfl⟩ : ∃ r : Fin 50000, i = ix2 r 0 := ⟨i 0, (eq_ix2 i).trans (by
        congr 1
        exact Fin.ext (by have h1 : (i 1).val < 1 := (i 1).isLt; show (i 1).val = 0; omega))⟩
      exact (Cert.RefSpec.ref_cIn _ _ _ _ _ _ _ _ _ _ _ _ (hdeg c).2 (hdeg c).1 r).trans (nodeCIn_eq m c r).symm
    · rw [Cert.ReferenceIdeal.ReadP.val_main_v108_eq]
      obtain ⟨e0, e1, e2, e3, e4, e5, e6, e7, e8, e9, e10, e11, e12, e13, e14, e15, e16, e17, e18, e19⟩ := hagree c
      rw [e0, e1, e2, e3, e4, e5, e12, e13, e14, e15, e18, e19]
      funext i
      obtain ⟨r, rfl⟩ : ∃ r : Fin 50000, i = ix2 r 0 := ⟨i 0, (eq_ix2 i).trans (by
        congr 1
        exact Fin.ext (by have h1 : (i 1).val < 1 := (i 1).isLt; show (i 1).val = 0; omega))⟩
      exact (Cert.RefSpec.ref_cOut _ _ _ _ _ _ _ _ _ _ _ _ (hdeg c).2 (hdeg c).1 r).trans (nodeCOut_eq m c r).symm

end Cert.Bridge

end
-- ==== Proof.lean ====
/- The two programs are one function. The kernel program and its jnp reference form the same two neighbour sums on
   the host; the kernel's one pallas_call then computes, block of 2000 nodes by block, the two degree-gated softmax
   gates and the gated sum of three linear layers that the reference computes on whole arrays. They agree at every
   node because a degree in [0, 64) picks the same table row through a one-hot contraction as through a gather, and
   everything else is the same sums and products in the same order. Stated under the precondition that the float
   inputs are finite and both degree inputs are row numbers of their 64-row tables.
   The frames of the two kernel programs are proved against the pipeline library's launch theorem (the body's triple
   run symbolically); the reference's frame is its run with the results dropped. -/
import proofs.«402007_j15350213116045_2_alg».proof.Defs
import proofs.«402007_j15350213116045_2_alg».proof.Proof.Gen.Kernel
import proofs.«402007_j15350213116045_2_alg».proof.Proof.Gen.Kernel.Skeleton
import proofs.«402007_j15350213116045_2_alg».proof.Proof.Gen.Kernel.Launch
import proofs.«402007_j15350213116045_2_alg».proof.Proof.Gen.Kernel.Points
import proofs.«402007_j15350213116045_2_alg».proof.Proof.Gen.KernelIdeal
import proofs.«402007_j15350213116045_2_alg».proof.Proof.Gen.KernelIdeal.Skeleton
import proofs.«402007_j15350213116045_2_alg».proof.Proof.Gen.KernelIdeal.Launch
import proofs.«402007_j15350213116045_2_alg».proof.Proof.Gen.KernelIdeal.Points
import proofs.«402007_j15350213116045_2_alg».proof.Proof.Gen.ReferenceIdeal
import proofs.«402007_j15350213116045_2_alg».proof.Proof.Gen.Pre_finite_inputs
import proofs.«402007_j15350213116045_2_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Bridge.frame_k, Cert.Bridge.frame_ki, Cert.Bridge.frame_ri, trivial, Cert.Bridge.algebraic⟩

end Cert.Proof

end
